-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S3x144x64 : Shape := ⟨3, ![3, 144, 64]⟩
abbrev S3x64 : Shape := ⟨2, ![3, 64]⟩
abbrev S3x128x64 : Shape := ⟨3, ![3, 128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x144x64 : S_.BroadcastsInDim S3x144x64 (![] : Fin 0 → Fin S3x144x64.rank)
  reducesTo_S3x144x64_S_d0_1_2 : S3x144x64.ReducesTo [0, 1, 2] S_
  bcast_S_S3x64 : S_.BroadcastsInDim S3x64 (![] : Fin 0 → Fin S3x64.rank)
  reducesTo_S3x64_S_d0_1 : S3x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S3x128x64 .f32) (main_arg6 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x128x64 .f32 := Host.absf main_arg5
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x64 .f32) (main_arg1 : IVec S2x800000 32) (main_arg2 : FVec F S800000x16 .f32) (main_arg3 : FVec F S3x144x64 .f32) (main_arg4 : FVec F S3x64 .f32) (main_arg5 : FVec F S3x128x64 .f32) (main_arg6 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x144x64 .f32 := Host.absf main_arg3
  let main_cst_2 : FVec F S_ .f32 := constant S_ .f32 0x7F800000#32
  let main_v10 : FVec F S3x144x64 .f32 := broadcastInDim S3x144x64 ![] bcast_S_S3x144x64 main_cst_2
  let main_v11 : IVec S3x144x64 1 := cmpf .olt main_v9 main_v10
  let main_c_3 : IVec S_ 1 := constantI S_ 1 1#1
  let main_v12 : IVec S_ 1 := (fun x v => Host.reduce IntOp.andi x v reducesTo_S3x144x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg5 main_arg6 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S3x144x64 : Shape := ⟨3, ![3, 144, 64]⟩
abbrev S3x64 : Shape := ⟨2, ![3, 64]⟩
abbrev S3x128x64 : Shape := ⟨3, ![3, 128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64x64 : Shape := ⟨3, ![1, 64, 64]⟩
abbrev S64x64 : Shape := ⟨2, ![64, 64]⟩
abbrev S1x16x64 : Shape := ⟨3, ![1, 16, 64]⟩
abbrev S16x64 : Shape := ⟨2, ![16, 64]⟩
abbrev S1x64 : Shape := ⟨2, ![1, 64]⟩
abbrev S64 : Shape := ⟨1, ![64]⟩
abbrev S10000x64 : Shape := ⟨2, ![10000, 64]⟩
abbrev S10000x16 : Shape := ⟨2, ![10000, 16]⟩

abbrev nBuf : Space → Nat
  | .hbm => 215
  | .vmem => 63
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S3x144x64, .f32⟩
  | 4 => ⟨S3x64, .f32⟩
  | 5 => ⟨S3x128x64, .f32⟩
  | 6 => ⟨S3x64, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S1, .i32⟩
  | 20 => ⟨S_, .i32⟩
  | 21 => ⟨S800000x1, .i32⟩
  | 22 => ⟨S800000x1, .i1⟩
  | 23 => ⟨S1x1, .i32⟩
  | 24 => ⟨S800000x1, .i32⟩
  | 25 => ⟨S800000x1, .i1⟩
  | 26 => ⟨S800000x1, .i1⟩
  | 27 => ⟨S_, .i1⟩
  | 28 => ⟨S800000, .i1⟩
  | 29 => ⟨S800000x64, .f32⟩
  | 30 => ⟨S800000x64, .i1⟩
  | 31 => ⟨S_, .f32⟩
  | 32 => ⟨S800000x64, .f32⟩
  | 33 => ⟨S800000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S1, .i32⟩
  | 43 => ⟨S_, .i32⟩
  | 44 => ⟨S800000x1, .i32⟩
  | 45 => ⟨S800000x1, .i1⟩
  | 46 => ⟨S1x1, .i32⟩
  | 47 => ⟨S800000x1, .i32⟩
  | 48 => ⟨S800000x1, .i1⟩
  | 49 => ⟨S800000x1, .i1⟩
  | 50 => ⟨S_, .i1⟩
  | 51 => ⟨S800000, .i1⟩
  | 52 => ⟨S800000x64, .f32⟩
  | 53 => ⟨S800000x64, .i1⟩
  | 54 => ⟨S_, .f32⟩
  | 55 => ⟨S800000x64, .f32⟩
  | 56 => ⟨S800000x64, .f32⟩
  | 57 => ⟨S1x64x64, .f32⟩
  | 58 => ⟨S64x64, .f32⟩
  | 59 => ⟨S1x64x64, .f32⟩
  | 60 => ⟨S64x64, .f32⟩
  | 61 => ⟨S1x16x64, .f32⟩
  | 62 => ⟨S16x64, .f32⟩
  | 63 => ⟨S1x64, .f32⟩
  | 64 => ⟨S64, .f32⟩
  | 65 => ⟨S1x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1x64x64, .f32⟩
  | 72 => ⟨S64x64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S1, .i32⟩
  | 88 => ⟨S_, .i32⟩
  | 89 => ⟨S800000x1, .i32⟩
  | 90 => ⟨S800000x1, .i1⟩
  | 91 => ⟨S1x1, .i32⟩
  | 92 => ⟨S800000x1, .i32⟩
  | 93 => ⟨S800000x1, .i1⟩
  | 94 => ⟨S800000x1, .i1⟩
  | 95 => ⟨S_, .i1⟩
  | 96 => ⟨S800000, .i1⟩
  | 97 => ⟨S800000x64, .f32⟩
  | 98 => ⟨S800000x64, .i1⟩
  | 99 => ⟨S_, .f32⟩
  | 100 => ⟨S800000x64, .f32⟩
  | 101 => ⟨S800000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S1, .i32⟩
  | 111 => ⟨S_, .i32⟩
  | 112 => ⟨S800000x1, .i32⟩
  | 113 => ⟨S800000x1, .i1⟩
  | 114 => ⟨S1x1, .i32⟩
  | 115 => ⟨S800000x1, .i32⟩
  | 116 => ⟨S800000x1, .i1⟩
  | 117 => ⟨S800000x1, .i1⟩
  | 118 => ⟨S_, .i1⟩
  | 119 => ⟨S800000, .i1⟩
  | 120 => ⟨S800000x64, .f32⟩
  | 121 => ⟨S800000x64, .i1⟩
  | 122 => ⟨S_, .f32⟩
  | 123 => ⟨S800000x64, .f32⟩
  | 124 => ⟨S800000x64, .f32⟩
  | 125 => ⟨S1x64x64, .f32⟩
  | 126 => ⟨S64x64, .f32⟩
  | 127 => ⟨S1x64x64, .f32⟩
  | _ => ⟨S50000x64, .f32⟩

abbrev hbmTy0_1 (i : Nat) : BufTy := match i % 128 with
  | 0 => ⟨S64x64, .f32⟩
  | 1 => ⟨S1x16x64, .f32⟩
  | 2 => ⟨S16x64, .f32⟩
  | 3 => ⟨S1x64, .f32⟩
  | 4 => ⟨S64, .f32⟩
  | 5 => ⟨S1x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S1x64x64, .f32⟩
  | 12 => ⟨S64x64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S50000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x64, .f32⟩
  | 61 => ⟨S800000x64, .i1⟩
  | 62 => ⟨S_, .f32⟩
  | 63 => ⟨S800000x64, .f32⟩
  | 64 => ⟨S800000x64, .f32⟩
  | 65 => ⟨S1x64x64, .f32⟩
  | 66 => ⟨S64x64, .f32⟩
  | 67 => ⟨S1x64x64, .f32⟩
  | 68 => ⟨S64x64, .f32⟩
  | 69 => ⟨S1x16x64, .f32⟩
  | 70 => ⟨S16x64, .f32⟩
  | 71 => ⟨S1x64, .f32⟩
  | 72 => ⟨S64, .f32⟩
  | 73 => ⟨S1x64, .f32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S1x64x64, .f32⟩
  | 80 => ⟨S64x64, .f32⟩
  | 81 => ⟨S1x64x64, .f32⟩
  | 82 => ⟨S64x64, .f32⟩
  | 83 => ⟨S1x64, .f32⟩
  | 84 => ⟨S64, .f32⟩
  | 85 => ⟨S1x64, .f32⟩
  | 86 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x16, .f32⟩
  | .local _ .vmem, ⟨5, _⟩ => ⟨S10000x16, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x16, .f32⟩
  | .local _ .vmem, ⟨26, _⟩ => ⟨S10000x16, .f32⟩
  | .local _ .vmem, ⟨27, _⟩ => ⟨S64x64, .f32⟩
  | .local _ .vmem, ⟨28, _⟩ => ⟨S64x64, .f32⟩
  | .local _ .vmem, ⟨29, _⟩ => ⟨S16x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64x64, .f32⟩
  | .local _ .vmem, ⟨38, _⟩ => ⟨S64x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x16, .f32⟩
  | .local _ .vmem, ⟨47, _⟩ => ⟨S10000x16, .f32⟩
  | .local _ .vmem, ⟨48, _⟩ => ⟨S64x64, .f32⟩
  | .local _ .vmem, ⟨49, _⟩ => ⟨S64x64, .f32⟩
  | .local _ .vmem, ⟨50, _⟩ => ⟨S16x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S10000x64, .f32⟩
  | .local _ .vmem, ⟨62, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_call0_c : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_c_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_c_1 : Ref sig .tc := ⟨.hbm, 19, rfl⟩
abbrev main_call0_call0_c_2 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_3 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst : Ref sig .tc := ⟨.hbm, 31, rfl⟩
abbrev main_call0_call0_v15 : Ref sig .tc := ⟨.hbm, 32, rfl⟩
abbrev main_call0_v4 : Ref sig .tc := ⟨.hbm, 33, rfl⟩
abbrev main_call0_call1_c : Ref sig .tc := ⟨.hbm, 34, rfl⟩
abbrev main_call0_call1_v0 : Ref sig .tc := ⟨.hbm, 35, rfl⟩
abbrev main_call0_call1_v1 : Ref sig .tc := ⟨.hbm, 36, rfl⟩
abbrev main_call0_call1_c_0 : Ref sig .tc := ⟨.hbm, 37, rfl⟩
abbrev main_call0_call1_v2 : Ref sig .tc := ⟨.hbm, 38, rfl⟩
abbrev main_call0_call1_v3 : Ref sig .tc := ⟨.hbm, 39, rfl⟩
abbrev main_call0_call1_v4 : Ref sig .tc := ⟨.hbm, 40, rfl⟩
abbrev main_call0_call1_v5 : Ref sig .tc := ⟨.hbm, 41, rfl⟩
abbrev main_call0_call1_c_1 : Ref sig .tc := ⟨.hbm, 42, rfl⟩
abbrev main_call0_call1_c_2 : Ref sig .tc := ⟨.hbm, 43, rfl⟩
abbrev main_call0_call1_v6 : Ref sig .tc := ⟨.hbm, 44, rfl⟩
abbrev main_call0_call1_v7 : Ref sig .tc := ⟨.hbm, 45, rfl⟩
abbrev main_call0_call1_v8 : Ref sig .tc := ⟨.hbm, 46, rfl⟩
abbrev main_call0_call1_v9 : Ref sig .tc := ⟨.hbm, 47, rfl⟩
abbrev main_call0_call1_v10 : Ref sig .tc := ⟨.hbm, 48, rfl⟩
abbrev main_call0_call1_v11 : Ref sig .tc := ⟨.hbm, 49, rfl⟩
abbrev main_call0_call1_c_3 : Ref sig .tc := ⟨.hbm, 50, rfl⟩
abbrev main_call0_call1_v12 : Ref sig .tc := ⟨.hbm, 51, rfl⟩
abbrev main_call0_call1_v13 : Ref sig .tc := ⟨.hbm, 52, rfl⟩
abbrev main_call0_call1_v14 : Ref sig .tc := ⟨.hbm, 53, rfl⟩
abbrev main_call0_call1_cst : Ref sig .tc := ⟨.hbm, 54, rfl⟩
abbrev main_call0_call1_v15 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_v15 : Ref sig .tc := ⟨.hbm, 66, rfl⟩
abbrev main_call0_cst : Ref sig .tc := ⟨.hbm, 67, rfl⟩
abbrev main_call0_v16 : Ref sig .tc := ⟨.hbm, 68, rfl⟩
abbrev main_call0_v17 : Ref sig .tc := ⟨.hbm, 69, rfl⟩
abbrev main_call0_v18 : Ref sig .tc := ⟨.hbm, 70, rfl⟩
abbrev main_call0_v19 : Ref sig .tc := ⟨.hbm, 71, rfl⟩
abbrev main_call0_v20 : Ref sig .tc := ⟨.hbm, 72, rfl⟩
abbrev main_call0_v21 : Ref sig .tc := ⟨.hbm, 73, rfl⟩
abbrev main_call0_v22 : Ref sig .tc := ⟨.hbm, 74, rfl⟩
abbrev main_call0_v23 : Ref sig .tc := ⟨.hbm, 75, rfl⟩
abbrev main_call0_v24 : Ref sig .tc := ⟨.hbm, 76, rfl⟩
abbrev main_call0_v25 : Ref sig .tc := ⟨.hbm, 77, rfl⟩
abbrev main_call0_v26 : Ref sig .tc := ⟨.hbm, 78, rfl⟩
abbrev main_call0_call2_c : Ref sig .tc := ⟨.hbm, 79, rfl⟩
abbrev main_call0_call2_v0 : Ref sig .tc := ⟨.hbm, 80, rfl⟩
abbrev main_call0_call2_v1 : Ref sig .tc := ⟨.hbm, 81, rfl⟩
abbrev main_call0_call2_c_0 : Ref sig .tc := ⟨.hbm, 82, rfl⟩
abbrev main_call0_call2_v2 : Ref sig .tc := ⟨.hbm, 83, rfl⟩
abbrev main_call0_call2_v3 : Ref sig .tc := ⟨.hbm, 84, rfl⟩
abbrev main_call0_call2_v4 : Ref sig .tc := ⟨.hbm, 85, rfl⟩
abbrev main_call0_call2_v5 : Ref sig .tc := ⟨.hbm, 86, rfl⟩
abbrev main_call0_call2_c_1 : Ref sig .tc := ⟨.hbm, 87, rfl⟩
abbrev main_call0_call2_c_2 : Ref sig .tc := ⟨.hbm, 88, rfl⟩
abbrev main_call0_call2_v6 : Ref sig .tc := ⟨.hbm, 89, rfl⟩
abbrev main_call0_call2_v7 : Ref sig .tc := ⟨.hbm, 90, rfl⟩
abbrev main_call0_call2_v8 : Ref sig .tc := ⟨.hbm, 91, rfl⟩
abbrev main_call0_call2_v9 : Ref sig .tc := ⟨.hbm, 92, rfl⟩
abbrev main_call0_call2_v10 : Ref sig .tc := ⟨.hbm, 93, rfl⟩
abbrev main_call0_call2_v11 : Ref sig .tc := ⟨.hbm, 94, rfl⟩
abbrev main_call0_call2_c_3 : Ref sig .tc := ⟨.hbm, 95, rfl⟩
abbrev main_call0_call2_v12 : Ref sig .tc := ⟨.hbm, 96, rfl⟩
abbrev main_call0_call2_v13 : Ref sig .tc := ⟨.hbm, 97, rfl⟩
abbrev main_call0_call2_v14 : Ref sig .tc := ⟨.hbm, 98, rfl⟩
abbrev main_call0_call2_cst : Ref sig .tc := ⟨.hbm, 99, rfl⟩
abbrev main_call0_call2_v15 : Ref sig .tc := ⟨.hbm, 100, rfl⟩
abbrev main_call0_v27 : Ref sig .tc := ⟨.hbm, 101, rfl⟩
abbrev main_call0_call3_c : Ref sig .tc := ⟨.hbm, 102, rfl⟩
abbrev main_call0_call3_v0 : Ref sig .tc := ⟨.hbm, 103, rfl⟩
abbrev main_call0_call3_v1 : Ref sig .tc := ⟨.hbm, 104, rfl⟩
abbrev main_call0_call3_c_0 : Ref sig .tc := ⟨.hbm, 105, rfl⟩
abbrev main_call0_call3_v2 : Ref sig .tc := ⟨.hbm, 106, rfl⟩
abbrev main_call0_call3_v3 : Ref sig .tc := ⟨.hbm, 107, rfl⟩
abbrev main_call0_call3_v4 : Ref sig .tc := ⟨.hbm, 108, rfl⟩
abbrev main_call0_call3_v5 : Ref sig .tc := ⟨.hbm, 109, rfl⟩
abbrev main_call0_call3_c_1 : Ref sig .tc := ⟨.hbm, 110, rfl⟩
abbrev main_call0_call3_c_2 : Ref sig .tc := ⟨.hbm, 111, rfl⟩
abbrev main_call0_call3_v6 : Ref sig .tc := ⟨.hbm, 112, rfl⟩
abbrev main_call0_call3_v7 : Ref sig .tc := ⟨.hbm, 113, rfl⟩
abbrev main_call0_call3_v8 : Ref sig .tc := ⟨.hbm, 114, rfl⟩
abbrev main_call0_call3_v9 : Ref sig .tc := ⟨.hbm, 115, rfl⟩
abbrev main_call0_call3_v10 : Ref sig .tc := ⟨.hbm, 116, rfl⟩
abbrev main_call0_call3_v11 : Ref sig .tc := ⟨.hbm, 117, rfl⟩
abbrev main_call0_call3_c_3 : Ref sig .tc := ⟨.hbm, 118, rfl⟩
abbrev main_call0_call3_v12 : Ref sig .tc := ⟨.hbm, 119, rfl⟩
abbrev main_call0_call3_v13 : Ref sig .tc := ⟨.hbm, 120, rfl⟩
abbrev main_call0_call3_v14 : Ref sig .tc := ⟨.hbm, 121, rfl⟩
abbrev main_call0_call3_cst : Ref sig .tc := ⟨.hbm, 122, rfl⟩
abbrev main_call0_call3_v15 : Ref sig .tc := ⟨.hbm, 123, rfl⟩
abbrev main_call0_v28 : Ref sig .tc := ⟨.hbm, 124, rfl⟩
abbrev main_call0_v29 : Ref sig .tc := ⟨.hbm, 125, rfl⟩
abbrev main_call0_v30 : Ref sig .tc := ⟨.hbm, 126, rfl⟩
abbrev main_call0_v31 : Ref sig .tc := ⟨.hbm, 127, rfl⟩
abbrev main_call0_v32 : Ref sig .tc := ⟨.hbm, 128, rfl⟩
abbrev main_call0_v33 : Ref sig .tc := ⟨.hbm, 129, rfl⟩
abbrev main_call0_v34 : Ref sig .tc := ⟨.hbm, 130, rfl⟩
abbrev main_call0_v35 : Ref sig .tc := ⟨.hbm, 131, rfl⟩
abbrev main_call0_v36 : Ref sig .tc := ⟨.hbm, 132, rfl⟩
abbrev main_call0_v37 : Ref sig .tc := ⟨.hbm, 133, rfl⟩
abbrev main_call0_v38 : Ref sig .tc := ⟨.hbm, 134, rfl⟩
abbrev main_call0_cst_0 : Ref sig .tc := ⟨.hbm, 135, rfl⟩
abbrev main_call0_v39 : Ref sig .tc := ⟨.hbm, 136, rfl⟩
abbrev main_call0_v40 : Ref sig .tc := ⟨.hbm, 137, rfl⟩
abbrev main_call0_v41 : Ref sig .tc := ⟨.hbm, 138, rfl⟩
abbrev main_call0_v42 : Ref sig .tc := ⟨.hbm, 139, rfl⟩
abbrev main_call0_v43 : Ref sig .tc := ⟨.hbm, 140, rfl⟩
abbrev main_call0_v44 : Ref sig .tc := ⟨.hbm, 141, rfl⟩
abbrev main_call0_v45 : Ref sig .tc := ⟨.hbm, 142, rfl⟩
abbrev main_call0_v46 : Ref sig .tc := ⟨.hbm, 143, rfl⟩
abbrev main_call0_v47 : Ref sig .tc := ⟨.hbm, 144, rfl⟩
abbrev main_call0_v48 : Ref sig .tc := ⟨.hbm, 145, rfl⟩
abbrev main_call0_v49 : Ref sig .tc := ⟨.hbm, 146, rfl⟩
abbrev main_call0_call4_c : Ref sig .tc := ⟨.hbm, 147, rfl⟩
abbrev main_call0_call4_v0 : Ref sig .tc := ⟨.hbm, 148, rfl⟩
abbrev main_call0_call4_v1 : Ref sig .tc := ⟨.hbm, 149, rfl⟩
abbrev main_call0_call4_c_0 : Ref sig .tc := ⟨.hbm, 150, rfl⟩
abbrev main_call0_call4_v2 : Ref sig .tc := ⟨.hbm, 151, rfl⟩
abbrev main_call0_call4_v3 : Ref sig .tc := ⟨.hbm, 152, rfl⟩
abbrev main_call0_call4_v4 : Ref sig .tc := ⟨.hbm, 153, rfl⟩
abbrev main_call0_call4_v5 : Ref sig .tc := ⟨.hbm, 154, rfl⟩
abbrev main_call0_call4_c_1 : Ref sig .tc := ⟨.hbm, 155, rfl⟩
abbrev main_call0_call4_c_2 : Ref sig .tc := ⟨.hbm, 156, rfl⟩
abbrev main_call0_call4_v6 : Ref sig .tc := ⟨.hbm, 157, rfl⟩
abbrev main_call0_call4_v7 : Ref sig .tc := ⟨.hbm, 158, rfl⟩
abbrev main_call0_call4_v8 : Ref sig .tc := ⟨.hbm, 159, rfl⟩
abbrev main_call0_call4_v9 : Ref sig .tc := ⟨.hbm, 160, rfl⟩
abbrev main_call0_call4_v10 : Ref sig .tc := ⟨.hbm, 161, rfl⟩
abbrev main_call0_call4_v11 : Ref sig .tc := ⟨.hbm, 162, rfl⟩
abbrev main_call0_call4_c_3 : Ref sig .tc := ⟨.hbm, 163, rfl⟩
abbrev main_call0_call4_v12 : Ref sig .tc := ⟨.hbm, 164, rfl⟩
abbrev main_call0_call4_v13 : Ref sig .tc := ⟨.hbm, 165, rfl⟩
abbrev main_call0_call4_v14 : Ref sig .tc := ⟨.hbm, 166, rfl⟩
abbrev main_call0_call4_cst : Ref sig .tc := ⟨.hbm, 167, rfl⟩
abbrev main_call0_call4_v15 : Ref sig .tc := ⟨.hbm, 168, rfl⟩
abbrev main_call0_v50 : Ref sig .tc := ⟨.hbm, 169, rfl⟩
abbrev main_call0_call5_c : Ref sig .tc := ⟨.hbm, 170, rfl⟩
abbrev main_call0_call5_v0 : Ref sig .tc := ⟨.hbm, 171, rfl⟩
abbrev main_call0_call5_v1 : Ref sig .tc := ⟨.hbm, 172, rfl⟩
abbrev main_call0_call5_c_0 : Ref sig .tc := ⟨.hbm, 173, rfl⟩
abbrev main_call0_call5_v2 : Ref sig .tc := ⟨.hbm, 174, rfl⟩
abbrev main_call0_call5_v3 : Ref sig .tc := ⟨.hbm, 175, rfl⟩
abbrev main_call0_call5_v4 : Ref sig .tc := ⟨.hbm, 176, rfl⟩
abbrev main_call0_call5_v5 : Ref sig .tc := ⟨.hbm, 177, rfl⟩
abbrev main_call0_call5_c_1 : Ref sig .tc := ⟨.hbm, 178, rfl⟩
abbrev main_call0_call5_c_2 : Ref sig .tc := ⟨.hbm, 179, rfl⟩
abbrev main_call0_call5_v6 : Ref sig .tc := ⟨.hbm, 180, rfl⟩
abbrev main_call0_call5_v7 : Ref sig .tc := ⟨.hbm, 181, rfl⟩
abbrev main_call0_call5_v8 : Ref sig .tc := ⟨.hbm, 182, rfl⟩
abbrev main_call0_call5_v9 : Ref sig .tc := ⟨.hbm, 183, rfl⟩
abbrev main_call0_call5_v10 : Ref sig .tc := ⟨.hbm, 184, rfl⟩
abbrev main_call0_call5_v11 : Ref sig .tc := ⟨.hbm, 185, rfl⟩
abbrev main_call0_call5_c_3 : Ref sig .tc := ⟨.hbm, 186, rfl⟩
abbrev main_call0_call5_v12 : Ref sig .tc := ⟨.hbm, 187, rfl⟩
abbrev main_call0_call5_v13 : Ref sig .tc := ⟨.hbm, 188, rfl⟩
abbrev main_call0_call5_v14 : Ref sig .tc := ⟨.hbm, 189, rfl⟩
abbrev main_call0_call5_cst : Ref sig .tc := ⟨.hbm, 190, rfl⟩
abbrev main_call0_call5_v15 : Ref sig .tc := ⟨.hbm, 191, rfl⟩
abbrev main_call0_v51 : Ref sig .tc := ⟨.hbm, 192, rfl⟩
abbrev main_call0_v52 : Ref sig .tc := ⟨.hbm, 193, rfl⟩
abbrev main_call0_v53 : Ref sig .tc := ⟨.hbm, 194, rfl⟩
abbrev main_call0_v54 : Ref sig .tc := ⟨.hbm, 195, rfl⟩
abbrev main_call0_v55 : Ref sig .tc := ⟨.hbm, 196, rfl⟩
abbrev main_call0_v56 : Ref sig .tc := ⟨.hbm, 197, rfl⟩
abbrev main_call0_v57 : Ref sig .tc := ⟨.hbm, 198, rfl⟩
abbrev main_call0_v58 : Ref sig .tc := ⟨.hbm, 199, rfl⟩
abbrev main_call0_v59 : Ref sig .tc := ⟨.hbm, 200, rfl⟩
abbrev main_call0_v60 : Ref sig .tc := ⟨.hbm, 201, rfl⟩
abbrev main_call0_v61 : Ref sig .tc := ⟨.hbm, 202, rfl⟩
abbrev main_call0_cst_1 : Ref sig .tc := ⟨.hbm, 203, rfl⟩
abbrev main_call0_v62 : Ref sig .tc := ⟨.hbm, 204, rfl⟩
abbrev main_call0_v63 : Ref sig .tc := ⟨.hbm, 205, rfl⟩
abbrev main_call0_v64 : Ref sig .tc := ⟨.hbm, 206, rfl⟩
abbrev main_call0_v65 : Ref sig .tc := ⟨.hbm, 207, rfl⟩
abbrev main_call0_v66 : Ref sig .tc := ⟨.hbm, 208, rfl⟩
abbrev main_call0_v67 : Ref sig .tc := ⟨.hbm, 209, rfl⟩
abbrev main_call0_v68 : Ref sig .tc := ⟨.hbm, 210, rfl⟩
abbrev main_call0_v69 : Ref sig .tc := ⟨.hbm, 211, rfl⟩
abbrev main_call0_v70 : Ref sig .tc := ⟨.hbm, 212, rfl⟩
abbrev main_call0_v71 : Ref sig .tc := ⟨.hbm, 213, rfl⟩
abbrev main_v0 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x144x64_S1x64x64_0_0_0 : S3x144x64.Slices ![0, 0, 0] S1x64x64
  shapeCasts_S1x64x64_S64x64 : S1x64x64.ShapeCasts S64x64
  slices_S3x144x64_S1x64x64_0_64_0 : S3x144x64.Slices ![0, 64, 0] S1x64x64
  slices_S3x144x64_S1x16x64_0_128_0 : S3x144x64.Slices ![0, 128, 0] S1x16x64
  shapeCasts_S1x16x64_S16x64 : S1x16x64.ShapeCasts S16x64
  slices_S3x64_S1x64_0_0 : S3x64.Slices ![0, 0] S1x64
  shapeCasts_S1x64_S64 : S1x64.ShapeCasts S64
  shapeCasts_S64_S1x64 : S64.ShapeCasts S1x64
  bcast_S_S50000x64 : S_.BroadcastsInDim S50000x64 (![] : Fin 0 → Fin S50000x64.rank)
  slices_S3x128x64_S1x64x64_0_0_0 : S3x128x64.Slices ![0, 0, 0] S1x64x64
  slices_S3x128x64_S1x64x64_0_64_0 : S3x128x64.Slices ![0, 64, 0] S1x64x64
  slices_S3x144x64_S1x64x64_1_0_0 : S3x144x64.Slices ![1, 0, 0] S1x64x64
  slices_S3x144x64_S1x64x64_1_64_0 : S3x144x64.Slices ![1, 64, 0] S1x64x64
  slices_S3x144x64_S1x16x64_1_128_0 : S3x144x64.Slices ![1, 128, 0] S1x16x64
  slices_S3x64_S1x64_1_0 : S3x64.Slices ![1, 0] S1x64
  slices_S3x128x64_S1x64x64_1_0_0 : S3x128x64.Slices ![1, 0, 0] S1x64x64
  slices_S3x128x64_S1x64x64_1_64_0 : S3x128x64.Slices ![1, 64, 0] S1x64x64
  slices_S3x144x64_S1x64x64_2_0_0 : S3x144x64.Slices ![2, 0, 0] S1x64x64
  slices_S3x144x64_S1x64x64_2_64_0 : S3x144x64.Slices ![2, 64, 0] S1x64x64
  slices_S3x144x64_S1x16x64_2_128_0 : S3x144x64.Slices ![2, 128, 0] S1x16x64
  slices_S3x64_S1x64_2_0 : S3x64.Slices ![2, 0] S1x64
  slices_S3x128x64_S1x64x64_2_0_0 : S3x128x64.Slices ![2, 0, 0] S1x64x64
  slices_S3x128x64_S1x64x64_2_64_0 : S3x128x64.Slices ![2, 64, 0] S1x64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x16_S16x64_S10000x64_1_0_0_1_n_n_wf : DotDims.WF S10000x16 S16x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S800000x16.size a
  hwx0_2 : ∀ i : grid0.Coords, EltTy.bits .f32 = 32 ∨ (Rect.block (s := S800000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S800000x64.size a
  hwx0_7 : ∀ i : grid0.Coords, EltTy.bits .f32 = 32 ∨ (Rect.block (s := S800000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S800000x16.size a
  hwx2_2 : ∀ i : grid2.Coords, EltTy.bits .f32 = 32 ∨ (Rect.block (s := S800000x16) S10000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S800000x64.size a
  hwx2_7 : ∀ i : grid2.Coords, EltTy.bits .f32 = 32 ∨ (Rect.block (s := S800000x64) S10000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S800000x16.size a
  hwx4_2 : ∀ i : grid4.Coords, EltTy.bits .f32 = 32 ∨ (Rect.block (s := S800000x16) S10000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x64.size a ≤ S16x64.size a
  hwx4_5 : ∀ i : grid4.Coords, EltTy.bits .f32 = 32 ∨ (Rect.block (s := S16x64) S16x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x64.size a ≤ S800000x64.size a
  hwx4_7 : ∀ i : grid4.Coords, EltTy.bits .f32 = 32 ∨ (Rect.block (s := S800000x64) S10000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf

abbrev win0_0 : Pipeline.Window sig grid0 :=
  Pipeline.Window.ofSpec (Memref.whole main_call0_v4) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v15) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v18) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v20) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v22) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v26) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v27) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v28) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S10000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v30) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v32) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v34) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v37) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v38) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v26) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v41) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v43) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v45) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v49) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v50) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v51) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S10000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v53) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v55) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v57) S16x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v60) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v61) S10000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_call0_v49) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v64) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v66) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v68) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S3x144x64 : Shape := ⟨3, ![3, 144, 64]⟩
abbrev S3x64 : Shape := ⟨2, ![3, 64]⟩
abbrev S3x128x64 : Shape := ⟨3, ![3, 128, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S1x144x64 : Shape := ⟨3, ![1, 144, 64]⟩
abbrev S144x64 : Shape := ⟨2, ![144, 64]⟩
abbrev S1x64 : Shape := ⟨2, ![1, 64]⟩
abbrev S64 : Shape := ⟨1, ![64]⟩
abbrev S50000x128 : Shape := ⟨2, ![50000, 128]⟩
abbrev S1x128x64 : Shape := ⟨3, ![1, 128, 64]⟩
abbrev S128x64 : Shape := ⟨2, ![128, 64]⟩

abbrev nBuf : Space → Nat
  | .hbm => 149
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S3x144x64, .f32⟩
  | 4 => ⟨S3x64, .f32⟩
  | 5 => ⟨S3x128x64, .f32⟩
  | 6 => ⟨S3x64, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x144, .f32⟩
  | 30 => ⟨S1x144x64, .f32⟩
  | 31 => ⟨S144x64, .f32⟩
  | 32 => ⟨S800000x64, .f32⟩
  | 33 => ⟨S1x64, .f32⟩
  | 34 => ⟨S64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S50000x128, .f32⟩
  | 46 => ⟨S1x128x64, .f32⟩
  | 47 => ⟨S128x64, .f32⟩
  | 48 => ⟨S50000x64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x144, .f32⟩
  | 76 => ⟨S1x144x64, .f32⟩
  | 77 => ⟨S144x64, .f32⟩
  | 78 => ⟨S800000x64, .f32⟩
  | 79 => ⟨S1x64, .f32⟩
  | 80 => ⟨S64, .f32⟩
  | 81 => ⟨S1x64, .f32⟩
  | 82 => ⟨S800000x64, .f32⟩
  | 83 => ⟨S800000x64, .f32⟩
  | 84 => ⟨S_, .f32⟩
  | 85 => ⟨S800000x64, .f32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S50000x128, .f32⟩
  | 92 => ⟨S1x128x64, .f32⟩
  | 93 => ⟨S128x64, .f32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x144, .f32⟩
  | 122 => ⟨S1x144x64, .f32⟩
  | 123 => ⟨S144x64, .f32⟩
  | 124 => ⟨S800000x64, .f32⟩
  | 125 => ⟨S1x64, .f32⟩
  | 126 => ⟨S64, .f32⟩
  | 127 => ⟨S1x64, .f32⟩
  | _ => ⟨S50000x64, .f32⟩

abbrev hbmTy0_1 (i : Nat) : BufTy := match i % 128 with
  | 0 => ⟨S800000x64, .f32⟩
  | 1 => ⟨S800000x64, .f32⟩
  | 2 => ⟨S_, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S50000x128, .f32⟩
  | 10 => ⟨S1x128x64, .f32⟩
  | 11 => ⟨S128x64, .f32⟩
  | 12 => ⟨S50000x64, .f32⟩
  | 13 => ⟨S1x64, .f32⟩
  | 14 => ⟨S64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_cst : Ref sig .tc := ⟨.hbm, 38, rfl⟩
abbrev main_call0_v0 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call1_cst : Ref sig .tc := ⟨.hbm, 54, rfl⟩
abbrev main_call1_v0 : Ref sig .tc := ⟨.hbm, 55, rfl⟩
abbrev main_v40 : Ref sig .tc := ⟨.hbm, 56, rfl⟩
abbrev main_c_3 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call2_cst : Ref sig .tc := ⟨.hbm, 84, rfl⟩
abbrev main_call2_v0 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_call3_cst : Ref sig .tc := ⟨.hbm, 100, rfl⟩
abbrev main_call3_v0 : Ref sig .tc := ⟨.hbm, 101, rfl⟩
abbrev main_v77 : Ref sig .tc := ⟨.hbm, 102, rfl⟩
abbrev main_c_8 : Ref sig .tc := ⟨.hbm, 103, rfl⟩
abbrev main_v78 : Ref sig .tc := ⟨.hbm, 104, rfl⟩
abbrev main_v79 : Ref sig .tc := ⟨.hbm, 105, rfl⟩
abbrev main_c_9 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_10 : Ref sig .tc := ⟨.hbm, 112, rfl⟩
abbrev main_v85 : Ref sig .tc := ⟨.hbm, 113, rfl⟩
abbrev main_v86 : Ref sig .tc := ⟨.hbm, 114, rfl⟩
abbrev main_c_11 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call4_cst : Ref sig .tc := ⟨.hbm, 130, rfl⟩
abbrev main_call4_v0 : Ref sig .tc := ⟨.hbm, 131, rfl⟩
abbrev main_v101 : Ref sig .tc := ⟨.hbm, 132, rfl⟩
abbrev main_cst_12 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_call5_cst : Ref sig .tc := ⟨.hbm, 146, rfl⟩
abbrev main_call5_v0 : Ref sig .tc := ⟨.hbm, 147, rfl⟩
abbrev main_v114 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  slices_S3x144x64_S1x144x64_0_0_0 : S3x144x64.Slices ![0, 0, 0] S1x144x64
  shapeCasts_S1x144x64_S144x64 : S1x144x64.ShapeCasts S144x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  slices_S3x128x64_S1x128x64_0_0_0 : S3x128x64.Slices ![0, 0, 0] S1x128x64
  shapeCasts_S1x128x64_S128x64 : S1x128x64.ShapeCasts S128x64
  bcast_S1x64_S50000x64_0_1 : S1x64.BroadcastsInDim S50000x64 (![0, 1] : Fin 2 → Fin S50000x64.rank)
  slices_S3x144x64_S1x144x64_1_0_0 : S3x144x64.Slices ![1, 0, 0] S1x144x64
  slices_S3x64_S1x64_1_0 : S3x64.Slices ![1, 0] S1x64
  slices_S3x128x64_S1x128x64_1_0_0 : S3x128x64.Slices ![1, 0, 0] S1x128x64
  slices_S3x144x64_S1x144x64_2_0_0 : S3x144x64.Slices ![2, 0, 0] S1x144x64
  slices_S3x64_S1x64_2_0 : S3x64.Slices ![2, 0] S1x64
  slices_S3x128x64_S1x128x64_2_0_0 : S3x128x64.Slices ![2, 0, 0] S1x128x64
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KDefs.lean ====
/-
  The host side of the kernel's program, as plain functions of arrays: the two rows of the edge list, the row gather
  with its out-of-range fill, the scatter-add of the messages into their destination rows, and the bands of the
  layers' weights and biases as the kernel's launches receive them.
-/
import proofs.«422810_j33131377721479_3_alg».proof.Proof.Gen.KernelIdeal

noncomputable section

namespace Cert.KernelIdeal.KV

open Idealize.ShloMosaic Idealize.ShloMosaic.TcCoe Idealize.SL.Sem
open Cert.KernelIdeal Cert.KernelIdeal.Gen

variable {F : FTy → Type} [FloatOps F]

/-- Row 1 of the edge list: each edge's destination node. -/
def dstJ (ei : IVec S2x800000 32) : IVec S800000 32 :=
  shapeCast S800000 (extractStridedSlice S1x800000 ![1, 0] ei slices_S2x800000_S1x800000_1_0) shapeCasts_S1x800000_S800000

/-- Row 0 of the edge list: each edge's source node. -/
def srcJ (ei : IVec S2x800000 32) : IVec S800000 32 :=
  shapeCast S800000 (extractStridedSlice S1x800000 ![0, 0] ei slices_S2x800000_S1x800000_0_0) shapeCasts_S1x800000_S800000

/-- A node index made non-negative the way array indexing does (a negative index counts from the end), as the
    one-column index array the gather takes. -/
def wrapJ (J : IVec S800000 32) : IVec S800000x1 32 :=
  broadcastInDim S800000x1 ![0] bcast_S800000_S800000x1_0
    (select (cmpi .slt J (broadcastInDim S800000 ![] bcast_S_S800000 (constantI S_ 32 0#32)))
      (addi J (broadcastInDim S800000 ![] bcast_S_S800000 (constantI S_ 32 50000#32))) J)

/-- The rows of `X` at the (wrapped) indices: the gather itself, which both programs share. -/
def gatherRows (X : FVec F S50000x64 .f32) (I : IVec S800000x1 32) : FVec F S800000x64 .f32 :=
  Host.gather gather_S50000x64_S800000x1_S800000x64_1_0_n_n_0_1_164 X I

/-- Which edges' wrapped index is a row of `X`: `0 ≤ index ≤ 49999`, per edge. -/
def inRange (I : IVec S800000x1 32) : IVec S800000 1 :=
  Host.reduce IntOp.andi
    (andi (cmpi .sge I (broadcastInDim S800000x1 ![] bcast_S_S800000x1 (constantI S_ 32 0#32)))
      (cmpi .sle I (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel's row gather: the gathered row where the index is a row of `X`, a fill word elsewhere. -/
def takeRows (X : FVec F S50000x64 .f32) (J : IVec S800000 32) : FVec F S800000x64 .f32 :=
  select (broadcastInDim S800000x64 ![0] bcast_S800000_S800000x64_0 (inRange (wrapJ J)))
    (gatherRows X (wrapJ J))
    (broadcastInDim S800000x64 ![] bcast_S_S800000x64 (constant S_ .f32 0x7FC00000#32))

/-- The messages summed into their destination rows, from zero. -/
def aggRows (J : IVec S800000 32) (M : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 J) M

end Cert.KernelIdeal.KV

end
-- ==== Proof.KHost.lean ====
/-
  The host stretches of the kernel's program between its launches, read buffer by buffer: from whatever the buffers
  hold when a stretch begins, what each buffer a later launch or stretch reads holds when it ends. The stretch before a
  message launch gathers the two endpoint rows of every edge out of the current node features and cuts the layer's
  message weights into their bands; the stretch before an update launch sums the messages into their destination rows
  and cuts the layer's update weights; everything else a later step reads is left as it was.
-/
import proofs.«422810_j33131377721479_3_alg».proof.Proof.Gen.KernelIdeal.Launch
import proofs.«422810_j33131377721479_3_alg».proof.Proof.KDefs
import Idealize.ShloMosaic.Lib.StableHlo.Run

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-! ## Before the first message launch: the edge list's rows, the gathers out of the input features, layer 0's message weights -/

theorem h0_v1 : StableHlo.after (hostOps0 (F := F)) W (Proc.devRef .tc main_call0_v1) = srcJ (W (Proc.devRef .tc main_arg1)) := by
  after_results_simp <;> rfl
theorem h0_v3 : StableHlo.after (hostOps0 (F := F)) W (Proc.devRef .tc main_call0_v3) = dstJ (W (Proc.devRef .tc main_arg1)) := by
  after_results_simp <;> rfl
theorem h0_v7 : StableHlo.after (hostOps0 (F := F)) W (Proc.devRef .tc main_call0_v7)
    = shapeCast S64x64 (extractStridedSlice S1x64x64 ![0, 0, 0] (W (Proc.devRef .tc main_arg3)) slices_S3x144x64_S1x64x64_0_0_0) shapeCasts_S1x64x64_S64x64 := by
  after_results_simp <;> rfl
theorem h0_v9 : StableHlo.after (hostOps0 (F := F)) W (Proc.devRef .tc main_call0_v9)
    = shapeCast S64x64 (extractStridedSlice S1x64x64 ![0, 64, 0] (W (Proc.devRef .tc main_arg3)) slices_S3x144x64_S1x64x64_0_64_0) shapeCasts_S1x64x64_S64x64 := by
  after_results_simp <;> rfl
theorem h0_v11 : StableHlo.after (hostOps0 (F := F)) W (Proc.devRef .tc main_call0_v11)
    = shapeCast S16x64 (extractStridedSlice S1x16x64 ![0, 128, 0] (W (Proc.devRef .tc main_arg3)) slices_S3x144x64_S1x16x64_0_128_0) shapeCasts_S1x16x64_S16x64 := by
  after_results_simp <;> rfl
theorem h0_v14 : StableHlo.after (hostOps0 (F := F)) W (Proc.devRef .tc main_call0_v14)
    = shapeCast S1x64 (shapeCast S64 (extractStridedSlice S1x64 ![0, 0] (W (Proc.devRef .tc main_arg4)) slices_S3x64_S1x64_0_0) shapeCasts_S1x64_S64) shapeCasts_S64_S1x64 := by
  after_results_simp <;> rfl
theorem h0_keep_arg0 : StableHlo.after (hostOps0 (F := F)) W (Proc.devRef .tc main_arg0) = W (Proc.devRef .tc main_arg0) := by
  after_results_simp
theorem h0_keep_arg2 : StableHlo.after (hostOps0 (F := F)) W (Proc.devRef .tc main_arg2) = W (Proc.devRef .tc main_arg2) := by
  after_results_simp
theorem h0_keep_arg3 : StableHlo.after (hostOps0 (F := F)) W (Proc.devRef .tc main_arg3) = W (Proc.devRef .tc main_arg3) := by
  after_results_simp
theorem h0_keep_arg4 : StableHlo.after (hostOps0 (F := F)) W (Proc.devRef .tc main_arg4) = W (Proc.devRef .tc main_arg4) := by
  after_results_simp
theorem h0_keep_arg5 : StableHlo.after (hostOps0 (F := F)) W (Proc.devRef .tc main_arg5) = W (Proc.devRef .tc main_arg5) := by
  after_results_simp
theorem h0_keep_arg6 : StableHlo.after (hostOps0 (F := F)) W (Proc.devRef .tc main_arg6) = W (Proc.devRef .tc main_arg6) := by
  after_results_simp

/-! ## Before the first update launch: the messages summed by destination, layer 0's update weights -/

theorem h1_v18 : StableHlo.after (hostOps1 (F := F)) W (Proc.devRef .tc main_call0_v18)
    = aggRows (W (Proc.devRef .tc main_call0_v3)) (W (Proc.devRef .tc main_call0_v15)) := by
  after_results_simp <;> rfl
theorem h1_v20 : StableHlo.after (hostOps1 (F := F)) W (Proc.devRef .tc main_call0_v20)
    = shapeCast S64x64 (extractStridedSlice S1x64x64 ![0, 0, 0] (W (Proc.devRef .tc main_arg5)) slices_S3x128x64_S1x64x64_0_0_0) shapeCasts_S1x64x64_S64x64 := by
  after_results_simp <;> rfl
theorem h1_v22 : StableHlo.after (hostOps1 (F := F)) W (Proc.devRef .tc main_call0_v22)
    = shapeCast S64x64 (extractStridedSlice S1x64x64 ![0, 64, 0] (W (Proc.devRef .tc main_arg5)) slices_S3x128x64_S1x64x64_0_64_0) shapeCasts_S1x64x64_S64x64 := by
  after_results_simp <;> rfl
theorem h1_v25 : StableHlo.after (hostOps1 (F := F)) W (Proc.devRef .tc main_call0_v25)
    = shapeCast S1x64 (shapeCast S64 (extractStridedSlice S1x64 ![0, 0] (W (Proc.devRef .tc main_arg6)) slices_S3x64_S1x64_0_0) shapeCasts_S1x64_S64) shapeCasts_S64_S1x64 := by
  after_results_simp <;> rfl
theorem h1_keep_v1 : StableHlo.after (hostOps1 (F := F)) W (Proc.devRef .tc main_call0_v1) = W (Proc.devRef .tc main_call0_v1) := by
  after_results_simp
theorem h1_keep_v3 : StableHlo.after (hostOps1 (F := F)) W (Proc.devRef .tc main_call0_v3) = W (Proc.devRef .tc main_call0_v3) := by
  after_results_simp
theorem h1_keep_arg0 : StableHlo.after (hostOps1 (F := F)) W (Proc.devRef .tc main_arg0) = W (Proc.devRef .tc main_arg0) := by
  after_results_simp
theorem h1_keep_arg2 : StableHlo.after (hostOps1 (F := F)) W (Proc.devRef .tc main_arg2) = W (Proc.devRef .tc main_arg2) := by
  after_results_simp
theorem h1_keep_arg3 : StableHlo.after (hostOps1 (F := F)) W (Proc.devRef .tc main_arg3) = W (Proc.devRef .tc main_arg3) := by
  after_results_simp
theorem h1_keep_arg4 : StableHlo.after (hostOps1 (F := F)) W (Proc.devRef .tc main_arg4) = W (Proc.devRef .tc main_arg4) := by
  after_results_simp
theorem h1_keep_arg5 : StableHlo.after (hostOps1 (F := F)) W (Proc.devRef .tc main_arg5) = W (Proc.devRef .tc main_arg5) := by
  after_results_simp
theorem h1_keep_arg6 : StableHlo.after (hostOps1 (F := F)) W (Proc.devRef .tc main_arg6) = W (Proc.devRef .tc main_arg6) := by
  after_results_simp

/-! ## Before the second message launch -/

theorem h2_v30 : StableHlo.after (hostOps2 (F := F)) W (Proc.devRef .tc main_call0_v30)
    = shapeCast S64x64 (extractStridedSlice S1x64x64 ![1, 0, 0] (W (Proc.devRef .tc main_arg3)) slices_S3x144x64_S1x64x64_1_0_0) shapeCasts_S1x64x64_S64x64 := by
  after_results_simp <;> rfl
theorem h2_v32 : StableHlo.after (hostOps2 (F := F)) W (Proc.devRef .tc main_call0_v32)
    = shapeCast S64x64 (extractStridedSlice S1x64x64 ![1, 64, 0] (W (Proc.devRef .tc main_arg3)) slices_S3x144x64_S1x64x64_1_64_0) shapeCasts_S1x64x64_S64x64 := by
  after_results_simp <;> rfl
theorem h2_v34 : StableHlo.after (hostOps2 (F := F)) W (Proc.devRef .tc main_call0_v34)
    = shapeCast S16x64 (extractStridedSlice S1x16x64 ![1, 128, 0] (W (Proc.devRef .tc main_arg3)) slices_S3x144x64_S1x16x64_1_128_0) shapeCasts_S1x16x64_S16x64 := by
  after_results_simp <;> rfl
theorem h2_v37 : StableHlo.after (hostOps2 (F := F)) W (Proc.devRef .tc main_call0_v37)
    = shapeCast S1x64 (shapeCast S64 (extractStridedSlice S1x64 ![1, 0] (W (Proc.devRef .tc main_arg4)) slices_S3x64_S1x64_1_0) shapeCasts_S1x64_S64) shapeCasts_S64_S1x64 := by
  after_results_simp <;> rfl
theorem h2_keep_v26 : StableHlo.after (hostOps2 (F := F)) W (Proc.devRef .tc main_call0_v26) = W (Proc.devRef .tc main_call0_v26) := by
  after_results_simp
theorem h2_keep_v1 : StableHlo.after (hostOps2 (F := F)) W (Proc.devRef .tc main_call0_v1) = W (Proc.devRef .tc main_call0_v1) := by
  after_results_simp
theorem h2_keep_v3 : StableHlo.after (hostOps2 (F := F)) W (Proc.devRef .tc main_call0_v3) = W (Proc.devRef .tc main_call0_v3) := by
  after_results_simp
theorem h2_keep_arg2 : StableHlo.after (hostOps2 (F := F)) W (Proc.devRef .tc main_arg2) = W (Proc.devRef .tc main_arg2) := by
  after_results_simp
theorem h2_keep_arg3 : StableHlo.after (hostOps2 (F := F)) W (Proc.devRef .tc main_arg3) = W (Proc.devRef .tc main_arg3) := by
  after_results_simp
theorem h2_keep_arg4 : StableHlo.after (hostOps2 (F := F)) W (Proc.devRef .tc main_arg4) = W (Proc.devRef .tc main_arg4) := by
  after_results_simp
theorem h2_keep_arg5 : StableHlo.after (hostOps2 (F := F)) W (Proc.devRef .tc main_arg5) = W (Proc.devRef .tc main_arg5) := by
  after_results_simp
theorem h2_keep_arg6 : StableHlo.after (hostOps2 (F := F)) W (Proc.devRef .tc main_arg6) = W (Proc.devRef .tc main_arg6) := by
  after_results_simp

/-! ## Before the second update launch -/

theorem h3_v41 : StableHlo.after (hostOps3 (F := F)) W (Proc.devRef .tc main_call0_v41)
    = aggRows (W (Proc.devRef .tc main_call0_v3)) (W (Proc.devRef .tc main_call0_v38)) := by
  after_results_simp <;> rfl
theorem h3_v43 : StableHlo.after (hostOps3 (F := F)) W (Proc.devRef .tc main_call0_v43)
    = shapeCast S64x64 (extractStridedSlice S1x64x64 ![1, 0, 0] (W (Proc.devRef .tc main_arg5)) slices_S3x128x64_S1x64x64_1_0_0) shapeCasts_S1x64x64_S64x64 := by
  after_results_simp <;> rfl
theorem h3_v45 : StableHlo.after (hostOps3 (F := F)) W (Proc.devRef .tc main_call0_v45)
    = shapeCast S64x64 (extractStridedSlice S1x64x64 ![1, 64, 0] (W (Proc.devRef .tc main_arg5)) slices_S3x128x64_S1x64x64_1_64_0) shapeCasts_S1x64x64_S64x64 := by
  after_results_simp <;> rfl
theorem h3_v48 : StableHlo.after (hostOps3 (F := F)) W (Proc.devRef .tc main_call0_v48)
    = shapeCast S1x64 (shapeCast S64 (extractStridedSlice S1x64 ![1, 0] (W (Proc.devRef .tc main_arg6)) slices_S3x64_S1x64_1_0) shapeCasts_S1x64_S64) shapeCasts_S64_S1x64 := by
  after_results_simp <;> rfl
theorem h3_keep_v26 : StableHlo.after (hostOps3 (F := F)) W (Proc.devRef .tc main_call0_v26) = W (Proc.devRef .tc main_call0_v26) := by
  after_results_simp
theorem h3_keep_v1 : StableHlo.after (hostOps3 (F := F)) W (Proc.devRef .tc main_call0_v1) = W (Proc.devRef .tc main_call0_v1) := by
  after_results_simp
theorem h3_keep_v3 : StableHlo.after (hostOps3 (F := F)) W (Proc.devRef .tc main_call0_v3) = W (Proc.devRef .tc main_call0_v3) := by
  after_results_simp
theorem h3_keep_arg2 : StableHlo.after (hostOps3 (F := F)) W (Proc.devRef .tc main_arg2) = W (Proc.devRef .tc main_arg2) := by
  after_results_simp
theorem h3_keep_arg3 : StableHlo.after (hostOps3 (F := F)) W (Proc.devRef .tc main_arg3) = W (Proc.devRef .tc main_arg3) := by
  after_results_simp
theorem h3_keep_arg4 : StableHlo.after (hostOps3 (F := F)) W (Proc.devRef .tc main_arg4) = W (Proc.devRef .tc main_arg4) := by
  after_results_simp
theorem h3_keep_arg5 : StableHlo.after (hostOps3 (F := F)) W (Proc.devRef .tc main_arg5) = W (Proc.devRef .tc main_arg5) := by
  after_results_simp
theorem h3_keep_arg6 : StableHlo.after (hostOps3 (F := F)) W (Proc.devRef .tc main_arg6) = W (Proc.devRef .tc main_arg6) := by
  after_results_simp

/-! ## Before the third message launch -/

theorem h4_v53 : StableHlo.after (hostOps4 (F := F)) W (Proc.devRef .tc main_call0_v53)
    = shapeCast S64x64 (extractStridedSlice S1x64x64 ![2, 0, 0] (W (Proc.devRef .tc main_arg3)) slices_S3x144x64_S1x64x64_2_0_0) shapeCasts_S1x64x64_S64x64 := by
  after_results_simp <;> rfl
theorem h4_v55 : StableHlo.after (hostOps4 (F := F)) W (Proc.devRef .tc main_call0_v55)
    = shapeCast S64x64 (extractStridedSlice S1x64x64 ![2, 64, 0] (W (Proc.devRef .tc main_arg3)) slices_S3x144x64_S1x64x64_2_64_0) shapeCasts_S1x64x64_S64x64 := by
  after_results_simp <;> rfl
theorem h4_v57 : StableHlo.after (hostOps4 (F := F)) W (Proc.devRef .tc main_call0_v57)
    = shapeCast S16x64 (extractStridedSlice S1x16x64 ![2, 128, 0] (W (Proc.devRef .tc main_arg3)) slices_S3x144x64_S1x16x64_2_128_0) shapeCasts_S1x16x64_S16x64 := by
  after_results_simp <;> rfl
theorem h4_v60 : StableHlo.after (hostOps4 (F := F)) W (Proc.devRef .tc main_call0_v60)
    = shapeCast S1x64 (shapeCast S64 (extractStridedSlice S1x64 ![2, 0] (W (Proc.devRef .tc main_arg4)) slices_S3x64_S1x64_2_0) shapeCasts_S1x64_S64) shapeCasts_S64_S1x64 := by
  after_results_simp <;> rfl
theorem h4_keep_v49 : StableHlo.after (hostOps4 (F := F)) W (Proc.devRef .tc main_call0_v49) = W (Proc.devRef .tc main_call0_v49) := by
  after_results_simp
theorem h4_keep_v3 : StableHlo.after (hostOps4 (F := F)) W (Proc.devRef .tc main_call0_v3) = W (Proc.devRef .tc main_call0_v3) := by
  after_results_simp
theorem h4_keep_arg2 : StableHlo.after (hostOps4 (F := F)) W (Proc.devRef .tc main_arg2) = W (Proc.devRef .tc main_arg2) := by
  after_results_simp
theorem h4_keep_arg5 : StableHlo.after (hostOps4 (F := F)) W (Proc.devRef .tc main_arg5) = W (Proc.devRef .tc main_arg5) := by
  after_results_simp
theorem h4_keep_arg6 : StableHlo.after (hostOps4 (F := F)) W (Proc.devRef .tc main_arg6) = W (Proc.devRef .tc main_arg6) := by
  after_results_simp

/-! ## Before the third update launch -/

theorem h5_v64 : StableHlo.after (hostOps5 (F := F)) W (Proc.devRef .tc main_call0_v64)
    = aggRows (W (Proc.devRef .tc main_call0_v3)) (W (Proc.devRef .tc main_call0_v61)) := by
  after_results_simp <;> rfl
theorem h5_v66 : StableHlo.after (hostOps5 (F := F)) W (Proc.devRef .tc main_call0_v66)
    = shapeCast S64x64 (extractStridedSlice S1x64x64 ![2, 0, 0] (W (Proc.devRef .tc main_arg5)) slices_S3x128x64_S1x64x64_2_0_0) shapeCasts_S1x64x64_S64x64 := by
  after_results_simp <;> rfl
theorem h5_v68 : StableHlo.after (hostOps5 (F := F)) W (Proc.devRef .tc main_call0_v68)
    = shapeCast S64x64 (extractStridedSlice S1x64x64 ![2, 64, 0] (W (Proc.devRef .tc main_arg5)) slices_S3x128x64_S1x64x64_2_64_0) shapeCasts_S1x64x64_S64x64 := by
  after_results_simp <;> rfl
theorem h5_v71 : StableHlo.after (hostOps5 (F := F)) W (Proc.devRef .tc main_call0_v71)
    = shapeCast S1x64 (shapeCast S64 (extractStridedSlice S1x64 ![2, 0] (W (Proc.devRef .tc main_arg6)) slices_S3x64_S1x64_2_0) shapeCasts_S1x64_S64) shapeCasts_S64_S1x64 := by
  after_results_simp <;> rfl
theorem h5_keep_v49 : StableHlo.after (hostOps5 (F := F)) W (Proc.devRef .tc main_call0_v49) = W (Proc.devRef .tc main_call0_v49) := by
  after_results_simp

end Cert.KernelIdeal.KV

end
-- ==== Proof.KCarry.lean ====
/-
  What is only carried along the kernel's program: the two rows of the edge list (cut out once, before the first
  launch) and the argument arrays, at every segment boundary up to the last step that reads them. A host stretch
  leaves a buffer it does not write as it was; a launch leaves every buffer that is not one of its arrays as it was,
  and an array it only reads through an input window too.
-/
import proofs.«422810_j33131377721479_3_alg».proof.Proof.Gen.KernelIdeal.Frame
import proofs.«422810_j33131377721479_3_alg».proof.Proof.KHost

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

theorem c1_v1 : W1 m ρ c (Proc.devRef .tc main_call0_v1) = srcJ (m ((c : Thread nD τ).loc main_arg1)) := h0_v1 (W0 m ρ c)
theorem c2_v1 : W2 m ρ c (Proc.devRef .tc main_call0_v1) = srcJ (m ((c : Thread nD τ).loc main_arg1)) := (W2_of_ne m ρ c main_call0_v1 (by decide)).trans (c1_v1 m ρ c)
theorem c3_v1 : W3 m ρ c (Proc.devRef .tc main_call0_v1) = srcJ (m ((c : Thread nD τ).loc main_arg1)) := (h1_keep_v1 (W2 m ρ c)).trans (c2_v1 m ρ c)
theorem c4_v1 : W4 m ρ c (Proc.devRef .tc main_call0_v1) = srcJ (m ((c : Thread nD τ).loc main_arg1)) := (W4_of_ne m ρ c main_call0_v1 (by decide)).trans (c3_v1 m ρ c)
theorem c5_v1 : W5 m ρ c (Proc.devRef .tc main_call0_v1) = srcJ (m ((c : Thread nD τ).loc main_arg1)) := (h2_keep_v1 (W4 m ρ c)).trans (c4_v1 m ρ c)
theorem c6_v1 : W6 m ρ c (Proc.devRef .tc main_call0_v1) = srcJ (m ((c : Thread nD τ).loc main_arg1)) := (W6_of_ne m ρ c main_call0_v1 (by decide)).trans (c5_v1 m ρ c)
theorem c7_v1 : W7 m ρ c (Proc.devRef .tc main_call0_v1) = srcJ (m ((c : Thread nD τ).loc main_arg1)) := (h3_keep_v1 (W6 m ρ c)).trans (c6_v1 m ρ c)
theorem c8_v1 : W8 m ρ c (Proc.devRef .tc main_call0_v1) = srcJ (m ((c : Thread nD τ).loc main_arg1)) := (W8_of_ne m ρ c main_call0_v1 (by decide)).trans (c7_v1 m ρ c)
theorem c1_v3 : W1 m ρ c (Proc.devRef .tc main_call0_v3) = dstJ (m ((c : Thread nD τ).loc main_arg1)) := h0_v3 (W0 m ρ c)
theorem c2_v3 : W2 m ρ c (Proc.devRef .tc main_call0_v3) = dstJ (m ((c : Thread nD τ).loc main_arg1)) := (W2_of_ne m ρ c main_call0_v3 (by decide)).trans (c1_v3 m ρ c)
theorem c3_v3 : W3 m ρ c (Proc.devRef .tc main_call0_v3) = dstJ (m ((c : Thread nD τ).loc main_arg1)) := (h1_keep_v3 (W2 m ρ c)).trans (c2_v3 m ρ c)
theorem c4_v3 : W4 m ρ c (Proc.devRef .tc main_call0_v3) = dstJ (m ((c : Thread nD τ).loc main_arg1)) := (W4_of_ne m ρ c main_call0_v3 (by decide)).trans (c3_v3 m ρ c)
theorem c5_v3 : W5 m ρ c (Proc.devRef .tc main_call0_v3) = dstJ (m ((c : Thread nD τ).loc main_arg1)) := (h2_keep_v3 (W4 m ρ c)).trans (c4_v3 m ρ c)
theorem c6_v3 : W6 m ρ c (Proc.devRef .tc main_call0_v3) = dstJ (m ((c : Thread nD τ).loc main_arg1)) := (W6_of_ne m ρ c main_call0_v3 (by decide)).trans (c5_v3 m ρ c)
theorem c7_v3 : W7 m ρ c (Proc.devRef .tc main_call0_v3) = dstJ (m ((c : Thread nD τ).loc main_arg1)) := (h3_keep_v3 (W6 m ρ c)).trans (c6_v3 m ρ c)
theorem c8_v3 : W8 m ρ c (Proc.devRef .tc main_call0_v3) = dstJ (m ((c : Thread nD τ).loc main_arg1)) := (W8_of_ne m ρ c main_call0_v3 (by decide)).trans (c7_v3 m ρ c)
theorem c9_v3 : W9 m ρ c (Proc.devRef .tc main_call0_v3) = dstJ (m ((c : Thread nD τ).loc main_arg1)) := (h4_keep_v3 (W8 m ρ c)).trans (c8_v3 m ρ c)
theorem c10_v3 : W10 m ρ c (Proc.devRef .tc main_call0_v3) = dstJ (m ((c : Thread nD τ).loc main_arg1)) := (W10_of_ne m ρ c main_call0_v3 (by decide)).trans (c9_v3 m ρ c)
theorem c1_arg0 : W1 m ρ c (Proc.devRef .tc main_arg0) = m ((c : Thread nD τ).loc main_arg0) := h0_keep_arg0 (W0 m ρ c)
theorem c2_arg0 : W2 m ρ c (Proc.devRef .tc main_arg0) = m ((c : Thread nD τ).loc main_arg0) := (W2_of_ne m ρ c main_arg0 (by decide)).trans (c1_arg0 m ρ c)
theorem c3_arg0 : W3 m ρ c (Proc.devRef .tc main_arg0) = m ((c : Thread nD τ).loc main_arg0) := (h1_keep_arg0 (W2 m ρ c)).trans (c2_arg0 m ρ c)
theorem c1_arg2 : W1 m ρ c (Proc.devRef .tc main_arg2) = m ((c : Thread nD τ).loc main_arg2) := h0_keep_arg2 (W0 m ρ c)
theorem c2_arg2 : W2 m ρ c (Proc.devRef .tc main_arg2) = m ((c : Thread nD τ).loc main_arg2) := (W2_arr m ρ c 2).trans (((dat0 (V1 m ρ) c).arrAt_in 2 rfl _).trans ((A_eq0 (V1 m ρ) c 2).trans (c1_arg2 m ρ c)))
theorem c3_arg2 : W3 m ρ c (Proc.devRef .tc main_arg2) = m ((c : Thread nD τ).loc main_arg2) := (h1_keep_arg2 (W2 m ρ c)).trans (c2_arg2 m ρ c)
theorem c4_arg2 : W4 m ρ c (Proc.devRef .tc main_arg2) = m ((c : Thread nD τ).loc main_arg2) := (W4_of_ne m ρ c main_arg2 (by decide)).trans (c3_arg2 m ρ c)
theorem c5_arg2 : W5 m ρ c (Proc.devRef .tc main_arg2) = m ((c : Thread nD τ).loc main_arg2) := (h2_keep_arg2 (W4 m ρ c)).trans (c4_arg2 m ρ c)
theorem c6_arg2 : W6 m ρ c (Proc.devRef .tc main_arg2) = m ((c : Thread nD τ).loc main_arg2) := (W6_arr m ρ c 2).trans (((dat2 (V5 m ρ) c).arrAt_in 2 rfl _).trans ((A_eq2 (V5 m ρ) c 2).trans (c5_arg2 m ρ c)))
theorem c7_arg2 : W7 m ρ c (Proc.devRef .tc main_arg2) = m ((c : Thread nD τ).loc main_arg2) := (h3_keep_arg2 (W6 m ρ c)).trans (c6_arg2 m ρ c)
theorem c8_arg2 : W8 m ρ c (Proc.devRef .tc main_arg2) = m ((c : Thread nD τ).loc main_arg2) := (W8_of_ne m ρ c main_arg2 (by decide)).trans (c7_arg2 m ρ c)
theorem c9_arg2 : W9 m ρ c (Proc.devRef .tc main_arg2) = m ((c : Thread nD τ).loc main_arg2) := (h4_keep_arg2 (W8 m ρ c)).trans (c8_arg2 m ρ c)
theorem c1_arg3 : W1 m ρ c (Proc.devRef .tc main_arg3) = m ((c : Thread nD τ).loc main_arg3) := h0_keep_arg3 (W0 m ρ c)
theorem c2_arg3 : W2 m ρ c (Proc.devRef .tc main_arg3) = m ((c : Thread nD τ).loc main_arg3) := (W2_of_ne m ρ c main_arg3 (by decide)).trans (c1_arg3 m ρ c)
theorem c3_arg3 : W3 m ρ c (Proc.devRef .tc main_arg3) = m ((c : Thread nD τ).loc main_arg3) := (h1_keep_arg3 (W2 m ρ c)).trans (c2_arg3 m ρ c)
theorem c4_arg3 : W4 m ρ c (Proc.devRef .tc main_arg3) = m ((c : Thread nD τ).loc main_arg3) := (W4_of_ne m ρ c main_arg3 (by decide)).trans (c3_arg3 m ρ c)
theorem c5_arg3 : W5 m ρ c (Proc.devRef .tc main_arg3) = m ((c : Thread nD τ).loc main_arg3) := (h2_keep_arg3 (W4 m ρ c)).trans (c4_arg3 m ρ c)
theorem c6_arg3 : W6 m ρ c (Proc.devRef .tc main_arg3) = m ((c : Thread nD τ).loc main_arg3) := (W6_of_ne m ρ c main_arg3 (by decide)).trans (c5_arg3 m ρ c)
theorem c7_arg3 : W7 m ρ c (Proc.devRef .tc main_arg3) = m ((c : Thread nD τ).loc main_arg3) := (h3_keep_arg3 (W6 m ρ c)).trans (c6_arg3 m ρ c)
theorem c8_arg3 : W8 m ρ c (Proc.devRef .tc main_arg3) = m ((c : Thread nD τ).loc main_arg3) := (W8_of_ne m ρ c main_arg3 (by decide)).trans (c7_arg3 m ρ c)
theorem c1_arg4 : W1 m ρ c (Proc.devRef .tc main_arg4) = m ((c : Thread nD τ).loc main_arg4) := h0_keep_arg4 (W0 m ρ c)
theorem c2_arg4 : W2 m ρ c (Proc.devRef .tc main_arg4) = m ((c : Thread nD τ).loc main_arg4) := (W2_of_ne m ρ c main_arg4 (by decide)).trans (c1_arg4 m ρ c)
theorem c3_arg4 : W3 m ρ c (Proc.devRef .tc main_arg4) = m ((c : Thread nD τ).loc main_arg4) := (h1_keep_arg4 (W2 m ρ c)).trans (c2_arg4 m ρ c)
theorem c4_arg4 : W4 m ρ c (Proc.devRef .tc main_arg4) = m ((c : Thread nD τ).loc main_arg4) := (W4_of_ne m ρ c main_arg4 (by decide)).trans (c3_arg4 m ρ c)
theorem c5_arg4 : W5 m ρ c (Proc.devRef .tc main_arg4) = m ((c : Thread nD τ).loc main_arg4) := (h2_keep_arg4 (W4 m ρ c)).trans (c4_arg4 m ρ c)
theorem c6_arg4 : W6 m ρ c (Proc.devRef .tc main_arg4) = m ((c : Thread nD τ).loc main_arg4) := (W6_of_ne m ρ c main_arg4 (by decide)).trans (c5_arg4 m ρ c)
theorem c7_arg4 : W7 m ρ c (Proc.devRef .tc main_arg4) = m ((c : Thread nD τ).loc main_arg4) := (h3_keep_arg4 (W6 m ρ c)).trans (c6_arg4 m ρ c)
theorem c8_arg4 : W8 m ρ c (Proc.devRef .tc main_arg4) = m ((c : Thread nD τ).loc main_arg4) := (W8_of_ne m ρ c main_arg4 (by decide)).trans (c7_arg4 m ρ c)
theorem c1_arg5 : W1 m ρ c (Proc.devRef .tc main_arg5) = m ((c : Thread nD τ).loc main_arg5) := h0_keep_arg5 (W0 m ρ c)
theorem c2_arg5 : W2 m ρ c (Proc.devRef .tc main_arg5) = m ((c : Thread nD τ).loc main_arg5) := (W2_of_ne m ρ c main_arg5 (by decide)).trans (c1_arg5 m ρ c)
theorem c3_arg5 : W3 m ρ c (Proc.devRef .tc main_arg5) = m ((c : Thread nD τ).loc main_arg5) := (h1_keep_arg5 (W2 m ρ c)).trans (c2_arg5 m ρ c)
theorem c4_arg5 : W4 m ρ c (Proc.devRef .tc main_arg5) = m ((c : Thread nD τ).loc main_arg5) := (W4_of_ne m ρ c main_arg5 (by decide)).trans (c3_arg5 m ρ c)
theorem c5_arg5 : W5 m ρ c (Proc.devRef .tc main_arg5) = m ((c : Thread nD τ).loc main_arg5) := (h2_keep_arg5 (W4 m ρ c)).trans (c4_arg5 m ρ c)
theorem c6_arg5 : W6 m ρ c (Proc.devRef .tc main_arg5) = m ((c : Thread nD τ).loc main_arg5) := (W6_of_ne m ρ c main_arg5 (by decide)).trans (c5_arg5 m ρ c)
theorem c7_arg5 : W7 m ρ c (Proc.devRef .tc main_arg5) = m ((c : Thread nD τ).loc main_arg5) := (h3_keep_arg5 (W6 m ρ c)).trans (c6_arg5 m ρ c)
theorem c8_arg5 : W8 m ρ c (Proc.devRef .tc main_arg5) = m ((c : Thread nD τ).loc main_arg5) := (W8_of_ne m ρ c main_arg5 (by decide)).trans (c7_arg5 m ρ c)
theorem c9_arg5 : W9 m ρ c (Proc.devRef .tc main_arg5) = m ((c : Thread nD τ).loc main_arg5) := (h4_keep_arg5 (W8 m ρ c)).trans (c8_arg5 m ρ c)
theorem c10_arg5 : W10 m ρ c (Proc.devRef .tc main_arg5) = m ((c : Thread nD τ).loc main_arg5) := (W10_of_ne m ρ c main_arg5 (by decide)).trans (c9_arg5 m ρ c)
theorem c1_arg6 : W1 m ρ c (Proc.devRef .tc main_arg6) = m ((c : Thread nD τ).loc main_arg6) := h0_keep_arg6 (W0 m ρ c)
theorem c2_arg6 : W2 m ρ c (Proc.devRef .tc main_arg6) = m ((c : Thread nD τ).loc main_arg6) := (W2_of_ne m ρ c main_arg6 (by decide)).trans (c1_arg6 m ρ c)
theorem c3_arg6 : W3 m ρ c (Proc.devRef .tc main_arg6) = m ((c : Thread nD τ).loc main_arg6) := (h1_keep_arg6 (W2 m ρ c)).trans (c2_arg6 m ρ c)
theorem c4_arg6 : W4 m ρ c (Proc.devRef .tc main_arg6) = m ((c : Thread nD τ).loc main_arg6) := (W4_of_ne m ρ c main_arg6 (by decide)).trans (c3_arg6 m ρ c)
theorem c5_arg6 : W5 m ρ c (Proc.devRef .tc main_arg6) = m ((c : Thread nD τ).loc main_arg6) := (h2_keep_arg6 (W4 m ρ c)).trans (c4_arg6 m ρ c)
theorem c6_arg6 : W6 m ρ c (Proc.devRef .tc main_arg6) = m ((c : Thread nD τ).loc main_arg6) := (W6_of_ne m ρ c main_arg6 (by decide)).trans (c5_arg6 m ρ c)
theorem c7_arg6 : W7 m ρ c (Proc.devRef .tc main_arg6) = m ((c : Thread nD τ).loc main_arg6) := (h3_keep_arg6 (W6 m ρ c)).trans (c6_arg6 m ρ c)
theorem c8_arg6 : W8 m ρ c (Proc.devRef .tc main_arg6) = m ((c : Thread nD τ).loc main_arg6) := (W8_of_ne m ρ c main_arg6 (by decide)).trans (c7_arg6 m ρ c)
theorem c9_arg6 : W9 m ρ c (Proc.devRef .tc main_arg6) = m ((c : Thread nD τ).loc main_arg6) := (h4_keep_arg6 (W8 m ρ c)).trans (c8_arg6 m ρ c)
theorem c10_arg6 : W10 m ρ c (Proc.devRef .tc main_arg6) = m ((c : Thread nD τ).loc main_arg6) := (W10_of_ne m ρ c main_arg6 (by decide)).trans (c9_arg6 m ρ c)
theorem c5_v26 : W5 m ρ c (Proc.devRef .tc main_call0_v26) = W4 m ρ c (Proc.devRef .tc main_call0_v26) := h2_keep_v26 (W4 m ρ c)
theorem c6_v26 : W6 m ρ c (Proc.devRef .tc main_call0_v26) = W4 m ρ c (Proc.devRef .tc main_call0_v26) := (W6_of_ne m ρ c main_call0_v26 (by decide)).trans (c5_v26 m ρ c)
theorem c7_v26 : W7 m ρ c (Proc.devRef .tc main_call0_v26) = W4 m ρ c (Proc.devRef .tc main_call0_v26) := (h3_keep_v26 (W6 m ρ c)).trans (c6_v26 m ρ c)
theorem c9_v49 : W9 m ρ c (Proc.devRef .tc main_call0_v49) = W8 m ρ c (Proc.devRef .tc main_call0_v49) := h4_keep_v49 (W8 m ρ c)
theorem c10_v49 : W10 m ρ c (Proc.devRef .tc main_call0_v49) = W8 m ρ c (Proc.devRef .tc main_call0_v49) := (W10_of_ne m ρ c main_call0_v49 (by decide)).trans (c9_v49 m ρ c)
theorem c11_v49 : W11 m ρ c (Proc.devRef .tc main_call0_v49) = W8 m ρ c (Proc.devRef .tc main_call0_v49) := (h5_keep_v49 (W10 m ρ c)).trans (c10_v49 m ρ c)

end Cert.KernelIdeal.KV

end
-- ==== Proof.KTake0d.lean ====
/-
  The rows a stretch of the kernel's host program gathers for the message launch after it: the rows of the current node
  features at every edge's destination node, each row kept where the (wrapped) index is a row of the features and
  replaced by a fill word where it is not.
-/
import proofs.«422810_j33131377721479_3_alg».proof.Proof.KHost

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h0_v4 : StableHlo.after (hostOps0 (F := F)) W (Proc.devRef .tc main_call0_v4)
    = takeRows (W (Proc.devRef .tc main_arg0)) (dstJ (W (Proc.devRef .tc main_arg1))) := by
  rw [← h0_v3 W]
  after_results_simp
  dsimp only [TRef.ofBuf, TRef.toBuf, cast_eq]
  unfold takeRows inRange wrapJ gatherRows
  rfl

end Cert.KernelIdeal.KV

end
-- ==== Proof.KTake0s.lean ====
/-
  The rows a stretch of the kernel's host program gathers for the message launch after it: the rows of the current node
  features at every edge's source node, each row kept where the (wrapped) index is a row of the features and
  replaced by a fill word where it is not.
-/
import proofs.«422810_j33131377721479_3_alg».proof.Proof.KTake0d

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h0_v5 : StableHlo.after (hostOps0 (F := F)) W (Proc.devRef .tc main_call0_v5)
    = takeRows (W (Proc.devRef .tc main_arg0)) (srcJ (W (Proc.devRef .tc main_arg1))) := by
  rw [← h0_v1 W]
  after_results_simp
  dsimp only [TRef.ofBuf, TRef.toBuf, cast_eq]
  unfold takeRows inRange wrapJ gatherRows
  rfl

end Cert.KernelIdeal.KV

end
-- ==== Proof.KTake2d.lean ====
/-
  The rows a stretch of the kernel's host program gathers for the message launch after it: the rows of the current node
  features at every edge's destination node, each row kept where the (wrapped) index is a row of the features and
  replaced by a fill word where it is not.
-/
import proofs.«422810_j33131377721479_3_alg».proof.Proof.KTake0s

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h2_v27 : StableHlo.after (hostOps2 (F := F)) W (Proc.devRef .tc main_call0_v27)
    = takeRows (W (Proc.devRef .tc main_call0_v26)) (W (Proc.devRef .tc main_call0_v3)) := by
  after_results_simp
  dsimp only [TRef.ofBuf, TRef.toBuf, cast_eq]
  unfold takeRows inRange wrapJ gatherRows
  rfl

end Cert.KernelIdeal.KV

end
-- ==== Proof.KTake2s.lean ====
/-
  The rows a stretch of the kernel's host program gathers for the message launch after it: the rows of the current node
  features at every edge's source node, each row kept where the (wrapped) index is a row of the features and
  replaced by a fill word where it is not.
-/
import proofs.«422810_j33131377721479_3_alg».proof.Proof.KTake2d

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h2_v28 : StableHlo.after (hostOps2 (F := F)) W (Proc.devRef .tc main_call0_v28)
    = takeRows (W (Proc.devRef .tc main_call0_v26)) (W (Proc.devRef .tc main_call0_v1)) := by
  after_results_simp
  dsimp only [TRef.ofBuf, TRef.toBuf, cast_eq]
  unfold takeRows inRange wrapJ gatherRows
  rfl

end Cert.KernelIdeal.KV

end
-- ==== Proof.KTake4d.lean ====
/-
  The rows a stretch of the kernel's host program gathers for the message launch after it: the rows of the current node
  features at every edge's destination node, each row kept where the (wrapped) index is a row of the features and
  replaced by a fill word where it is not.
-/
import proofs.«422810_j33131377721479_3_alg».proof.Proof.KTake2s

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h4_v50 : StableHlo.after (hostOps4 (F := F)) W (Proc.devRef .tc main_call0_v50)
    = takeRows (W (Proc.devRef .tc main_call0_v49)) (W (Proc.devRef .tc main_call0_v3)) := by
  after_results_simp
  dsimp only [TRef.ofBuf, TRef.toBuf, cast_eq]
  unfold takeRows inRange wrapJ gatherRows
  rfl

end Cert.KernelIdeal.KV

end
-- ==== Proof.KTake4s.lean ====
/-
  The rows a stretch of the kernel's host program gathers for the message launch after it: the rows of the current node
  features at every edge's source node, each row kept where the (wrapped) index is a row of the features and
  replaced by a fill word where it is not.
-/
import proofs.«422810_j33131377721479_3_alg».proof.Proof.KTake4d

noncomputable section

namespace Cert.KernelIdeal.KV

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

set_option maxHeartbeats 2000000 in
theorem h4_v51 : StableHlo.after (hostOps4 (F := F)) W (Proc.devRef .tc main_call0_v51)
    = takeRows (W (Proc.devRef .tc main_call0_v49)) (W (Proc.devRef .tc main_call0_v1)) := by
  after_results_simp
  dsimp only [TRef.ofBuf, TRef.toBuf, cast_eq]
  unfold takeRows inRange wrapJ gatherRows
  rfl

end Cert.KernelIdeal.KV

end
-- ==== Proof.Spec.lean ====
/-
  What one layer of the message-passing network computes, element by element, over the extended reals.

  A layer takes the node features `X` (50000 × 64), and for every edge `e` with gathered endpoint rows `xi e`, `xj e`
  and edge attributes `ea e` forms the message
    m[e, c] = max (Σ_{k<64} xi[e,k]·W[l,k,c] + Σ_{k<64} xj[e,k]·W[l,64+k,c] + Σ_{k<16} ea[e,k]·W[l,128+k,c] + B[l,c]) 0,
  the three sums being the one product of the concatenated row [xi | xj | ea] (144 entries) with the layer's 144 × 64
  weight matrix, split at the two joints. The messages are summed into their destination rows (`agg`), and the node
  update is
    x'[n, c] = max (Σ_{k<64} X[n,k]·U[l,k,c] + Σ_{k<64} agg[n,k]·U[l,64+k,c] + D[l,c]) 0,
  again one product of [X | agg] (128 entries) with a 128 × 64 matrix, split at its joint.

  Only commutativity and associativity of the extended reals' addition are used to split the sums, so nothing here
  asks the entries to be finite.
-/
import Idealize.ShloMosaic.PureOps.Ideal
import Idealize.ShloMosaic.Lib.ValueIdx

noncomputable section

namespace Cert.Spec

open Idealize.ShloMosaic Idealize.ShloMosaic.ValueIdx

abbrev E64 : Shape := ⟨2, ![800000, 64]⟩
abbrev E16 : Shape := ⟨2, ![800000, 16]⟩
abbrev N64 : Shape := ⟨2, ![50000, 64]⟩
abbrev MW : Shape := ⟨3, ![3, 144, 64]⟩
abbrev UW : Shape := ⟨3, ![3, 128, 64]⟩
abbrev LB : Shape := ⟨2, ![3, 64]⟩

/-- The word `0x00000000` read as a float: the threshold of the rectifier, the same word in both programs. -/
abbrev Z : EReal := Ideal.ofBits .f32 0x00000000#32

/-- Row `k` of the second 64-row band of a 144-row (or 128-row) weight matrix. -/
abbrev band1 {n : Nat} (h : 128 ≤ n) (k : Fin 64) : Fin n := ⟨64 + k.val, by have := k.isLt; omega⟩
/-- Row `k` of the last 16-row band of the 144-row message weights. -/
abbrev band2 (k : Fin 16) : Fin 144 := ⟨128 + k.val, by have := k.isLt; omega⟩
/-- Row `k` of the first 64-row band. -/
abbrev band0 {n : Nat} (h : 64 ≤ n) (k : Fin 64) : Fin n := ⟨k.val, by have := k.isLt; omega⟩

/-- The message of edge `e`, channel `c`, in layer `l`: the rectified affine map of the edge's two endpoint rows and its
    attributes, the 144 × 64 weights read in their three bands. -/
def msgVal (l : Fin 3) (xi xj : E64.Idx → EReal) (ea : E16.Idx → EReal) (W : MW.Idx → EReal) (B : LB.Idx → EReal)
    (e : Fin 800000) (c : Fin 64) : EReal :=
  max ((((∑ k : Fin 64, xi (ix2 e k) * W (ix3 l (band0 (by decide) k) c))
        + ∑ k : Fin 64, xj (ix2 e k) * W (ix3 l (band1 (by decide) k) c))
        + ∑ k : Fin 16, ea (ix2 e k) * W (ix3 l (band2 k) c))
        + B (ix2 l c)) Z

/-- The updated feature of node `n`, channel `c`, in layer `l`: the rectified affine map of the node's row and its
    aggregated messages, the 128 × 64 weights read in their two bands. -/
def updVal (l : Fin 3) (X agg : N64.Idx → EReal) (U : UW.Idx → EReal) (D : LB.Idx → EReal)
    (n : Fin 50000) (c : Fin 64) : EReal :=
  max (((∑ k : Fin 64, X (ix2 n k) * U (ix3 l (band0 (by decide) k) c))
        + ∑ k : Fin 64, agg (ix2 n k) * U (ix3 l (band1 (by decide) k) c))
        + D (ix2 l c)) Z

abbrev W64 : Shape := ⟨2, ![64, 64]⟩
abbrev W16 : Shape := ⟨2, ![16, 64]⟩
abbrev B1 : Shape := ⟨2, ![1, 64]⟩

/-- The message as the kernel forms it: three separate products, with the three bands of the layer's weights handed
    over as matrices of their own and the bias as a one-row matrix. -/
def msgK (xi xj : E64.Idx → EReal) (ea : E16.Idx → EReal) (wi wj : W64.Idx → EReal) (wea : W16.Idx → EReal) (b : B1.Idx → EReal)
    (e : Fin 800000) (c : Fin 64) : EReal :=
  max ((((∑ k : Fin 64, xi (ix2 e k) * wi (ix2 k c))
        + ∑ k : Fin 64, xj (ix2 e k) * wj (ix2 k c))
        + ∑ k : Fin 16, ea (ix2 e k) * wea (ix2 k c))
        + b (ix2 0 c)) Z

/-- The node update as the kernel forms it: two separate products with the two bands of the layer's weights. -/
def updK (X agg : N64.Idx → EReal) (wx wagg : W64.Idx → EReal) (b : B1.Idx → EReal) (n : Fin 50000) (c : Fin 64) : EReal :=
  max (((∑ k : Fin 64, X (ix2 n k) * wx (ix2 k c))
        + ∑ k : Fin 64, agg (ix2 n k) * wagg (ix2 k c))
        + b (ix2 0 c)) Z

/-- The same two, as whole arrays. -/
def msgA (xi xj : E64.Idx → EReal) (ea : E16.Idx → EReal) (wi wj : W64.Idx → EReal) (wea : W16.Idx → EReal) (b : B1.Idx → EReal) :
    E64.Idx → EReal := fun i => msgK xi xj ea wi wj wea b ⟨(i 0).val, idx2_lt0 i⟩ ⟨(i 1).val, idx2_lt1 i⟩
def updA (X agg : N64.Idx → EReal) (wx wagg : W64.Idx → EReal) (b : B1.Idx → EReal) :
    N64.Idx → EReal := fun i => updK X agg wx wagg b ⟨(i 0).val, idx2_lt0 i⟩ ⟨(i 1).val, idx2_lt1 i⟩

theorem msgA_apply (xi xj : E64.Idx → EReal) (ea : E16.Idx → EReal) (wi wj : W64.Idx → EReal) (wea : W16.Idx → EReal) (b : B1.Idx → EReal)
    (e : Fin 800000) (c : Fin 64) : msgA xi xj ea wi wj wea b (ix2 e c) = msgK xi xj ea wi wj wea b e c := rfl
theorem updA_apply (X agg : N64.Idx → EReal) (wx wagg : W64.Idx → EReal) (b : B1.Idx → EReal)
    (n : Fin 50000) (c : Fin 64) : updA X agg wx wagg b (ix2 n c) = updK X agg wx wagg b n c := rfl

/-- With the three matrices the bands of the layer's weights and the row its bias, the kernel's message is the message. -/
theorem msgK_eq_msgVal (l : Fin 3) (xi xj : E64.Idx → EReal) (ea : E16.Idx → EReal) (wi wj : W64.Idx → EReal) (wea : W16.Idx → EReal)
    (b : B1.Idx → EReal) (W : MW.Idx → EReal) (B : LB.Idx → EReal)
    (hwi : ∀ (k : Fin 64) (c : Fin 64), wi (ix2 k c) = W (ix3 l (band0 (by decide) k) c))
    (hwj : ∀ (k : Fin 64) (c : Fin 64), wj (ix2 k c) = W (ix3 l (band1 (by decide) k) c))
    (hwea : ∀ (k : Fin 16) (c : Fin 64), wea (ix2 k c) = W (ix3 l (band2 k) c))
    (hb : ∀ c : Fin 64, b (ix2 0 c) = B (ix2 l c)) (e : Fin 800000) (c : Fin 64) :
    msgK xi xj ea wi wj wea b e c = msgVal l xi xj ea W B e c := by
  unfold msgK msgVal
  simp only [hwi, hwj, hwea, hb]

/-- With the two matrices the bands of the layer's weights and the row its bias, the kernel's update is the update. -/
theorem updK_eq_updVal (l : Fin 3) (X agg : N64.Idx → EReal) (wx wagg : W64.Idx → EReal) (b : B1.Idx → EReal)
    (U : UW.Idx → EReal) (D : LB.Idx → EReal)
    (hwx : ∀ (k : Fin 64) (c : Fin 64), wx (ix2 k c) = U (ix3 l (band0 (by decide) k) c))
    (hwagg : ∀ (k : Fin 64) (c : Fin 64), wagg (ix2 k c) = U (ix3 l (band1 (by decide) k) c))
    (hb : ∀ c : Fin 64, b (ix2 0 c) = D (ix2 l c)) (n : Fin 50000) (c : Fin 64) :
    updK X agg wx wagg b n c = updVal l X agg U D n c := by
  unfold updK updVal
  simp only [hwx, hwagg, hb]

/-- A sum over 144 consecutive rows is the sum over its bands of 64, 64 and 16 rows. -/
theorem sum144 {M : Type*} [AddCommMonoid M] (f : Fin 144 → M) :
    ∑ k : Fin 144, f k = ((∑ k : Fin 64, f (band0 (by decide) k)) + ∑ k : Fin 64, f (band1 (by decide) k)) + ∑ k : Fin 16, f (band2 k) := by
  have h1 := Fin.sum_univ_add (a := 128) (b := 16) (f := f)
  have h2 := Fin.sum_univ_add (a := 64) (b := 64) (f := fun k : Fin 128 => f (Fin.castAdd 16 k))
  rw [h1, h2]
  rfl

/-- A sum over 128 consecutive rows is the sum over its two bands of 64 rows. -/
theorem sum128 {M : Type*} [AddCommMonoid M] (f : Fin 128 → M) :
    ∑ k : Fin 128, f k = (∑ k : Fin 64, f (band0 (by decide) k)) + ∑ k : Fin 64, f (band1 (by decide) k) := by
  have h2 := Fin.sum_univ_add (a := 64) (b := 64) (f := f)
  rw [h2]
  rfl

end Cert.Spec

end
-- ==== Proof.Pay.lean ====
/-
  The six kernel bodies read at one index, over the extended reals.

  A message body forms, at row p and channel q, three products into a zero accumulator — a 64-term, a 64-term and a
  16-term sum over the contracted axis —, adds them left to right, adds the bias row's entry at q (the one row is
  repeated over all rows), and takes the maximum with the zero word. An update body does the same with two 64-term
  products. A cast of a vector to its own shape changes nothing.
-/
import proofs.«422810_j33131377721479_3_alg».proof.Proof.Gen.KernelIdeal.Skeleton
import proofs.«422810_j33131377721479_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.ValueIdx Cert.KernelIdeal Cert.KernelIdeal.Gen

/-! ## The operand indices of the two products, axis by axis -/

theorem lhs_d64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_d64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_d64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_d64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem lhs_d16_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem lhs_d16_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem rhs_d16_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem rhs_d16_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-! ## A product into the zero accumulator at (p, q) is the sum over the contracted axis -/

/-- A 10000 × 64 by 64 × 64 product into the zero accumulator, at row `p` and column `q`: the 64-term sum of row `p` against column `q`. -/
theorem mm64 (a : FVec Ideal S10000x64 .f32) (b : FVec Ideal S64x64 .f32) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_d64_0 _ _
    | ⟨1, _⟩ => exact (lhs_d64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-- A 10000 × 16 by 16 × 64 product into the zero accumulator, at row `p` and column `q`: the 16-term sum of row `p` against column `q`. -/
theorem mm16 (a : FVec Ideal S10000x16 .f32) (b : FVec Ideal S16x64 .f32) (p : Fin 10000) (q : Fin 64) :
    matmul dot_S10000x16_S16x64_S10000x64_1_0_0_1_n_n none a b (constant (F := Ideal) S10000x64 .f32 0x00000000#32) (ix2 p q)
      = ∑ k : Fin 16, a (ix2 p k) * b (ix2 k q) := by
  refine (Ideal.matmul_constant_zero_apply dot_S10000x16_S16x64_S10000x64_1_0_0_1_n_n none a b (ix2 p q)).trans ?_
  rw [← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 p q) ((contrEquiv1 dot_S10000x16_S16x64_S10000x64_1_0_0_1_n_n 16 rfl rfl).symm k) = ix2 p k := funext fun a => Fin.ext (by
    match a with
    | ⟨0, _⟩ => exact lhs_d16_0 _ _
    | ⟨1, _⟩ => exact (lhs_d16_1 _ _).trans hk)
  have er : dot_S10000x16_S16x64_S10000x64_1_0_0_1_n_n.rhsIdx (ix2 p q) ((contrEquiv1 dot_S10000x16_S16x64_S10000x64_1_0_0_1_n_n 16 rfl rfl).symm k) = ix2 k q := funext fun a => Fin.ext (by
    match a with
    | ⟨0, _⟩ => exact (rhs_d16_0 _ _).trans hk
    | ⟨1, _⟩ => exact rhs_d16_1 _ _)
  rw [el, er]

/-! ## The message bodies -/

/-- The first message body at (p, q). -/
theorem pay0 (v0 : Vec Ideal S10000x64 .f32) (v2 : Vec Ideal S64x64 .f32) (v5 : Vec Ideal S10000x64 .f32) (v7 : Vec Ideal S64x64 .f32) (v11 : Vec Ideal S10000x16 .f32) (v12 : Vec Ideal S16x64 .f32) (v16 : Vec Ideal S1x64 .f32) (p : Fin 10000) (q : Fin 64) :
    k0_pay1 (F := Ideal) v0 v2 v5 v7 v11 v12 v16 (ix2 p q)
      = max ((((∑ k : Fin 64, v0 (ix2 p k) * v2 (ix2 k q)) + ∑ k : Fin 64, v5 (ix2 p k) * v7 (ix2 k q)) + ∑ k : Fin 16, v11 (ix2 p k) * v12 (ix2 k q)) + v16 (ix2 0 q)) Cert.Spec.Z := by
  unfold k0_pay1
  simp only [shapeCast_self]
  rw [maximumf_apply, addf_apply, addf_apply, addf_apply, mm64, mm64, mm16, broadcastTo_1b_ab_apply, broadcast_apply]
  rfl

/-- The second message body is the first one's text. -/
theorem pay2 (v0 : Vec Ideal S10000x64 .f32) (v2 : Vec Ideal S64x64 .f32) (v5 : Vec Ideal S10000x64 .f32) (v7 : Vec Ideal S64x64 .f32) (v11 : Vec Ideal S10000x16 .f32) (v12 : Vec Ideal S16x64 .f32) (v16 : Vec Ideal S1x64 .f32) (p : Fin 10000) (q : Fin 64) :
    k2_pay1 (F := Ideal) v0 v2 v5 v7 v11 v12 v16 (ix2 p q)
      = max ((((∑ k : Fin 64, v0 (ix2 p k) * v2 (ix2 k q)) + ∑ k : Fin 64, v5 (ix2 p k) * v7 (ix2 k q)) + ∑ k : Fin 16, v11 (ix2 p k) * v12 (ix2 k q)) + v16 (ix2 0 q)) Cert.Spec.Z :=
  pay0 v0 v2 v5 v7 v11 v12 v16 p q

/-- The third message body is the first one's text. -/
theorem pay4 (v0 : Vec Ideal S10000x64 .f32) (v2 : Vec Ideal S64x64 .f32) (v5 : Vec Ideal S10000x64 .f32) (v7 : Vec Ideal S64x64 .f32) (v11 : Vec Ideal S10000x16 .f32) (v12 : Vec Ideal S16x64 .f32) (v16 : Vec Ideal S1x64 .f32) (p : Fin 10000) (q : Fin 64) :
    k4_pay1 (F := Ideal) v0 v2 v5 v7 v11 v12 v16 (ix2 p q)
      = max ((((∑ k : Fin 64, v0 (ix2 p k) * v2 (ix2 k q)) + ∑ k : Fin 64, v5 (ix2 p k) * v7 (ix2 k q)) + ∑ k : Fin 16, v11 (ix2 p k) * v12 (ix2 k q)) + v16 (ix2 0 q)) Cert.Spec.Z :=
  pay0 v0 v2 v5 v7 v11 v12 v16 p q

/-! ## The update bodies -/

/-- The first update body at (p, q); its first left operand enters the product as it was read. -/
theorem pay1 (v0 : Vec Ideal S10000x64 .f32) (v1 : Vec Ideal S64x64 .f32) (v4 : Vec Ideal S10000x64 .f32) (v6 : Vec Ideal S64x64 .f32) (v10 : Vec Ideal S1x64 .f32) (p : Fin 10000) (q : Fin 64) :
    k1_pay1 (F := Ideal) v0 v1 v4 v6 v10 (ix2 p q)
      = max (((∑ k : Fin 64, v0 (ix2 p k) * v1 (ix2 k q)) + ∑ k : Fin 64, v4 (ix2 p k) * v6 (ix2 k q)) + v10 (ix2 0 q)) Cert.Spec.Z := by
  unfold k1_pay1
  simp only [shapeCast_self]
  rw [maximumf_apply, addf_apply, addf_apply, mm64, mm64, broadcastTo_1b_ab_apply, broadcast_apply]
  rfl

/-- The second update body at (p, q). -/
theorem pay3 (v0 : Vec Ideal S10000x64 .f32) (v2 : Vec Ideal S64x64 .f32) (v5 : Vec Ideal S10000x64 .f32) (v7 : Vec Ideal S64x64 .f32) (v11 : Vec Ideal S1x64 .f32) (p : Fin 10000) (q : Fin 64) :
    k3_pay1 (F := Ideal) v0 v2 v5 v7 v11 (ix2 p q)
      = max (((∑ k : Fin 64, v0 (ix2 p k) * v2 (ix2 k q)) + ∑ k : Fin 64, v5 (ix2 p k) * v7 (ix2 k q)) + v11 (ix2 0 q)) Cert.Spec.Z := by
  unfold k3_pay1
  simp only [shapeCast_self]
  rw [maximumf_apply, addf_apply, addf_apply, mm64, mm64, broadcastTo_1b_ab_apply, broadcast_apply]
  rfl

/-- The third update body is the second one's text. -/
theorem pay5 (v0 : Vec Ideal S10000x64 .f32) (v2 : Vec Ideal S64x64 .f32) (v5 : Vec Ideal S10000x64 .f32) (v7 : Vec Ideal S64x64 .f32) (v11 : Vec Ideal S1x64 .f32) (p : Fin 10000) (q : Fin 64) :
    k5_pay1 (F := Ideal) v0 v2 v5 v7 v11 (ix2 p q)
      = max (((∑ k : Fin 64, v0 (ix2 p k) * v2 (ix2 k q)) + ∑ k : Fin 64, v5 (ix2 p k) * v7 (ix2 k q)) + v11 (ix2 0 q)) Cert.Spec.Z :=
  pay3 v0 v2 v5 v7 v11 p q

end Cert.KernelIdeal.KV

end
-- ==== Proof.Reg0.lean ====
/-
  What one launch of the message kernel leaves in its output array, as one function of the launch's input arrays, over
  the extended reals.

  The launch runs over 80 grid points. Point t loads rows 10000 t … 10000 t + 9999 of the two gathered endpoint arrays
  (800000 × 64) and of the edge attributes (800000 × 16), and the three weight bands (64 × 64, 64 × 64, 16 × 64) and the
  bias row (1 × 64) whole; it stores the 10000 × 64 block of the messages of those rows. Entry (p, q) of that block
  depends only on row p of each of the three edge blocks, that is on row 10000 t + p of the three edge arrays, so the
  block is rows 10000 t … 10000 t + 9999 of ONE array function of the seven input arrays, `Cert.Spec.msgA`. The 80 blocks
  cover the 800000 rows (row r lies in block r / 10000), so the output array after the launch is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zeroOff0 : (![0, 0] : Fin 2 → Nat) = fun _ => 0 := funext fun a => by
  match a with | ⟨0, _⟩ => rfl | ⟨1, _⟩ => rfl

/-- The block indices of the eight windows at grid point t: the three edge windows and the output move with the point
    along the rows, the weight and bias windows stay at block (0, 0). -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Entry (a, b) of the first endpoint block at point t is entry (10000 t + a, b) of the array: the block index is (t, 0). -/
theorem blk0_0 (c : Dev nD) (t : Fin cfg0.N) (a : Fin 10000) (b : Fin 64) (k : S800000x64.Idx)
    (hk0 : (k 0).val = t.val * 10000 + a.val) (hk1 : (k 1).val = b.val) :
    (iblk0 V c 0 t : Vec Ideal S10000x64 .f32) (ix2 a b) = (V c main_call0_v4 : S800000x64.Idx → EReal) k := by
  obtain ⟨e00, e01, e10, e11, e20, e21, -⟩ := blockIdx0 t
  unfold iblk0
  rw [View.read_apply]
  show V c main_call0_v4 _ = V c main_call0_v4 _
  congr 1
  funext d
  apply Fin.ext
  match d with
  | ⟨0, _⟩ => show win0_0.index t (0 : Fin 2) * 10000 + 1 * a.val = (k 0).val; rw [e00, hk0]; omega
  | ⟨1, _⟩ => show win0_0.index t (1 : Fin 2) * 64 + 1 * b.val = (k 1).val; rw [e01, hk1]; omega

/-- Entry (a, b) of the second endpoint block at point t is entry (10000 t + a, b) of the array: the block index is (t, 0). -/
theorem blk0_1 (c : Dev nD) (t : Fin cfg0.N) (a : Fin 10000) (b : Fin 64) (k : S800000x64.Idx)
    (hk0 : (k 0).val = t.val * 10000 + a.val) (hk1 : (k 1).val = b.val) :
    (iblk0 V c 1 t : Vec Ideal S10000x64 .f32) (ix2 a b) = (V c main_call0_v5 : S800000x64.Idx → EReal) k := by
  obtain ⟨e00, e01, e10, e11, e20, e21, -⟩ := blockIdx0 t
  unfold iblk0
  rw [View.read_apply]
  show V c main_call0_v5 _ = V c main_call0_v5 _
  congr 1
  funext d
  apply Fin.ext
  match d with
  | ⟨0, _⟩ => show win0_1.index t (0 : Fin 2) * 10000 + 1 * a.val = (k 0).val; rw [e10, hk0]; omega
  | ⟨1, _⟩ => show win0_1.index t (1 : Fin 2) * 64 + 1 * b.val = (k 1).val; rw [e11, hk1]; omega

/-- Entry (a, b) of the edge-attribute block at point t is entry (10000 t + a, b) of the array: the block index is (t, 0). -/
theorem blk0_2 (c : Dev nD) (t : Fin cfg0.N) (a : Fin 10000) (b : Fin 16) (k : S800000x16.Idx)
    (hk0 : (k 0).val = t.val * 10000 + a.val) (hk1 : (k 1).val = b.val) :
    (iblk0 V c 2 t : Vec Ideal S10000x16 .f32) (ix2 a b) = (V c main_arg2 : S800000x16.Idx → EReal) k := by
  obtain ⟨e00, e01, e10, e11, e20, e21, -⟩ := blockIdx0 t
  unfold iblk0
  rw [View.read_apply]
  show V c main_arg2 _ = V c main_arg2 _
  congr 1
  funext d
  apply Fin.ext
  match d with
  | ⟨0, _⟩ => show win0_2.index t (0 : Fin 2) * 10000 + 1 * a.val = (k 0).val; rw [e20, hk0]; omega
  | ⟨1, _⟩ => show win0_2.index t (1 : Fin 2) * 16 + 1 * b.val = (k 1).val; rw [e21, hk1]; omega

/-- The first weight band's block is the whole array at every point: the block index is (0, 0). -/
theorem blk0_3 (c : Dev nD) (t : Fin cfg0.N) (a : Fin 64) (b : Fin 64) :
    (iblk0 V c 3 t : Vec Ideal S64x64 .f32) (ix2 a b) = (V c main_call0_v7 : S64x64.Idx → EReal) (ix2 a b) := by
  obtain ⟨-, -, -, -, -, -, e30, e31, e40, e41, e50, e51, e60, e61, -⟩ := blockIdx0 t
  unfold iblk0
  rw [View.read_apply]
  show V c main_call0_v7 _ = V c main_call0_v7 _
  congr 1
  funext d
  apply Fin.ext
  match d with
  | ⟨0, _⟩ => show win0_3.index t (0 : Fin 2) * 64 + 1 * a.val = a.val; rw [e30]; omega
  | ⟨1, _⟩ => show win0_3.index t (1 : Fin 2) * 64 + 1 * b.val = b.val; rw [e31]; omega

/-- The second weight band's block is the whole array at every point: the block index is (0, 0). -/
theorem blk0_4 (c : Dev nD) (t : Fin cfg0.N) (a : Fin 64) (b : Fin 64) :
    (iblk0 V c 4 t : Vec Ideal S64x64 .f32) (ix2 a b) = (V c main_call0_v9 : S64x64.Idx → EReal) (ix2 a b) := by
  obtain ⟨-, -, -, -, -, -, e30, e31, e40, e41, e50, e51, e60, e61, -⟩ := blockIdx0 t
  unfold iblk0
  rw [View.read_apply]
  show V c main_call0_v9 _ = V c main_call0_v9 _
  congr 1
  funext d
  apply Fin.ext
  match d with
  | ⟨0, _⟩ => show win0_4.index t (0 : Fin 2) * 64 + 1 * a.val = a.val; rw [e40]; omega
  | ⟨1, _⟩ => show win0_4.index t (1 : Fin 2) * 64 + 1 * b.val = b.val; rw [e41]; omega

/-- The third weight band's block is the whole array at every point: the block index is (0, 0). -/
theorem blk0_5 (c : Dev nD) (t : Fin cfg0.N) (a : Fin 16) (b : Fin 64) :
    (iblk0 V c 5 t : Vec Ideal S16x64 .f32) (ix2 a b) = (V c main_call0_v11 : S16x64.Idx → EReal) (ix2 a b) := by
  obtain ⟨-, -, -, -, -, -, e30, e31, e40, e41, e50, e51, e60, e61, -⟩ := blockIdx0 t
  unfold iblk0
  rw [View.read_apply]
  show V c main_call0_v11 _ = V c main_call0_v11 _
  congr 1
  funext d
  apply Fin.ext
  match d with
  | ⟨0, _⟩ => show win0_5.index t (0 : Fin 2) * 16 + 1 * a.val = a.val; rw [e50]; omega
  | ⟨1, _⟩ => show win0_5.index t (1 : Fin 2) * 64 + 1 * b.val = b.val; rw [e51]; omega

/-- The bias row's block is the whole array at every point: the block index is (0, 0). -/
theorem blk0_6 (c : Dev nD) (t : Fin cfg0.N) (a : Fin 1) (b : Fin 64) :
    (iblk0 V c 6 t : Vec Ideal S1x64 .f32) (ix2 a b) = (V c main_call0_v14 : S1x64.Idx → EReal) (ix2 a b) := by
  obtain ⟨-, -, -, -, -, -, e30, e31, e40, e41, e50, e51, e60, e61, -⟩ := blockIdx0 t
  unfold iblk0
  rw [View.read_apply]
  show V c main_call0_v14 _ = V c main_call0_v14 _
  congr 1
  funext d
  apply Fin.ext
  match d with
  | ⟨0, _⟩ => show win0_6.index t (0 : Fin 2) * 1 + 1 * a.val = a.val; rw [e60]; omega
  | ⟨1, _⟩ => show win0_6.index t (1 : Fin 2) * 64 + 1 * b.val = b.val; rw [e61]; omega

/-- Entry (p, q) of the output block at point t sits at entry (10000 t + p, q) of the output array. -/
theorem outEmb0 (t : Fin cfg0.N) (p : Fin 10000) (q : Fin 64) (hrow : t.val * 10000 + p.val < 800000) :
    ((cfg0.win 7).blk t).view.emb (ix2 p q) = (ix2 (⟨t.val * 10000 + p.val, hrow⟩ : Fin 800000) q : S800000x64.Idx) := by
  obtain ⟨-, -, -, -, -, -, -, -, -, -, -, -, -, -, e70, e71⟩ := blockIdx0 t
  funext d
  apply Fin.ext
  match d with
  | ⟨0, _⟩ => show win0_7.index t (0 : Fin 2) * 10000 + 1 * p.val = t.val * 10000 + p.val; rw [e70]; omega
  | ⟨1, _⟩ => show win0_7.index t (1 : Fin 2) * 64 + 1 * q.val = q.val; rw [e71]; omega

/-- What point t writes back is block t of the message array: row p of the block depends on rows 10000 t + p of the
    three edge arrays and on the whole weight bands and bias row. -/
theorem flushed0 (c : Dev nD) (t : Fin cfg0.N) :
    (dat0 (F := Ideal) V c).flushed 7 t = ((cfg0.win 7).blk t).view.read (Elt Ideal)
      (Cert.Spec.msgA (V c main_call0_v4) (V c main_call0_v5) (V c main_arg2) (V c main_call0_v7) (V c main_call0_v9) (V c main_call0_v11) (V c main_call0_v14)) := by
  show (cfg0.win 7).cut (grid0.coords t) ((dat0 (F := Ideal) V c).after 7 t) = _
  rw [after0_7]
  unfold out0_7
  rw [View.canon_unit_zero zeroOff0]
  simp only [View.ld_unit_zero (S := S10000x64) zeroOff0, View.ld_unit_zero (S := S64x64) zeroOff0,
    View.ld_unit_zero (S := S10000x16) zeroOff0, View.ld_unit_zero (S := S16x64) zeroOff0,
    View.ld_unit_zero (S := S1x64) zeroOff0]
  funext j
  obtain ⟨p, q, rfl⟩ : ∃ (p : Fin 10000) (q : Fin 64), j = ix2 p q := ⟨j 0, j 1, eq_ix2 j⟩
  have ht : t.val < 80 := t.isLt
  have hrow : t.val * 10000 + p.val < 800000 := by have := p.isLt; omega
  show k0_pay1 (F := Ideal) (iblk0 V c 0 t) (iblk0 V c 3 t) (iblk0 V c 1 t) (iblk0 V c 4 t) (iblk0 V c 2 t) (iblk0 V c 5 t) (iblk0 V c 6 t) (ix2 p q)
      = (Cert.Spec.msgA (V c main_call0_v4) (V c main_call0_v5) (V c main_arg2) (V c main_call0_v7) (V c main_call0_v9) (V c main_call0_v11) (V c main_call0_v14)) (((cfg0.win 7).blk t).view.emb (ix2 p q))
  rw [outEmb0 t p q hrow, Cert.Spec.msgA_apply]
  refine (pay0 (iblk0 V c 0 t) (iblk0 V c 3 t) (iblk0 V c 1 t) (iblk0 V c 4 t) (iblk0 V c 2 t) (iblk0 V c 5 t) (iblk0 V c 6 t) p q).trans ?_
  unfold Cert.Spec.msgK
  have h0 : ∀ k : Fin 64, (iblk0 V c 0 t : Vec Ideal S10000x64 .f32) (ix2 p k)
      = (V c main_call0_v4 : S800000x64.Idx → EReal) (ix2 (⟨t.val * 10000 + p.val, hrow⟩ : Fin 800000) k) :=
    fun k => blk0_0 V c t p k _ rfl rfl
  have h1 : ∀ k : Fin 64, (iblk0 V c 1 t : Vec Ideal S10000x64 .f32) (ix2 p k)
      = (V c main_call0_v5 : S800000x64.Idx → EReal) (ix2 (⟨t.val * 10000 + p.val, hrow⟩ : Fin 800000) k) :=
    fun k => blk0_1 V c t p k _ rfl rfl
  have h2 : ∀ k : Fin 16, (iblk0 V c 2 t : Vec Ideal S10000x16 .f32) (ix2 p k)
      = (V c main_arg2 : S800000x16.Idx → EReal) (ix2 (⟨t.val * 10000 + p.val, hrow⟩ : Fin 800000) k) :=
    fun k => blk0_2 V c t p k _ rfl rfl
  simp only [h0, h1, h2, blk0_3 V c t, blk0_4 V c t, blk0_5 V c t, blk0_6 V c t]

/-- An entry of the output array is in point t's block iff each coordinate is in the block's range on its axis. -/
theorem memBlk0 (t : Fin cfg0.N) (i : S800000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_call0_v15).slice (win0_7.rect t)).set ↔ _
  rw [View.set_slice_whole, Rect.mem_set_unit]
  exact Iff.rfl

/-- The 80 blocks of 10000 rows cover the 800000 rows: row r is in the block of point r / 10000. -/
theorem cover0 (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  obtain ⟨t, ht⟩ : ∃ t : Fin cfg0.N, t.val = (i 0).val / 10000 :=
    ⟨⟨(i 0).val / 10000, by show (i 0).val / 10000 < 80; omega⟩, rfl⟩
  obtain ⟨-, -, -, -, -, -, -, -, -, -, -, -, -, -, e70, e71⟩ := blockIdx0 t
  refine ⟨t, flush0_7 t, ?_⟩
  rw [memBlk0]
  intro a
  match a with
  | ⟨0, _⟩ => show win0_7.index t (0 : Fin 2) * 10000 ≤ (i 0).val ∧ (i 0).val < win0_7.index t (0 : Fin 2) * 10000 + 10000; rw [e70, ht]; omega
  | ⟨1, _⟩ => show win0_7.index t (1 : Fin 2) * 64 ≤ (i 1).val ∧ (i 1).val < win0_7.index t (1 : Fin 2) * 64 + 64; rw [e71]; omega

/-- The message array the launch leaves: every entry is the rectified affine map of its own row of the three edge arrays. -/
theorem arr0 (c : Dev nD) :
    (dat0 (F := Ideal) V c).arrAt 7 cfg0.N = Cert.Spec.msgA (V c main_call0_v4) (V c main_call0_v5) (V c main_arg2) (V c main_call0_v7) (V c main_call0_v9) (V c main_call0_v11) (V c main_call0_v14) :=
  (dat0 (F := Ideal) V c).arrAt_eq_of_cover 7 (Cert.Spec.msgA (V c main_call0_v4) (V c main_call0_v5) (V c main_arg2) (V c main_call0_v7) (V c main_call0_v9) (V c main_call0_v11) (V c main_call0_v14))
    (fun t _ => flushed0 V c t) cover0

end Cert.KernelIdeal.KV

end
-- ==== Proof.Reg1.lean ====
/-
  What one launch of the node-update program leaves in its output array, as one function of the arrays it reads.

  The launch runs over 5 points. Point `t` reads block `t` (10000 rows, all 64 columns) of the node features and of the
  aggregated messages, the two 64 × 64 weight bands whole and the one bias row whole, and writes block `t` of the output.
  Row `p` of block `t` is row `10000 t + p` of the array, so entry `(n, c)` of the output depends on row `n` of the two row
  arrays, column `c` of the two weight bands and entry `c` of the bias: it is the updated feature of node `n`, channel `c`.
  The 5 blocks of 10000 rows tile the 50000 rows, so the whole array is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-- The zero offset of a whole block. -/
theorem zoff1 : (![0, 0] : Fin 2 → Nat) = fun _ => 0 := funext fun a => by fin_cases a <;> rfl

/-- The block indices over the 5 points: the two row windows and the output sit at block `(t, 0)`, the two weight
    bands and the bias at block `(0, 0)`. -/
theorem bidx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point's number is below 5. -/
theorem pt_lt1 (t : Fin cfg1.N) : t.val < 5 := lt_of_lt_of_eq t.isLt N_1

/-- Row `p` of block `t` is row `10000 t + p` of the 50000. -/
abbrev row1 (t : Fin cfg1.N) (p : Fin 10000) : Fin 50000 :=
  ⟨t.val * 10000 + p.val, by have := pt_lt1 t; have := p.isLt; omega⟩

/-- The node-feature block at point `t`, entry `(p, k)`, is the array's entry `(10000 t + p, k)`. -/
theorem blk1_0 (c : Dev nD) (t : Fin cfg1.N) (p : Fin 10000) (k : Fin 64) :
    (iblk1 (F := Ideal) V c 0 t : Vec Ideal S10000x64 .f32) (ix2 p k)
      = (V c main_arg0 : Cert.Spec.N64.Idx → EReal) (ix2 (row1 t p) k) := by
  obtain ⟨e0, e1, -⟩ := bidx1 t
  show (V c main_arg0 : Cert.Spec.N64.Idx → EReal) (((cfg1.win 0).blk t).view.emb (ix2 p k)) = _
  congr 1
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- The aggregated-message block at point `t`, entry `(p, k)`, is the array's entry `(10000 t + p, k)`. -/
theorem blk1_1 (c : Dev nD) (t : Fin cfg1.N) (p : Fin 10000) (k : Fin 64) :
    (iblk1 (F := Ideal) V c 1 t : Vec Ideal S10000x64 .f32) (ix2 p k)
      = (V c main_call0_v18 : Cert.Spec.N64.Idx → EReal) (ix2 (row1 t p) k) := by
  obtain ⟨-, -, e0, e1, -⟩ := bidx1 t
  show (V c main_call0_v18 : Cert.Spec.N64.Idx → EReal) (((cfg1.win 1).blk t).view.emb (ix2 p k)) = _
  congr 1
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

/-- The first weight band's block at every point is the band: entry `(k, q)` is entry `(k, q)`. -/
theorem blk1_2 (c : Dev nD) (t : Fin cfg1.N) (k : Fin 64) (q : Fin 64) :
    (iblk1 (F := Ideal) V c 2 t : Vec Ideal S64x64 .f32) (ix2 k q)
      = (V c main_call0_v20 : Cert.Spec.W64.Idx → EReal) (ix2 k q) := by
  obtain ⟨-, -, -, -, e0, e1, -⟩ := bidx1 t
  show (V c main_call0_v20 : Cert.Spec.W64.Idx → EReal) (((cfg1.win 2).blk t).view.emb (ix2 k q)) = _
  congr 1
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- The second weight band's block at every point is the band. -/
theorem blk1_3 (c : Dev nD) (t : Fin cfg1.N) (k : Fin 64) (q : Fin 64) :
    (iblk1 (F := Ideal) V c 3 t : Vec Ideal S64x64 .f32) (ix2 k q)
      = (V c main_call0_v22 : Cert.Spec.W64.Idx → EReal) (ix2 k q) := by
  obtain ⟨-, -, -, -, -, -, e0, e1, -⟩ := bidx1 t
  show (V c main_call0_v22 : Cert.Spec.W64.Idx → EReal) (((cfg1.win 3).blk t).view.emb (ix2 k q)) = _
  congr 1
  funext a; apply Fin.ext
  match a with
  | ⟨0, _⟩ => show win1_3.index t (0 : Fin 2) * 64 + 1 * k.val = k.val; omega
  | ⟨1, _⟩ => show win1_3.index t (1 : Fin 2) * 64 + 1 * q.val = q.val; omega

/-- The bias row's block at every point is the row. -/
theorem blk1_4 (c : Dev nD) (t : Fin cfg1.N) (q : Fin 64) :
    (iblk1 (F := Ideal) V c 4 t : Vec Ideal S1x64 .f32) (ix2 0 q)
      = (V c main_call0_v25 : Cert.Spec.B1.Idx → EReal) (ix2 0 q) := by
  obtain ⟨-, -, -, -, -, -, -, -, e0, e1, -⟩ := bidx1 t
  show (V c main_call0_v25 : Cert.Spec.B1.Idx → EReal) (((cfg1.win 4).blk t).view.emb (ix2 0 q)) = _
  congr 1
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-- Entry `(p, q)` of the output's block at point `t` sits at entry `(10000 t + p, q)` of the output array. -/
theorem oemb1 (t : Fin cfg1.N) (p : Fin 10000) (q : Fin 64) :
    (((cfg1.win 5).blk t).view.emb (ix2 p q) : Cert.Spec.N64.Idx) = ix2 (row1 t p) q := by
  obtain ⟨-, -, -, -, -, -, -, -, -, -, e0, e1⟩ := bidx1 t
  funext a; apply Fin.ext
  match a with
  | ⟨0, _⟩ => show win1_5.index t (0 : Fin 2) * 10000 + 1 * p.val = t.val * 10000 + p.val; omega
  | ⟨1, _⟩ => show win1_5.index t (1 : Fin 2) * 64 + 1 * q.val = q.val; omega

/-- The updated features as one array function of the five arrays the launch reads. -/
abbrev upd1 (c : Dev nD) : Cert.Spec.N64.Idx → EReal :=
  Cert.Spec.updA (V c main_arg0) (V c main_call0_v18) (V c main_call0_v20) (V c main_call0_v22) (V c main_call0_v25)

/-- What point `t` writes back is block `t` of the updated features: entry `(p, q)` of the body's result is the rectified
    sum of the two products of row `10000 t + p` with column `q` of the bands, plus the bias. -/
theorem wrote1 (c : Dev nD) (t : Fin cfg1.N) :
    (dat1 (F := Ideal) V c).flushed 5 t = ((cfg1.win 5).blk t).view.read (Elt Ideal) (upd1 V c) := by
  show (cfg1.win 5).cut (grid1.coords t) ((dat1 (F := Ideal) V c).after 5 t) = _
  rw [after1_5]
  unfold out1_5
  rw [View.canon_unit_zero zoff1]
  simp only [View.ld_unit_zero (S := S10000x64) zoff1, View.ld_unit_zero (S := S64x64) zoff1, View.ld_unit_zero (S := S1x64) zoff1]
  funext j
  obtain ⟨p, q, rfl⟩ : ∃ (p : Fin 10000) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
      = upd1 V c (((cfg1.win 5).blk t).view.emb (ix2 p q))
  refine (pay1 _ _ _ _ _ p q).trans ?_
  rw [oemb1 t p q]
  show _ = Cert.Spec.updK (V c main_arg0) (V c main_call0_v18) (V c main_call0_v20) (V c main_call0_v22) (V c main_call0_v25) (row1 t p) q
  unfold Cert.Spec.updK
  simp only [blk1_0 V c t, blk1_1 V c t, blk1_2 V c t, blk1_3 V c t, blk1_4 V c t]

/-- An index of the output array is in point `t`'s block iff each coordinate is in the block's range on its axis. -/
theorem mem1 (t : Fin cfg1.N) (i : Cert.Spec.N64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_call0_v26).slice (win1_5.rect t)).set ↔ _
  rw [View.set_slice_whole, Rect.mem_set_unit]
  exact Iff.rfl

/-- Every row of the output is in some point's block: row `r` in the block of point `r / 10000`. -/
theorem cover1 (i : Cert.Spec.N64.Idx) :
    ∃ t : Fin cfg1.N, (cfg1.win 5).flush t = true ∧ i ∈ ((cfg1.win 5).blk t).view.set := by
  have hi0 : (i 0).val < 50000 := idx2_lt0 i
  have hi1 : (i 1).val < 64 := idx2_lt1 i
  have hN : grid1.N = 5 := N_1
  let t : Fin cfg1.N := ⟨(i 0).val / 10000, by show (i 0).val / 10000 < grid1.N; omega⟩
  obtain ⟨-, -, -, -, -, -, -, -, -, -, e0, e1⟩ := bidx1 t
  have ht : t.val = (i 0).val / 10000 := rfl
  refine ⟨t, flush1_5 t, ?_⟩
  rw [mem1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the launch is the updated features of the arrays the launch found. -/
theorem arr1 (c : Dev nD) :
    (dat1 (F := Ideal) V c).arrAt 5 cfg1.N = Cert.Spec.updA (V c main_arg0) (V c main_call0_v18) (V c main_call0_v20) (V c main_call0_v22) (V c main_call0_v25) :=
  (dat1 (F := Ideal) V c).arrAt_eq_of_cover 5 (upd1 V c) (fun t _ => wrote1 V c t) cover1

end Cert.KernelIdeal.KV

end
-- ==== Proof.Reg2.lean ====
/-
  What one launch of the message kernel leaves in its output array, as one function of the launch's input arrays, over
  the extended reals.

  The launch runs over 80 grid points. Point t loads rows 10000 t … 10000 t + 9999 of the two gathered endpoint arrays
  (800000 × 64) and of the edge attributes (800000 × 16), and the three weight bands (64 × 64, 64 × 64, 16 × 64) and the
  bias row (1 × 64) whole; it stores the 10000 × 64 block of the messages of those rows. Entry (p, q) of that block
  depends only on row p of each of the three edge blocks, that is on row 10000 t + p of the three edge arrays, so the
  block is rows 10000 t … 10000 t + 9999 of ONE array function of the seven input arrays, `Cert.Spec.msgA`. The 80 blocks
  cover the 800000 rows (row r lies in block r / 10000), so the output array after the launch is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zeroOff2 : (![0, 0] : Fin 2 → Nat) = fun _ => 0 := funext fun a => by
  match a with | ⟨0, _⟩ => rfl | ⟨1, _⟩ => rfl

/-- The block indices of the eight windows at grid point t: the three edge windows and the output move with the point
    along the rows, the weight and bias windows stay at block (0, 0). -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Entry (a, b) of the first endpoint block at point t is entry (10000 t + a, b) of the array: the block index is (t, 0). -/
theorem blk2_0 (c : Dev nD) (t : Fin cfg2.N) (a : Fin 10000) (b : Fin 64) (k : S800000x64.Idx)
    (hk0 : (k 0).val = t.val * 10000 + a.val) (hk1 : (k 1).val = b.val) :
    (iblk2 V c 0 t : Vec Ideal S10000x64 .f32) (ix2 a b) = (V c main_call0_v27 : S800000x64.Idx → EReal) k := by
  obtain ⟨e00, e01, e10, e11, e20, e21, -⟩ := blockIdx2 t
  unfold iblk2
  rw [View.read_apply]
  show V c main_call0_v27 _ = V c main_call0_v27 _
  congr 1
  funext d
  apply Fin.ext
  match d with
  | ⟨0, _⟩ => show win2_0.index t (0 : Fin 2) * 10000 + 1 * a.val = (k 0).val; rw [e00, hk0]; omega
  | ⟨1, _⟩ => show win2_0.index t (1 : Fin 2) * 64 + 1 * b.val = (k 1).val; rw [e01, hk1]; omega

/-- Entry (a, b) of the second endpoint block at point t is entry (10000 t + a, b) of the array: the block index is (t, 0). -/
theorem blk2_1 (c : Dev nD) (t : Fin cfg2.N) (a : Fin 10000) (b : Fin 64) (k : S800000x64.Idx)
    (hk0 : (k 0).val = t.val * 10000 + a.val) (hk1 : (k 1).val = b.val) :
    (iblk2 V c 1 t : Vec Ideal S10000x64 .f32) (ix2 a b) = (V c main_call0_v28 : S800000x64.Idx → EReal) k := by
  obtain ⟨e00, e01, e10, e11, e20, e21, -⟩ := blockIdx2 t
  unfold iblk2
  rw [View.read_apply]
  show V c main_call0_v28 _ = V c main_call0_v28 _
  congr 1
  funext d
  apply Fin.ext
  match d with
  | ⟨0, _⟩ => show win2_1.index t (0 : Fin 2) * 10000 + 1 * a.val = (k 0).val; rw [e10, hk0]; omega
  | ⟨1, _⟩ => show win2_1.index t (1 : Fin 2) * 64 + 1 * b.val = (k 1).val; rw [e11, hk1]; omega

/-- Entry (a, b) of the edge-attribute block at point t is entry (10000 t + a, b) of the array: the block index is (t, 0). -/
theorem blk2_2 (c : Dev nD) (t : Fin cfg2.N) (a : Fin 10000) (b : Fin 16) (k : S800000x16.Idx)
    (hk0 : (k 0).val = t.val * 10000 + a.val) (hk1 : (k 1).val = b.val) :
    (iblk2 V c 2 t : Vec Ideal S10000x16 .f32) (ix2 a b) = (V c main_arg2 : S800000x16.Idx → EReal) k := by
  obtain ⟨e00, e01, e10, e11, e20, e21, -⟩ := blockIdx2 t
  unfold iblk2
  rw [View.read_apply]
  show V c main_arg2 _ = V c main_arg2 _
  congr 1
  funext d
  apply Fin.ext
  match d with
  | ⟨0, _⟩ => show win2_2.index t (0 : Fin 2) * 10000 + 1 * a.val = (k 0).val; rw [e20, hk0]; omega
  | ⟨1, _⟩ => show win2_2.index t (1 : Fin 2) * 16 + 1 * b.val = (k 1).val; rw [e21, hk1]; omega

/-- The first weight band's block is the whole array at every point: the block index is (0, 0). -/
theorem blk2_3 (c : Dev nD) (t : Fin cfg2.N) (a : Fin 64) (b : Fin 64) :
    (iblk2 V c 3 t : Vec Ideal S64x64 .f32) (ix2 a b) = (V c main_call0_v30 : S64x64.Idx → EReal) (ix2 a b) := by
  obtain ⟨-, -, -, -, -, -, e30, e31, e40, e41, e50, e51, e60, e61, -⟩ := blockIdx2 t
  unfold iblk2
  rw [View.read_apply]
  show V c main_call0_v30 _ = V c main_call0_v30 _
  congr 1
  funext d
  apply Fin.ext
  match d with
  | ⟨0, _⟩ => show win2_3.index t (0 : Fin 2) * 64 + 1 * a.val = a.val; rw [e30]; omega
  | ⟨1, _⟩ => show win2_3.index t (1 : Fin 2) * 64 + 1 * b.val = b.val; rw [e31]; omega

/-- The second weight band's block is the whole array at every point: the block index is (0, 0). -/
theorem blk2_4 (c : Dev nD) (t : Fin cfg2.N) (a : Fin 64) (b : Fin 64) :
    (iblk2 V c 4 t : Vec Ideal S64x64 .f32) (ix2 a b) = (V c main_call0_v32 : S64x64.Idx → EReal) (ix2 a b) := by
  obtain ⟨-, -, -, -, -, -, e30, e31, e40, e41, e50, e51, e60, e61, -⟩ := blockIdx2 t
  unfold iblk2
  rw [View.read_apply]
  show V c main_call0_v32 _ = V c main_call0_v32 _
  congr 1
  funext d
  apply Fin.ext
  match d with
  | ⟨0, _⟩ => show win2_4.index t (0 : Fin 2) * 64 + 1 * a.val = a.val; rw [e40]; omega
  | ⟨1, _⟩ => show win2_4.index t (1 : Fin 2) * 64 + 1 * b.val = b.val; rw [e41]; omega

/-- The third weight band's block is the whole array at every point: the block index is (0, 0). -/
theorem blk2_5 (c : Dev nD) (t : Fin cfg2.N) (a : Fin 16) (b : Fin 64) :
    (iblk2 V c 5 t : Vec Ideal S16x64 .f32) (ix2 a b) = (V c main_call0_v34 : S16x64.Idx → EReal) (ix2 a b) := by
  obtain ⟨-, -, -, -, -, -, e30, e31, e40, e41, e50, e51, e60, e61, -⟩ := blockIdx2 t
  unfold iblk2
  rw [View.read_apply]
  show V c main_call0_v34 _ = V c main_call0_v34 _
  congr 1
  funext d
  apply Fin.ext
  match d with
  | ⟨0, _⟩ => show win2_5.index t (0 : Fin 2) * 16 + 1 * a.val = a.val; rw [e50]; omega
  | ⟨1, _⟩ => show win2_5.index t (1 : Fin 2) * 64 + 1 * b.val = b.val; rw [e51]; omega

/-- The bias row's block is the whole array at every point: the block index is (0, 0). -/
theorem blk2_6 (c : Dev nD) (t : Fin cfg2.N) (a : Fin 1) (b : Fin 64) :
    (iblk2 V c 6 t : Vec Ideal S1x64 .f32) (ix2 a b) = (V c main_call0_v37 : S1x64.Idx → EReal) (ix2 a b) := by
  obtain ⟨-, -, -, -, -, -, e30, e31, e40, e41, e50, e51, e60, e61, -⟩ := blockIdx2 t
  unfold iblk2
  rw [View.read_apply]
  show V c main_call0_v37 _ = V c main_call0_v37 _
  congr 1
  funext d
  apply Fin.ext
  match d with
  | ⟨0, _⟩ => show win2_6.index t (0 : Fin 2) * 1 + 1 * a.val = a.val; rw [e60]; omega
  | ⟨1, _⟩ => show win2_6.index t (1 : Fin 2) * 64 + 1 * b.val = b.val; rw [e61]; omega

/-- Entry (p, q) of the output block at point t sits at entry (10000 t + p, q) of the output array. -/
theorem outEmb2 (t : Fin cfg2.N) (p : Fin 10000) (q : Fin 64) (hrow : t.val * 10000 + p.val < 800000) :
    ((cfg2.win 7).blk t).view.emb (ix2 p q) = (ix2 (⟨t.val * 10000 + p.val, hrow⟩ : Fin 800000) q : S800000x64.Idx) := by
  obtain ⟨-, -, -, -, -, -, -, -, -, -, -, -, -, -, e70, e71⟩ := blockIdx2 t
  funext d
  apply Fin.ext
  match d with
  | ⟨0, _⟩ => show win2_7.index t (0 : Fin 2) * 10000 + 1 * p.val = t.val * 10000 + p.val; rw [e70]; omega
  | ⟨1, _⟩ => show win2_7.index t (1 : Fin 2) * 64 + 1 * q.val = q.val; rw [e71]; omega

/-- What point t writes back is block t of the message array: row p of the block depends on rows 10000 t + p of the
    three edge arrays and on the whole weight bands and bias row. -/
theorem flushed2 (c : Dev nD) (t : Fin cfg2.N) :
    (dat2 (F := Ideal) V c).flushed 7 t = ((cfg2.win 7).blk t).view.read (Elt Ideal)
      (Cert.Spec.msgA (V c main_call0_v27) (V c main_call0_v28) (V c main_arg2) (V c main_call0_v30) (V c main_call0_v32) (V c main_call0_v34) (V c main_call0_v37)) := by
  show (cfg2.win 7).cut (grid2.coords t) ((dat2 (F := Ideal) V c).after 7 t) = _
  rw [after2_7]
  unfold out2_7
  rw [View.canon_unit_zero zeroOff2]
  simp only [View.ld_unit_zero (S := S10000x64) zeroOff2, View.ld_unit_zero (S := S64x64) zeroOff2,
    View.ld_unit_zero (S := S10000x16) zeroOff2, View.ld_unit_zero (S := S16x64) zeroOff2,
    View.ld_unit_zero (S := S1x64) zeroOff2]
  funext j
  obtain ⟨p, q, rfl⟩ : ∃ (p : Fin 10000) (q : Fin 64), j = ix2 p q := ⟨j 0, j 1, eq_ix2 j⟩
  have ht : t.val < 80 := t.isLt
  have hrow : t.val * 10000 + p.val < 800000 := by have := p.isLt; omega
  show k2_pay1 (F := Ideal) (iblk2 V c 0 t) (iblk2 V c 3 t) (iblk2 V c 1 t) (iblk2 V c 4 t) (iblk2 V c 2 t) (iblk2 V c 5 t) (iblk2 V c 6 t) (ix2 p q)
      = (Cert.Spec.msgA (V c main_call0_v27) (V c main_call0_v28) (V c main_arg2) (V c main_call0_v30) (V c main_call0_v32) (V c main_call0_v34) (V c main_call0_v37)) (((cfg2.win 7).blk t).view.emb (ix2 p q))
  rw [outEmb2 t p q hrow, Cert.Spec.msgA_apply]
  refine (pay2 (iblk2 V c 0 t) (iblk2 V c 3 t) (iblk2 V c 1 t) (iblk2 V c 4 t) (iblk2 V c 2 t) (iblk2 V c 5 t) (iblk2 V c 6 t) p q).trans ?_
  unfold Cert.Spec.msgK
  have h0 : ∀ k : Fin 64, (iblk2 V c 0 t : Vec Ideal S10000x64 .f32) (ix2 p k)
      = (V c main_call0_v27 : S800000x64.Idx → EReal) (ix2 (⟨t.val * 10000 + p.val, hrow⟩ : Fin 800000) k) :=
    fun k => blk2_0 V c t p k _ rfl rfl
  have h1 : ∀ k : Fin 64, (iblk2 V c 1 t : Vec Ideal S10000x64 .f32) (ix2 p k)
      = (V c main_call0_v28 : S800000x64.Idx → EReal) (ix2 (⟨t.val * 10000 + p.val, hrow⟩ : Fin 800000) k) :=
    fun k => blk2_1 V c t p k _ rfl rfl
  have h2 : ∀ k : Fin 16, (iblk2 V c 2 t : Vec Ideal S10000x16 .f32) (ix2 p k)
      = (V c main_arg2 : S800000x16.Idx → EReal) (ix2 (⟨t.val * 10000 + p.val, hrow⟩ : Fin 800000) k) :=
    fun k => blk2_2 V c t p k _ rfl rfl
  simp only [h0, h1, h2, blk2_3 V c t, blk2_4 V c t, blk2_5 V c t, blk2_6 V c t]

/-- An entry of the output array is in point t's block iff each coordinate is in the block's range on its axis. -/
theorem memBlk2 (t : Fin cfg2.N) (i : S800000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_call0_v38).slice (win2_7.rect t)).set ↔ _
  rw [View.set_slice_whole, Rect.mem_set_unit]
  exact Iff.rfl

/-- The 80 blocks of 10000 rows cover the 800000 rows: row r is in the block of point r / 10000. -/
theorem cover2 (i : S800000x64.Idx) :
    ∃ t : Fin cfg2.N, (cfg2.win 7).flush t = true ∧ i ∈ ((cfg2.win 7).blk t).view.set := by
  have hi0 : (i 0).val < 800000 := (i 0).isLt
  have hi1 : (i 1).val < 64 := (i 1).isLt
  obtain ⟨t, ht⟩ : ∃ t : Fin cfg2.N, t.val = (i 0).val / 10000 :=
    ⟨⟨(i 0).val / 10000, by show (i 0).val / 10000 < 80; omega⟩, rfl⟩
  obtain ⟨-, -, -, -, -, -, -, -, -, -, -, -, -, -, e70, e71⟩ := blockIdx2 t
  refine ⟨t, flush2_7 t, ?_⟩
  rw [memBlk2]
  intro a
  match a with
  | ⟨0, _⟩ => show win2_7.index t (0 : Fin 2) * 10000 ≤ (i 0).val ∧ (i 0).val < win2_7.index t (0 : Fin 2) * 10000 + 10000; rw [e70, ht]; omega
  | ⟨1, _⟩ => show win2_7.index t (1 : Fin 2) * 64 ≤ (i 1).val ∧ (i 1).val < win2_7.index t (1 : Fin 2) * 64 + 64; rw [e71]; omega

/-- The message array the launch leaves: every entry is the rectified affine map of its own row of the three edge arrays. -/
theorem arr2 (c : Dev nD) :
    (dat2 (F := Ideal) V c).arrAt 7 cfg2.N = Cert.Spec.msgA (V c main_call0_v27) (V c main_call0_v28) (V c main_arg2) (V c main_call0_v30) (V c main_call0_v32) (V c main_call0_v34) (V c main_call0_v37) :=
  (dat2 (F := Ideal) V c).arrAt_eq_of_cover 7 (Cert.Spec.msgA (V c main_call0_v27) (V c main_call0_v28) (V c main_arg2) (V c main_call0_v30) (V c main_call0_v32) (V c main_call0_v34) (V c main_call0_v37))
    (fun t _ => flushed2 V c t) cover2

end Cert.KernelIdeal.KV

end
-- ==== Proof.Reg3.lean ====
/-
  What one launch of the node-update program leaves in its output array, as one function of the arrays it reads.

  The launch runs over 5 points. Point `t` reads block `t` (10000 rows, all 64 columns) of the node features and of the
  aggregated messages, the two 64 × 64 weight bands whole and the one bias row whole, and writes block `t` of the output.
  Row `p` of block `t` is row `10000 t + p` of the array, so entry `(n, c)` of the output depends on row `n` of the two row
  arrays, column `c` of the two weight bands and entry `c` of the bias: it is the updated feature of node `n`, channel `c`.
  The 5 blocks of 10000 rows tile the 50000 rows, so the whole array is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-- The zero offset of a whole block. -/
theorem zoff3 : (![0, 0] : Fin 2 → Nat) = fun _ => 0 := funext fun a => by fin_cases a <;> rfl

/-- The block indices over the 5 points: the two row windows and the output sit at block `(t, 0)`, the two weight
    bands and the bias at block `(0, 0)`. -/
theorem bidx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A point's number is below 5. -/
theorem pt_lt3 (t : Fin cfg3.N) : t.val < 5 := lt_of_lt_of_eq t.isLt N_3

/-- Row `p` of block `t` is row `10000 t + p` of the 50000. -/
abbrev row3 (t : Fin cfg3.N) (p : Fin 10000) : Fin 50000 :=
  ⟨t.val * 10000 + p.val, by have := pt_lt3 t; have := p.isLt; omega⟩

/-- The node-feature block at point `t`, entry `(p, k)`, is the array's entry `(10000 t + p, k)`. -/
theorem blk3_0 (c : Dev nD) (t : Fin cfg3.N) (p : Fin 10000) (k : Fin 64) :
    (iblk3 (F := Ideal) V c 0 t : Vec Ideal S10000x64 .f32) (ix2 p k)
      = (V c main_call0_v26 : Cert.Spec.N64.Idx → EReal) (ix2 (row3 t p) k) := by
  obtain ⟨e0, e1, -⟩ := bidx3 t
  show (V c main_call0_v26 : Cert.Spec.N64.Idx → EReal) (((cfg3.win 0).blk t).view.emb (ix2 p k)) = _
  congr 1
  funext a; apply Fin.ext
  match a with
  | ⟨0, _⟩ => show win3_0.index t (0 : Fin 2) * 10000 + 1 * p.val = t.val * 10000 + p.val; omega
  | ⟨1, _⟩ => show win3_0.index t (1 : Fin 2) * 64 + 1 * k.val = k.val; omega

/-- The aggregated-message block at point `t`, entry `(p, k)`, is the array's entry `(10000 t + p, k)`. -/
theorem blk3_1 (c : Dev nD) (t : Fin cfg3.N) (p : Fin 10000) (k : Fin 64) :
    (iblk3 (F := Ideal) V c 1 t : Vec Ideal S10000x64 .f32) (ix2 p k)
      = (V c main_call0_v41 : Cert.Spec.N64.Idx → EReal) (ix2 (row3 t p) k) := by
  obtain ⟨-, -, e0, e1, -⟩ := bidx3 t
  show (V c main_call0_v41 : Cert.Spec.N64.Idx → EReal) (((cfg3.win 1).blk t).view.emb (ix2 p k)) = _
  congr 1
  funext a; apply Fin.ext
  match a with
  | ⟨0, _⟩ => show win3_1.index t (0 : Fin 2) * 10000 + 1 * p.val = t.val * 10000 + p.val; omega
  | ⟨1, _⟩ => show win3_1.index t (1 : Fin 2) * 64 + 1 * k.val = k.val; omega

/-- The first weight band's block at every point is the band: entry `(k, q)` is entry `(k, q)`. -/
theorem blk3_2 (c : Dev nD) (t : Fin cfg3.N) (k : Fin 64) (q : Fin 64) :
    (iblk3 (F := Ideal) V c 2 t : Vec Ideal S64x64 .f32) (ix2 k q)
      = (V c main_call0_v43 : Cert.Spec.W64.Idx → EReal) (ix2 k q) := by
  obtain ⟨-, -, -, -, e0, e1, -⟩ := bidx3 t
  show (V c main_call0_v43 : Cert.Spec.W64.Idx → EReal) (((cfg3.win 2).blk t).view.emb (ix2 k q)) = _
  congr 1
  funext a; apply Fin.ext
  match a with
  | ⟨0, _⟩ => show win3_2.index t (0 : Fin 2) * 64 + 1 * k.val = k.val; omega
  | ⟨1, _⟩ => show win3_2.index t (1 : Fin 2) * 64 + 1 * q.val = q.val; omega

/-- The second weight band's block at every point is the band. -/
theorem blk3_3 (c : Dev nD) (t : Fin cfg3.N) (k : Fin 64) (q : Fin 64) :
    (iblk3 (F := Ideal) V c 3 t : Vec Ideal S64x64 .f32) (ix2 k q)
      = (V c main_call0_v45 : Cert.Spec.W64.Idx → EReal) (ix2 k q) := by
  obtain ⟨-, -, -, -, -, -, e0, e1, -⟩ := bidx3 t
  show (V c main_call0_v45 : Cert.Spec.W64.Idx → EReal) (((cfg3.win 3).blk t).view.emb (ix2 k q)) = _
  congr 1
  funext a; apply Fin.ext
  match a with
  | ⟨0, _⟩ => show win3_3.index t (0 : Fin 2) * 64 + 1 * k.val = k.val; omega
  | ⟨1, _⟩ => show win3_3.index t (1 : Fin 2) * 64 + 1 * q.val = q.val; omega

/-- The bias row's block at every point is the row. -/
theorem blk3_4 (c : Dev nD) (t : Fin cfg3.N) (q : Fin 64) :
    (iblk3 (F := Ideal) V c 4 t : Vec Ideal S1x64 .f32) (ix2 0 q)
      = (V c main_call0_v48 : Cert.Spec.B1.Idx → EReal) (ix2 0 q) := by
  obtain ⟨-, -, -, -, -, -, -, -, e0, e1, -⟩ := bidx3 t
  show (V c main_call0_v48 : Cert.Spec.B1.Idx → EReal) (((cfg3.win 4).blk t).view.emb (ix2 0 q)) = _
  congr 1
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- Entry `(p, q)` of the output's block at point `t` sits at entry `(10000 t + p, q)` of the output array. -/
theorem oemb3 (t : Fin cfg3.N) (p : Fin 10000) (q : Fin 64) :
    (((cfg3.win 5).blk t).view.emb (ix2 p q) : Cert.Spec.N64.Idx) = ix2 (row3 t p) q := by
  obtain ⟨-, -, -, -, -, -, -, -, -, -, e0, e1⟩ := bidx3 t
  funext a; apply Fin.ext
  match a with
  | ⟨0, _⟩ => show win3_5.index t (0 : Fin 2) * 10000 + 1 * p.val = t.val * 10000 + p.val; omega
  | ⟨1, _⟩ => show win3_5.index t (1 : Fin 2) * 64 + 1 * q.val = q.val; omega

/-- The updated features as one array function of the five arrays the launch reads. -/
abbrev upd3 (c : Dev nD) : Cert.Spec.N64.Idx → EReal :=
  Cert.Spec.updA (V c main_call0_v26) (V c main_call0_v41) (V c main_call0_v43) (V c main_call0_v45) (V c main_call0_v48)

/-- What point `t` writes back is block `t` of the updated features: entry `(p, q)` of the body's result is the rectified
    sum of the two products of row `10000 t + p` with column `q` of the bands, plus the bias. -/
theorem wrote3 (c : Dev nD) (t : Fin cfg3.N) :
    (dat3 (F := Ideal) V c).flushed 5 t = ((cfg3.win 5).blk t).view.read (Elt Ideal) (upd3 V c) := by
  show (cfg3.win 5).cut (grid3.coords t) ((dat3 (F := Ideal) V c).after 5 t) = _
  rw [after3_5]
  unfold out3_5
  rw [View.canon_unit_zero zoff3]
  simp only [View.ld_unit_zero (S := S10000x64) zoff3, View.ld_unit_zero (S := S64x64) zoff3, View.ld_unit_zero (S := S1x64) zoff3]
  funext j
  obtain ⟨p, q, rfl⟩ : ∃ (p : Fin 10000) (q : Fin 64), j = ix2 p q := ⟨j 0, j 1, eq_ix2 j⟩
  show k3_pay1 (F := Ideal) (iblk3 V c 0 t) (iblk3 V c 2 t) (iblk3 V c 1 t) (iblk3 V c 3 t) (iblk3 V c 4 t) (ix2 p q)
      = upd3 V c (((cfg3.win 5).blk t).view.emb (ix2 p q))
  refine (pay3 _ _ _ _ _ p q).trans ?_
  rw [oemb3 t p q]
  show _ = Cert.Spec.updK (V c main_call0_v26) (V c main_call0_v41) (V c main_call0_v43) (V c main_call0_v45) (V c main_call0_v48) (row3 t p) q
  unfold Cert.Spec.updK
  simp only [blk3_0 V c t, blk3_1 V c t, blk3_2 V c t, blk3_3 V c t, blk3_4 V c t]

/-- An index of the output array is in point `t`'s block iff each coordinate is in the block's range on its axis. -/
theorem mem3 (t : Fin cfg3.N) (i : Cert.Spec.N64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_call0_v49).slice (win3_5.rect t)).set ↔ _
  rw [View.set_slice_whole, Rect.mem_set_unit]
  exact Iff.rfl

/-- Every row of the output is in some point's block: row `r` in the block of point `r / 10000`. -/
theorem cover3 (i : Cert.Spec.N64.Idx) :
    ∃ t : Fin cfg3.N, (cfg3.win 5).flush t = true ∧ i ∈ ((cfg3.win 5).blk t).view.set := by
  have hi0 : (i 0).val < 50000 := idx2_lt0 i
  have hi1 : (i 1).val < 64 := idx2_lt1 i
  have hN : grid3.N = 5 := N_3
  let t : Fin cfg3.N := ⟨(i 0).val / 10000, by show (i 0).val / 10000 < grid3.N; omega⟩
  obtain ⟨-, -, -, -, -, -, -, -, -, -, e0, e1⟩ := bidx3 t
  have ht : t.val = (i 0).val / 10000 := rfl
  refine ⟨t, flush3_5 t, ?_⟩
  rw [mem3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The output array after the launch is the updated features of the arrays the launch found. -/
theorem arr3 (c : Dev nD) :
    (dat3 (F := Ideal) V c).arrAt 5 cfg3.N = Cert.Spec.updA (V c main_call0_v26) (V c main_call0_v41) (V c main_call0_v43) (V c main_call0_v45) (V c main_call0_v48) :=
  (dat3 (F := Ideal) V c).arrAt_eq_of_cover 5 (upd3 V c) (fun t _ => wrote3 V c t) cover3

end Cert.KernelIdeal.KV

end
-- ==== Proof.Reg4.lean ====
/-
  What one launch of the message kernel leaves in its output array, as one function of the launch's input arrays, over
  the extended reals.

  The launch runs over 80 grid points. Point t loads rows 10000 t … 10000 t + 9999 of the two gathered endpoint arrays
  (800000 × 64) and of the edge attributes (800000 × 16), and the three weight bands (64 × 64, 64 × 64, 16 × 64) and the
  bias row (1 × 64) whole; it stores the 10000 × 64 block of the messages of those rows. Entry (p, q) of that block
  depends only on row p of each of the three edge blocks, that is on row 10000 t + p of the three edge arrays, so the
  block is rows 10000 t … 10000 t + 9999 of ONE array function of the seven input arrays, `Cert.Spec.msgA`. The 80 blocks
  cover the 800000 rows (row r lies in block r / 10000), so the output array after the launch is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block access, however they are spelt. -/
theorem zeroOff4 : (![0, 0] : Fin 2 → Nat) = fun _ => 0 := funext fun a => by
  match a with | ⟨0, _⟩ => rfl | ⟨1, _⟩ => rfl

/-- The block indices of the eight windows at grid point t: the three edge windows and the output move with the point
    along the rows, the weight and bias windows stay at block (0, 0). -/
theorem blockIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Entry (a, b) of the first endpoint block at point t is entry (10000 t + a, b) of the array: the block index is (t, 0). -/
theorem blk4_0 (c : Dev nD) (t : Fin cfg4.N) (a : Fin 10000) (b : Fin 64) (k : S800000x64.Idx)
    (hk0 : (k 0).val = t.val * 10000 + a.val) (hk1 : (k 1).val = b.val) :
    (iblk4 V c 0 t : Vec Ideal S10000x64 .f32) (ix2 a b) = (V c main_call0_v50 : S800000x64.Idx → EReal) k := by
  obtain ⟨e00, e01, e10, e11, e20, e21, -⟩ := blockIdx4 t
  unfold iblk4
  rw [View.read_apply]
  show V c main_call0_v50 _ = V c main_call0_v50 _
  congr 1
  funext d
  apply Fin.ext
  match d with
  | ⟨0, _⟩ => show win4_0.index t (0 : Fin 2) * 10000 + 1 * a.val = (k 0).val; rw [e00, hk0]; omega
  | ⟨1, _⟩ => show win4_0.index t (1 : Fin 2) * 64 + 1 * b.val = (k 1).val; rw [e01, hk1]; omega

/-- Entry (a, b) of the second endpoint block at point t is entry (10000 t + a, b) of the array: the block index is (t, 0). -/
theorem blk4_1 (c : Dev nD) (t : Fin cfg4.N) (a : Fin 10000) (b : Fin 64) (k : S800000x64.Idx)
    (hk0 : (k 0).val = t.val * 10000 + a.val) (hk1 : (k 1).val = b.val) :
    (iblk4 V c 1 t : Vec Ideal S10000x64 .f32) (ix2 a b) = (V c main_call0_v51 : S800000x64.Idx → EReal) k := by
  obtain ⟨e00, e01, e10, e11, e20, e21, -⟩ := blockIdx4 t
  unfold iblk4
  rw [View.read_apply]
  show V c main_call0_v51 _ = V c main_call0_v51 _
  congr 1
  funext d
  apply Fin.ext
  match d with
  | ⟨0, _⟩ => show win4_1.index t (0 : Fin 2) * 10000 + 1 * a.val = (k 0).val; rw [e10, hk0]; omega
  | ⟨1, _⟩ => show win4_1.index t (1 : Fin 2) * 64 + 1 * b.val = (k 1).val; rw [e11, hk1]; omega

/-- Entry (a, b) of the edge-attribute block at point t is entry (10000 t + a, b) of the array: the block index is (t, 0). -/
theorem blk4_2 (c : Dev nD) (t : Fin cfg4.N) (a : Fin 10000) (b : Fin 16) (k : S800000x16.Idx)
    (hk0 : (k 0).val = t.val * 10000 + a.val) (hk1 : (k 1).val = b.val) :
    (iblk4 V c 2 t : Vec Ideal S10000x16 .f32) (ix2 a b) = (V c main_arg2 : S800000x16.Idx → EReal) k := by
  obtain ⟨e00, e01, e10, e11, e20, e21, -⟩ := blockIdx4 t
  unfold iblk4
  rw [View.read_apply]
  show V c main_arg2 _ = V c main_arg2 _
  congr 1
  funext d
  apply Fin.ext
  match d with
  | ⟨0, _⟩ => show win4_2.index t (0 : Fin 2) * 10000 + 1 * a.val = (k 0).val; rw [e20, hk0]; omega
  | ⟨1, _⟩ => show win4_2.index t (1 : Fin 2) * 16 + 1 * b.val = (k 1).val; rw [e21, hk1]; omega

/-- The first weight band's block is the whole array at every point: the block index is (0, 0). -/
theorem blk4_3 (c : Dev nD) (t : Fin cfg4.N) (a : Fin 64) (b : Fin 64) :
    (iblk4 V c 3 t : Vec Ideal S64x64 .f32) (ix2 a b) = (V c main_call0_v53 : S64x64.Idx → EReal) (ix2 a b) := by
  obtain ⟨-, -, -, -, -, -, e30, e31, e40, e41, e50, e51, e60, e61, -⟩ := blockIdx4 t
  unfold iblk4
  rw [View.read_apply]
  show V c main_call0_v53 _ = V c main_call0_v53 _
  congr 1
  funext d
  apply Fin.ext
  match d with
  | ⟨0, _⟩ => show win4_3.index t (0 : Fin 2) * 64 + 1 * a.val = a.val; rw [e30]; omega
  | ⟨1, _⟩ => show win4_3.index t (1 : Fin 2) * 64 + 1 * b.val = b.val; rw [e31]; omega

/-- The second weight band's block is the whole array at every point: the block index is (0, 0). -/
theorem blk4_4 (c : Dev nD) (t : Fin cfg4.N) (a : Fin 64) (b : Fin 64) :
    (iblk4 V c 4 t : Vec Ideal S64x64 .f32) (ix2 a b) = (V c main_call0_v55 : S64x64.Idx → EReal) (ix2 a b) := by
  obtain ⟨-, -, -, -, -, -, e30, e31, e40, e41, e50, e51, e60, e61, -⟩ := blockIdx4 t
  unfold iblk4
  rw [View.read_apply]
  show V c main_call0_v55 _ = V c main_call0_v55 _
  congr 1
  funext d
  apply Fin.ext
  match d with
  | ⟨0, _⟩ => show win4_4.index t (0 : Fin 2) * 64 + 1 * a.val = a.val; rw [e40]; omega
  | ⟨1, _⟩ => show win4_4.index t (1 : Fin 2) * 64 + 1 * b.val = b.val; rw [e41]; omega

/-- The third weight band's block is the whole array at every point: the block index is (0, 0). -/
theorem blk4_5 (c : Dev nD) (t : Fin cfg4.N) (a : Fin 16) (b : Fin 64) :
    (iblk4 V c 5 t : Vec Ideal S16x64 .f32) (ix2 a b) = (V c main_call0_v57 : S16x64.Idx → EReal) (ix2 a b) := by
  obtain ⟨-, -, -, -, -, -, e30, e31, e40, e41, e50, e51, e60, e61, -⟩ := blockIdx4 t
  unfold iblk4
  rw [View.read_apply]
  show V c main_call0_v57 _ = V c main_call0_v57 _
  congr 1
  funext d
  apply Fin.ext
  match d with
  | ⟨0, _⟩ => show win4_5.index t (0 : Fin 2) * 16 + 1 * a.val = a.val; rw [e50]; omega
  | ⟨1, _⟩ => show win4_5.index t (1 : Fin 2) * 64 + 1 * b.val = b.val; rw [e51]; omega

/-- The bias row's block is the whole array at every point: the block index is (0, 0). -/
theorem blk4_6 (c : Dev nD) (t : Fin cfg4.N) (a : Fin 1) (b : Fin 64) :
    (iblk4 V c 6 t : Vec Ideal S1x64 .f32) (ix2 a b) = (V c main_call0_v60 : S1x64.Idx → EReal) (ix2 a b) := by
  obtain ⟨-, -, -, -, -, -, e30, e31, e40, e41, e50, e51, e60, e61, -⟩ := blockIdx4 t
  unfold iblk4
  rw [View.read_apply]
  show V c main_call0_v60 _ = V c main_call0_v60 _
  congr 1
  funext d
  apply Fin.ext
  match d with
  | ⟨0, _⟩ => show win4_6.index t (0 : Fin 2) * 1 + 1 * a.val = a.val; rw [e60]; omega
  | ⟨1, _⟩ => show win4_6.index t (1 : Fin 2) * 64 + 1 * b.val = b.val; rw [e61]; omega

/-- Entry (p, q) of the output block at point t sits at entry (10000 t + p, q) of the output array. -/
theorem outEmb4 (t : Fin cfg4.N) (p : Fin 10000) (q : Fin 64) (hrow : t.val * 10000 + p.val < 800000) :
    ((cfg4.win 7).blk t).view.emb (ix2 p q) = (ix2 (⟨t.val * 10000 + p.val, hrow⟩ : Fin 800000) q : S800000x64.Idx) := by
  obtain ⟨-, -, -, -, -, -, -, -, -, -, -, -, -, -, e70, e71⟩ := blockIdx4 t
  funext d
  apply Fin.ext
  match d with
  | ⟨0, _⟩ => show win4_7.index t (0 : Fin 2) * 10000 + 1 * p.val = t.val * 10000 + p.val; rw [e70]; omega
  | ⟨1, _⟩ => show win4_7.index t (1 : Fin 2) * 64 + 1 * q.val = q.val; rw [e71]; omega

/-- What point t writes back is block t of the message array: row p of the block depends on rows 10000 t + p of the
    three edge arrays and on the whole weight bands and bias row. -/
theorem flushed4 (c : Dev nD) (t : Fin cfg4.N) :
    (dat4 (F := Ideal) V c).flushed 7 t = ((cfg4.win 7).blk t).view.read (Elt Ideal)
      (Cert.Spec.msgA (V c main_call0_v50) (V c main_call0_v51) (V c main_arg2) (V c main_call0_v53) (V c main_call0_v55) (V c main_call0_v57) (V c main_call0_v60)) := by
  show (cfg4.win 7).cut (grid4.coords t) ((dat4 (F := Ideal) V c).after 7 t) = _
  rw [after4_7]
  unfold out4_7
  rw [View.canon_unit_zero zeroOff4]
  simp only [View.ld_unit_zero (S := S10000x64) zeroOff4, View.ld_unit_zero (S := S64x64) zeroOff4,
    View.ld_unit_zero (S := S10000x16) zeroOff4, View.ld_unit_zero (S := S16x64) zeroOff4,
    View.ld_unit_zero (S := S1x64) zeroOff4]
  funext j
  obtain ⟨p, q, rfl⟩ : ∃ (p : Fin 10000) (q : Fin 64), j = ix2 p q := ⟨j 0, j 1, eq_ix2 j⟩
  have ht : t.val < 80 := t.isLt
  have hrow : t.val * 10000 + p.val < 800000 := by have := p.isLt; omega
  show k4_pay1 (F := Ideal) (iblk4 V c 0 t) (iblk4 V c 3 t) (iblk4 V c 1 t) (iblk4 V c 4 t) (iblk4 V c 2 t) (iblk4 V c 5 t) (iblk4 V c 6 t) (ix2 p q)
      = (Cert.Spec.msgA (V c main_call0_v50) (V c main_call0_v51) (V c main_arg2) (V c main_call0_v53) (V c main_call0_v55) (V c main_call0_v57) (V c main_call0_v60)) (((cfg4.win 7).blk t).view.emb (ix2 p q))
  rw [outEmb4 t p q hrow, Cert.Spec.msgA_apply]
  refine (pay4 (iblk4 V c 0 t) (iblk4 V c 3 t) (iblk4 V c 1 t) (iblk4 V c 4 t) (iblk4 V c 2 t) (iblk4 V c 5 t) (iblk4 V c 6 t) p q).trans ?_
  unfold Cert.Spec.msgK
  have h0 : ∀ k : Fin 64, (iblk4 V c 0 t : Vec Ideal S10000x64 .f32) (ix2 p k)
      = (V c main_call0_v50 : S800000x64.Idx → EReal) (ix2 (⟨t.val * 10000 + p.val, hrow⟩ : Fin 800000) k) :=
    fun k => blk4_0 V c t p k _ rfl rfl
  have h1 : ∀ k : Fin 64, (iblk4 V c 1 t : Vec Ideal S10000x64 .f32) (ix2 p k)
      = (V c main_call0_v51 : S800000x64.Idx → EReal) (ix2 (⟨t.val * 10000 + p.val, hrow⟩ : Fin 800000) k) :=
    fun k => blk4_1 V c t p k _ rfl rfl
  have h2 : ∀ k : Fin 16, (iblk4 V c 2 t : Vec Ideal S10000x16 .f32) (ix2 p k)
      = (V c main_arg2 : S800000x16.Idx → EReal) (ix2 (⟨t.val * 10000 + p.val, hrow⟩ : Fin 800000) k) :=
    fun k => blk4_2 V c t p k _ rfl rfl
  simp only [h0, h1, h2, blk4_3 V c t, blk4_4 V c t, blk4_5 V c t, blk4_6 V c t]

/-- An entry of the output array is in point t's block iff each coordinate is in the block's range on its axis. -/
theorem memBlk4 (t : Fin cfg4.N) (i : S800000x64.Idx) :
    i ∈ ((cfg4.win 7).blk t).view.set ↔ ∀ a : Fin 2, win4_7.index t a * S10000x64.size a ≤ (i a).val ∧ (i a).val < win4_7.index t a * S10000x64.size a + S10000x64.size a := by
  show i ∈ ((View.whole main_call0_v61).slice (win4_7.rect t)).set ↔ _
  rw [View.set_slice_whole, Rect.mem_set_unit]
  exact Iff.rfl

/-- The 80 blocks of 10000 rows cover the 800000 rows: row r is in the block of point r / 10000. -/
theorem cover4 (i : S800000x64.Idx) :
    ∃ t : Fin cfg4.N, (cfg4.win 7).flush t = true ∧ i ∈ ((cfg4.win 7).blk t).view.set := by
  have hi0 : (i 0).val < 800000 := (i 0).isLt
  have hi1 : (i 1).val < 64 := (i 1).isLt
  obtain ⟨t, ht⟩ : ∃ t : Fin cfg4.N, t.val = (i 0).val / 10000 :=
    ⟨⟨(i 0).val / 10000, by show (i 0).val / 10000 < 80; omega⟩, rfl⟩
  obtain ⟨-, -, -, -, -, -, -, -, -, -, -, -, -, -, e70, e71⟩ := blockIdx4 t
  refine ⟨t, flush4_7 t, ?_⟩
  rw [memBlk4]
  intro a
  match a with
  | ⟨0, _⟩ => show win4_7.index t (0 : Fin 2) * 10000 ≤ (i 0).val ∧ (i 0).val < win4_7.index t (0 : Fin 2) * 10000 + 10000; rw [e70, ht]; omega
  | ⟨1, _⟩ => show win4_7.index t (1 : Fin 2) * 64 ≤ (i 1).val ∧ (i 1).val < win4_7.index t (1 : Fin 2) * 64 + 64; rw [e71]; omega

/-- The message array the launch leaves: every entry is the rectified affine map of its own row of the three edge arrays. -/
theorem arr4 (c : Dev nD) :
    (dat4 (F := Ideal) V c).arrAt 7 cfg4.N = Cert.Spec.msgA (V c main_call0_v50) (V c main_call0_v51) (V c main_arg2) (V c main_call0_v53) (V c main_call0_v55) (V c main_call0_v57) (V c main_call0_v60) :=
  (dat4 (F := Ideal) V c).arrAt_eq_of_cover 7 (Cert.Spec.msgA (V c main_call0_v50) (V c main_call0_v51) (V c main_arg2) (V c main_call0_v53) (V c main_call0_v55) (V c main_call0_v57) (V c main_call0_v60))
    (fun t _ => flushed4 V c t) cover4

end Cert.KernelIdeal.KV

end
-- ==== Proof.Reg5.lean ====
/-
  What one launch of the node-update program leaves in its output array, as one function of the arrays it reads.

  The launch runs over 5 points. Point `t` reads block `t` (10000 rows, all 64 columns) of the node features and of the
  aggregated messages, the two 64 × 64 weight bands whole and the one bias row whole, and writes block `t` of the output.
  Row `p` of block `t` is row `10000 t + p` of the array, so entry `(n, c)` of the output depends on row `n` of the two row
  arrays, column `c` of the two weight bands and entry `c` of the bias: it is the updated feature of node `n`, channel `c`.
  The 5 blocks of 10000 rows tile the 50000 rows, so the whole array is that function.
-/
import proofs.«422810_j33131377721479_3_alg».proof.Proof.Gen.KernelIdeal.Frame
import proofs.«422810_j33131377721479_3_alg».proof.Proof.Spec
import proofs.«422810_j33131377721479_3_alg».proof.Proof.Pay
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-- The zero offset of a whole block. -/
theorem zoff5 : (![0, 0] : Fin 2 → Nat) = fun _ => 0 := funext fun a => by fin_cases a <;> rfl

/-- The block indices over the 5 points: the two row windows and the output sit at block `(t, 0)`, the two weight
    bands and the bias at block `(0, 0)`. -/
theorem bidx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A point's number is below 5. -/
theorem pt_lt5 (t : Fin cfg5.N) : t.val < 5 := lt_of_lt_of_eq t.isLt N_5

/-- Row `p` of block `t` is row `10000 t + p` of the 50000. -/
abbrev row5 (t : Fin cfg5.N) (p : Fin 10000) : Fin 50000 :=
  ⟨t.val * 10000 + p.val, by have := pt_lt5 t; have := p.isLt; omega⟩

/-- The node-feature block at point `t`, entry `(p, k)`, is the array's entry `(10000 t + p, k)`. -/
theorem blk5_0 (c : Dev nD) (t : Fin cfg5.N) (p : Fin 10000) (k : Fin 64) :
    (iblk5 (F := Ideal) V c 0 t : Vec Ideal S10000x64 .f32) (ix2 p k)
      = (V c main_call0_v49 : Cert.Spec.N64.Idx → EReal) (ix2 (row5 t p) k) := by
  obtain ⟨e0, e1, -⟩ := bidx5 t
  show (V c main_call0_v49 : Cert.Spec.N64.Idx → EReal) (((cfg5.win 0).blk t).view.emb (ix2 p k)) = _
  congr 1
  funext a; apply Fin.ext
  match a with
  | ⟨0, _⟩ => show win5_0.index t (0 : Fin 2) * 10000 + 1 * p.val = t.val * 10000 + p.val; omega
  | ⟨1, _⟩ => show win5_0.index t (1 : Fin 2) * 64 + 1 * k.val = k.val; omega

/-- The aggregated-message block at point `t`, entry `(p, k)`, is the array's entry `(10000 t + p, k)`. -/
theorem blk5_1 (c : Dev nD) (t : Fin cfg5.N) (p : Fin 10000) (k : Fin 64) :
    (iblk5 (F := Ideal) V c 1 t : Vec Ideal S10000x64 .f32) (ix2 p k)
      = (V c main_call0_v64 : Cert.Spec.N64.Idx → EReal) (ix2 (row5 t p) k) := by
  obtain ⟨-, -, e0, e1, -⟩ := bidx5 t
  show (V c main_call0_v64 : Cert.Spec.N64.Idx → EReal) (((cfg5.win 1).blk t).view.emb (ix2 p k)) = _
  congr 1
  funext a; apply Fin.ext
  match a with
  | ⟨0, _⟩ => show win5_1.index t (0 : Fin 2) * 10000 + 1 * p.val = t.val * 10000 + p.val; omega
  | ⟨1, _⟩ => show win5_1.index t (1 : Fin 2) * 64 + 1 * k.val = k.val; omega

/-- The first weight band's block at every point is the band: entry `(k, q)` is entry `(k, q)`. -/
theorem blk5_2 (c : Dev nD) (t : Fin cfg5.N) (k : Fin 64) (q : Fin 64) :
    (iblk5 (F := Ideal) V c 2 t : Vec Ideal S64x64 .f32) (ix2 k q)
      = (V c main_call0_v66 : Cert.Spec.W64.Idx → EReal) (ix2 k q) := by
  obtain ⟨-, -, -, -, e0, e1, -⟩ := bidx5 t
  show (V c main_call0_v66 : Cert.Spec.W64.Idx → EReal) (((cfg5.win 2).blk t).view.emb (ix2 k q)) = _
  congr 1
  funext a; apply Fin.ext
  match a with
  | ⟨0, _⟩ => show win5_2.index t (0 : Fin 2) * 64 + 1 * k.val = k.val; omega
  | ⟨1, _⟩ => show win5_2.index t (1 : Fin 2) * 64 + 1 * q.val = q.val; omega

/-- The second weight band's block at every point is the band. -/
theorem blk5_3 (c : Dev nD) (t : Fin cfg5.N) (k : Fin 64) (q : Fin 64) :
    (iblk5 (F := Ideal) V c 3 t : Vec Ideal S64x64 .f32) (ix2 k q)
      = (V c main_call0_v68 : Cert.Spec.W64.Idx → EReal) (ix2 k q) := by
  obtain ⟨-, -, -, -, -, -, e0, e1, -⟩ := bidx5 t
  show (V c main_call0_v68 : Cert.Spec.W64.Idx → EReal) (((cfg5.win 3).blk t).view.emb (ix2 k q)) = _
  congr 1
  funext a; apply Fin.ext
  match a with
  | ⟨0, _⟩ => show win5_3.index t (0 : Fin 2) * 64 + 1 * k.val = k.val; omega
  | ⟨1, _⟩ => show win5_3.index t (1 : Fin 2) * 64 + 1 * q.val = q.val; omega

/-- The bias row's block at every point is the row. -/
theorem blk5_4 (c : Dev nD) (t : Fin cfg5.N) (q : Fin 64) :
    (iblk5 (F := Ideal) V c 4 t : Vec Ideal S1x64 .f32) (ix2 0 q)
      = (V c main_call0_v71 : Cert.Spec.B1.Idx → EReal) (ix2 0 q) := by
  obtain ⟨-, -, -, -, -, -, -, -, e0, e1, -⟩ := bidx5 t
  show (V c main_call0_v71 : Cert.Spec.B1.Idx → EReal) (((cfg5.win 4).blk t).view.emb (ix2 0 q)) = _
  congr 1
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-- Entry `(p, q)` of the output's block at point `t` sits at entry `(10000 t + p, q)` of the output array. -/
theorem oemb5 (t : Fin cfg5.N) (p : Fin 10000) (q : Fin 64) :
    (((cfg5.win 5).blk t).view.emb (ix2 p q) : Cert.Spec.N64.Idx) = ix2 (row5 t p) q := by
  obtain ⟨-, -, -, -, -, -, -, -, -, -, e0, e1⟩ := bidx5 t
  funext a; apply Fin.ext
  match a with
  | ⟨0, _⟩ => show win5_5.index t (0 : Fin 2) * 10000 + 1 * p.val = t.val * 10000 + p.val; omega
  | ⟨1, _⟩ => show win5_5.index t (1 : Fin 2) * 64 + 1 * q.val = q.val; omega

/-- The updated features as one array function of the five arrays the launch reads. -/
abbrev upd5 (c : Dev nD) : Cert.Spec.N64.Idx → EReal :=
  Cert.Spec.updA (V c main_call0_v49) (V c main_call0_v64) (V c main_call0_v66) (V c main_call0_v68) (V c main_call0_v71)

/-- What point `t` writes back is block `t` of the updated features: entry `(p, q)` of the body's result is the rectified
    sum of the two products of row `10000 t + p` with column `q` of the bands, plus the bias. -/
theorem wrote5 (c : Dev nD) (t : Fin cfg5.N) :
    (dat5 (F := Ideal) V c).flushed 5 t = ((cfg5.win 5).blk t).view.read (Elt Ideal) (upd5 V c) := by
  show (cfg5.win 5).cut (grid5.coords t) ((dat5 (F := Ideal) V c).after 5 t) = _
  rw [after5_5]
  unfold out5_5
  rw [View.canon_unit_zero zoff5]
  simp only [View.ld_unit_zero (S := S10000x64) zoff5, View.ld_unit_zero (S := S64x64) zoff5, View.ld_unit_zero (S := S1x64) zoff5]
  funext j
  obtain ⟨p, q, rfl⟩ : ∃ (p : Fin 10000) (q : Fin 64), j = ix2 p q := ⟨j 0, j 1, eq_ix2 j⟩
  show k5_pay1 (F := Ideal) (iblk5 V c 0 t) (iblk5 V c 2 t) (iblk5 V c 1 t) (iblk5 V c 3 t) (iblk5 V c 4 t) (ix2 p q)
      = upd5 V c (((cfg5.win 5).blk t).view.emb (ix2 p q))
  refine (pay5 _ _ _ _ _ p q).trans ?_
  rw [oemb5 t p q]
  show _ = Cert.Spec.updK (V c main_call0_v49) (V c main_call0_v64) (V c main_call0_v66) (V c main_call0_v68) (V c main_call0_v71) (row5 t p) q
  unfold Cert.Spec.updK
  simp only [blk5_0 V c t, blk5_1 V c t, blk5_2 V c t, blk5_3 V c t, blk5_4 V c t]

/-- An index of the output array is in point `t`'s block iff each coordinate is in the block's range on its axis. -/
theorem mem5 (t : Fin cfg5.N) (i : Cert.Spec.N64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v0).slice (win5_5.rect t)).set ↔ _
  rw [View.set_slice_whole, Rect.mem_set_unit]
  exact Iff.rfl

/-- Every row of the output is in some point's block: row `r` in the block of point `r / 10000`. -/
theorem cover5 (i : Cert.Spec.N64.Idx) :
    ∃ t : Fin cfg5.N, (cfg5.win 5).flush t = true ∧ i ∈ ((cfg5.win 5).blk t).view.set := by
  have hi0 : (i 0).val < 50000 := idx2_lt0 i
  have hi1 : (i 1).val < 64 := idx2_lt1 i
  have hN : grid5.N = 5 := N_5
  let t : Fin cfg5.N := ⟨(i 0).val / 10000, by show (i 0).val / 10000 < grid5.N; omega⟩
  obtain ⟨-, -, -, -, -, -, -, -, -, -, e0, e1⟩ := bidx5 t
  have ht : t.val = (i 0).val / 10000 := rfl
  refine ⟨t, flush5_5 t, ?_⟩
  rw [mem5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- The output array after the launch is the updated features of the arrays the launch found. -/
theorem arr5 (c : Dev nD) :
    (dat5 (F := Ideal) V c).arrAt 5 cfg5.N = Cert.Spec.updA (V c main_call0_v49) (V c main_call0_v64) (V c main_call0_v66) (V c main_call0_v68) (V c main_call0_v71) :=
  (dat5 (F := Ideal) V c).arrAt_eq_of_cover 5 (upd5 V c) (fun t _ => wrote5 V c t) cover5

end Cert.KernelIdeal.KV

end
-- ==== Proof.Take.lean ====
/-
  The row gather under the precondition. Every entry of the edge list is a row number (below 50000 as an unsigned word),
  so both of its rows are; a row number is non-negative as a signed word, so the negative-index wrap leaves it as it is,
  and it lies in 0 … 49999, so the in-range mask is 1 at every edge and the gather with fill is the gather itself.
-/
import proofs.«422810_j33131377721479_3_alg».proof.Proof.KDefs
import Idealize.ShloMosaic.Lib.StableHlo.Predicate
import Idealize.ShloMosaic.Lib.ValueIdx
import Idealize.ShloMosaic.Lib.Pipeline.Value
import Idealize.ShloMosaic.Lib.ReduceAll

noncomputable section

namespace Cert.KernelIdeal.KV

open Idealize.ShloMosaic Idealize.ShloMosaic.ValueIdx
open Cert.KernelIdeal Cert.KernelIdeal.Gen

variable {F : FTy → Type} [FloatOps F]

/-! ## The two rows of the edge list are entries of the edge list -/

theorem dstJ_range (ei : IVec S2x800000 32) (h : ∀ i : S2x800000.Idx, (ei i).toNat < 50000) :
    ∀ j : S800000.Idx, (dstJ ei j).toNat < 50000 := by
  intro j
  unfold dstJ shapeCast extractStridedSlice
  exact h _

theorem srcJ_range (ei : IVec S2x800000 32) (h : ∀ i : S2x800000.Idx, (ei i).toNat < 50000) :
    ∀ j : S800000.Idx, (srcJ ei j).toNat < 50000 := by
  intro j
  unfold srcJ shapeCast extractStridedSlice
  exact h _

/-! ## Words: a row number is its own wrap, and is in range -/

/-- A word below 50000 is not negative as a signed word: the wrap's choice keeps it. -/
theorem wrap_word (w : BitVec 32) (hw : w.toNat < 50000) :
    Scalar.select (IntOp.cmpi .slt w 0#32) (IntOp.addi w 50000#32) w = w := by
  have hc : ¬ IntOp.cmpi .slt w 0#32 = 1#1 := by
    rw [StableHlo.Predicate.slt_iff_toNat (by omega) (by decide)]
    have e0 : (0#32).toNat = 0 := rfl
    omega
  exact if_neg hc

/-- A word below 50000 is at least 0 and at most 49999 as a signed word. -/
theorem inRange_word (w : BitVec 32) (hw : w.toNat < 50000) :
    IntOp.andi (IntOp.cmpi .sge w 0#32) (IntOp.cmpi .sle w 49999#32) = 1#1 := by
  have e0 : (0#32).toNat = 0 := rfl
  have e1 : (49999#32).toNat = 49999 := rfl
  have h0 : IntOp.cmpi .sge w 0#32 = 1#1 := by
    rw [StableHlo.Predicate.sge_iff_toNat (by omega) (by decide)]; omega
  have h1 : IntOp.cmpi .sle w 49999#32 = 1#1 := by
    rw [StableHlo.Predicate.sle_iff_toNat (by omega) (by decide)]; omega
  rw [h0, h1]; rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-! ## The wrapped index array and the mask -/

/-- The wrapped index array at an entry is the wrap of one entry of the index array. -/
theorem wrapJ_apply (J : IVec S800000 32) (i : S800000x1.Idx) :
    ∃ k : S800000.Idx, wrapJ J i = Scalar.select (IntOp.cmpi .slt (J k) 0#32) (IntOp.addi (J k) 50000#32) (J k) :=
  ⟨_, rfl⟩

/-- With every index a row number, every wrapped index is a row number. -/
theorem wrapJ_range (J : IVec S800000 32) (hJ : ∀ j : S800000.Idx, (J j).toNat < 50000) (i : S800000x1.Idx) :
    (wrapJ J i).toNat < 50000 := by
  obtain ⟨k, hk⟩ := wrapJ_apply J i
  rw [hk, wrap_word _ (hJ k)]
  exact hJ k

/-- With every wrapped index a row number, the mask is 1 at every edge. -/
theorem inRange_one (I : IVec S800000x1 32) (hI : ∀ i : S800000x1.Idx, (I i).toNat < 50000) (e : S800000.Idx) :
    inRange I e = 1#1 := by
  unfold inRange
  rw [Host.reduce_eq_foldl]
  exact foldl_andi_one _ (fun i => inRange_word (I i) (hI i)) _

/-- Under the precondition the gather with fill is the gather. -/
theorem takeRows_eq (X : FVec F S50000x64 .f32) (J : IVec S800000 32) (hJ : ∀ j : S800000.Idx, (J j).toNat < 50000) :
    takeRows X J = gatherRows X (wrapJ J) := by
  funext i
  unfold takeRows
  rw [select_apply]
  unfold broadcastInDim
  rw [inRange_one (wrapJ J) (wrapJ_range J hJ), select_one]

end Cert.KernelIdeal.KV

end
-- ==== Proof.Bands.lean ====
/-
  The bands of the layers' weights, read at an entry. A launch of the kernel receives, as matrices of their own, a run
  of rows of one layer's weight matrix: the slice `[l : l+1, o : o+r, 0 : 64]` of the stacked weights with the unit
  leading axis dropped. Entry `(k, c)` of that matrix is entry `(l, o + k, c)` of the stack; the bias row, sliced out of
  the stacked biases and reshaped through a flat vector to one row, has entry `(0, c)` equal to entry `(l, c)` of the stack.
-/
import proofs.«422810_j33131377721479_3_alg».proof.Proof.KDefs
import Idealize.ShloMosaic.Lib.Pipeline.Value
import Idealize.ShloMosaic.Lib.ValueIdx

noncomputable section

namespace Cert.KernelIdeal.KV

open Idealize.ShloMosaic Idealize.ShloMosaic.ValueIdx
open Cert.KernelIdeal Cert.KernelIdeal.Gen

variable {α : Type}

/-- A 64-row band of a layer's message weights. -/
theorem mw64_apply (l o : Nat) (h : S3x144x64.Slices ![l, o, 0] S1x64x64) (W : S3x144x64.Idx → α) (k c : Fin 64)
    (L : Fin 3) (r : Fin 144) (hL : L.val = l) (hr : r.val = o + k.val) :
    shapeCast S64x64 (extractStridedSlice S1x64x64 ![l, o, 0] W h) shapeCasts_S1x64x64_S64x64 (ix2 k c)
      = W (ix3 L r c) := by
  refine (shapeCast_apply _ shapeCasts_S1x64x64_S64x64 (ix2 k c) (ix3 (0 : Fin 1) k c)
    (by rewrite [Shape.rowMajor_val_three, Shape.rowMajor_val_two]; show (0 * 64 + k.val) * 64 + c.val = k.val * 64 + c.val; omega)).trans ?_
  exact extractStridedSlice_apply ![l, o, 0] W h _ (ix3 L r c) (fun a => match a with
    | ⟨0, _⟩ => by show L.val = l + 0; omega
    | ⟨1, _⟩ => by show r.val = o + k.val; exact hr
    | ⟨2, _⟩ => by show c.val = 0 + c.val; omega)

/-- The 16-row band of a layer's message weights. -/
theorem mw16_apply (l o : Nat) (h : S3x144x64.Slices ![l, o, 0] S1x16x64) (W : S3x144x64.Idx → α) (k : Fin 16) (c : Fin 64)
    (L : Fin 3) (r : Fin 144) (hL : L.val = l) (hr : r.val = o + k.val) :
    shapeCast S16x64 (extractStridedSlice S1x16x64 ![l, o, 0] W h) shapeCasts_S1x16x64_S16x64 (ix2 k c)
      = W (ix3 L r c) := by
  refine (shapeCast_apply _ shapeCasts_S1x16x64_S16x64 (ix2 k c) (ix3 (0 : Fin 1) k c)
    (by rewrite [Shape.rowMajor_val_three, Shape.rowMajor_val_two]; show (0 * 16 + k.val) * 64 + c.val = k.val * 64 + c.val; omega)).trans ?_
  exact extractStridedSlice_apply ![l, o, 0] W h _ (ix3 L r c) (fun a => match a with
    | ⟨0, _⟩ => by show L.val = l + 0; omega
    | ⟨1, _⟩ => by show r.val = o + k.val; exact hr
    | ⟨2, _⟩ => by show c.val = 0 + c.val; omega)

/-- A 64-row band of a layer's update weights. -/
theorem uw64_apply (l o : Nat) (h : S3x128x64.Slices ![l, o, 0] S1x64x64) (W : S3x128x64.Idx → α) (k c : Fin 64)
    (L : Fin 3) (r : Fin 128) (hL : L.val = l) (hr : r.val = o + k.val) :
    shapeCast S64x64 (extractStridedSlice S1x64x64 ![l, o, 0] W h) shapeCasts_S1x64x64_S64x64 (ix2 k c)
      = W (ix3 L r c) := by
  refine (shapeCast_apply _ shapeCasts_S1x64x64_S64x64 (ix2 k c) (ix3 (0 : Fin 1) k c)
    (by rewrite [Shape.rowMajor_val_three, Shape.rowMajor_val_two]; show (0 * 64 + k.val) * 64 + c.val = k.val * 64 + c.val; omega)).trans ?_
  exact extractStridedSlice_apply ![l, o, 0] W h _ (ix3 L r c) (fun a => match a with
    | ⟨0, _⟩ => by show L.val = l + 0; omega
    | ⟨1, _⟩ => by show r.val = o + k.val; exact hr
    | ⟨2, _⟩ => by show c.val = 0 + c.val; omega)

/-- A layer's bias as the one-row matrix a launch receives. -/
theorem bias_apply (l : Nat) (h : S3x64.Slices ![l, 0] S1x64) (B : S3x64.Idx → α) (c : Fin 64) (L : Fin 3) (hL : L.val = l) :
    shapeCast S1x64 (shapeCast S64 (extractStridedSlice S1x64 ![l, 0] B h) shapeCasts_S1x64_S64) shapeCasts_S64_S1x64 (ix2 (0 : Fin 1) c)
      = B (ix2 L c) := by
  refine (shapeCast_apply _ shapeCasts_S64_S1x64 (ix2 (0 : Fin 1) c) (ix1 c)
    (by rewrite [Shape.rowMajor_val_one, Shape.rowMajor_val_two]; show c.val = 0 * 64 + c.val; omega)).trans ?_
  refine (shapeCast_apply _ shapeCasts_S1x64_S64 (ix1 c) (ix2 (0 : Fin 1) c)
    (by rewrite [Shape.rowMajor_val_two, Shape.rowMajor_val_one]; show 0 * 64 + c.val = c.val; omega)).trans ?_
  exact extractStridedSlice_apply ![l, 0] B h _ (ix2 L c) (fun a => match a with
    | ⟨0, _⟩ => by show L.val = l + 0; omega
    | ⟨1, _⟩ => by show c.val = 0 + c.val; omega)

end Cert.KernelIdeal.KV

end
-- ==== Proof.Layer.lean ====
/-
  One layer of the network as one function of arrays, in the form both programs are brought to: from the node
  features `X`, the messages of all edges (each from the rows of `X` at the edge's two endpoints and the edge's
  attributes), their sums by destination, and the rectified update of every node. The gathers of rows and the sum by
  destination are the host operations both programs apply; they are left as they are.
-/
import proofs.«422810_j33131377721479_3_alg».proof.Proof.KDefs
import proofs.«422810_j33131377721479_3_alg».proof.Proof.Spec
import Idealize.ShloMosaic.Lib.ValueIdx

noncomputable section

namespace Cert.KernelIdeal.KV

open Idealize.ShloMosaic Idealize.ShloMosaic.ValueIdx
open Cert.KernelIdeal Cert.KernelIdeal.Gen

/-- All edges' messages in layer `l`, from the features `X`. -/
def msgArr (l : Fin 3) (X : FVec Ideal S50000x64 .f32) (ei : IVec S2x800000 32) (ea : FVec Ideal S800000x16 .f32)
    (MW : FVec Ideal S3x144x64 .f32) (MB : FVec Ideal S3x64 .f32) : FVec Ideal S800000x64 .f32 :=
  fun j => Cert.Spec.msgVal l (gatherRows X (wrapJ (dstJ ei))) (gatherRows X (wrapJ (srcJ ei))) ea MW MB
    ⟨(j 0).val, idx2_lt0 j⟩ ⟨(j 1).val, idx2_lt1 j⟩

/-- Layer `l`: the features after it, from the features `X` before it. -/
def layer (l : Fin 3) (X : FVec Ideal S50000x64 .f32) (ei : IVec S2x800000 32) (ea : FVec Ideal S800000x16 .f32)
    (MW : FVec Ideal S3x144x64 .f32) (MB : FVec Ideal S3x64 .f32) (UW : FVec Ideal S3x128x64 .f32) (UB : FVec Ideal S3x64 .f32) :
    FVec Ideal S50000x64 .f32 :=
  fun i => Cert.Spec.updVal l X (aggRows (dstJ ei) (msgArr l X ei ea MW MB)) UW UB
    ⟨(i 0).val, idx2_lt0 i⟩ ⟨(i 1).val, idx2_lt1 i⟩

theorem msgArr_apply (l : Fin 3) (X : FVec Ideal S50000x64 .f32) (ei : IVec S2x800000 32) (ea : FVec Ideal S800000x16 .f32)
    (MW : FVec Ideal S3x144x64 .f32) (MB : FVec Ideal S3x64 .f32) (e : Fin 800000) (c : Fin 64) :
    msgArr l X ei ea MW MB (ix2 e c)
      = Cert.Spec.msgVal l (gatherRows X (wrapJ (dstJ ei))) (gatherRows X (wrapJ (srcJ ei))) ea MW MB e c := rfl

theorem layer_apply (l : Fin 3) (X : FVec Ideal S50000x64 .f32) (ei : IVec S2x800000 32) (ea : FVec Ideal S800000x16 .f32)
    (MW : FVec Ideal S3x144x64 .f32) (MB : FVec Ideal S3x64 .f32) (UW : FVec Ideal S3x128x64 .f32) (UB : FVec Ideal S3x64 .f32)
    (n : Fin 50000) (c : Fin 64) :
    layer l X ei ea MW MB UW UB (ix2 n c)
      = Cert.Spec.updVal l X (aggRows (dstJ ei) (msgArr l X ei ea MW MB)) UW UB n c := rfl

/-- An array over a two-axis shape is known once it is known at every pair of coordinates. -/
theorem ext_ix2 {n0 n1 : Nat} {α : Type} {f g : (⟨2, ![n0, n1]⟩ : Shape).Idx → α}
    (h : ∀ (a : Fin n0) (b : Fin n1), f (ix2 a b) = g (ix2 a b)) : f = g :=
  funext fun j => by rw [eq_ix2 j]; exact h _ _

end Cert.KernelIdeal.KV

end
-- ==== Proof.KStep.lean ====
/-
  What one launch of the kernel leaves in its array, in the form the layers are compared in: with its weight matrices
  the bands of one layer's stacked weights and its gathered rows free of the fill, a message launch's array is the
  layer's messages and an update launch's array the layer's update. The rows the kernel gathers carry a fill word where
  an edge's endpoint is not a node; with every endpoint a node (the certificate's precondition on the edge list) the
  fill is never taken and the gathered rows are the plain gather's.
-/
import proofs.«422810_j33131377721479_3_alg».proof.Proof.Gen.KernelIdeal.Frame
import proofs.«422810_j33131377721479_3_alg».proof.Proof.KCarry
import proofs.«422810_j33131377721479_3_alg».proof.Proof.KTake0d
import proofs.«422810_j33131377721479_3_alg».proof.Proof.KTake0s
import proofs.«422810_j33131377721479_3_alg».proof.Proof.KTake2d
import proofs.«422810_j33131377721479_3_alg».proof.Proof.KTake2s
import proofs.«422810_j33131377721479_3_alg».proof.Proof.KTake4d
import proofs.«422810_j33131377721479_3_alg».proof.Proof.KTake4s
import proofs.«422810_j33131377721479_3_alg».proof.Proof.Reg0
import proofs.«422810_j33131377721479_3_alg».proof.Proof.Reg1
import proofs.«422810_j33131377721479_3_alg».proof.Proof.Reg2
import proofs.«422810_j33131377721479_3_alg».proof.Proof.Reg3
import proofs.«422810_j33131377721479_3_alg».proof.Proof.Reg4
import proofs.«422810_j33131377721479_3_alg».proof.Proof.Reg5
import proofs.«422810_j33131377721479_3_alg».proof.Proof.Take
import proofs.«422810_j33131377721479_3_alg».proof.Proof.Bands
import proofs.«422810_j33131377721479_3_alg».proof.Proof.Layer

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen

/-! ## One launch's array from its input arrays, with the weights' bands read out of the stacked weights -/

/-- A message launch's array is the layer's messages, when its first two inputs are the (filled) gathers of the
    features at the edges' endpoints, its weight matrices the three bands of layer `l`'s message weights and its bias
    row layer `l`'s bias — every endpoint being a node. -/
theorem msg_step (l : Fin 3) (lo : Nat) (hl : l.val = lo)
    (h1 : S3x144x64.Slices ![lo, 0, 0] S1x64x64) (h2 : S3x144x64.Slices ![lo, 64, 0] S1x64x64)
    (h3 : S3x144x64.Slices ![lo, 128, 0] S1x16x64) (h4 : S3x64.Slices ![lo, 0] S1x64)
    (X : FVec Ideal S50000x64 .f32) (ei : IVec S2x800000 32) (ea : FVec Ideal S800000x16 .f32)
    (MW : FVec Ideal S3x144x64 .f32) (MB : FVec Ideal S3x64 .f32) (hR : ∀ i : S2x800000.Idx, (ei i).toNat < 50000) :
    Cert.Spec.msgA (takeRows X (dstJ ei)) (takeRows X (srcJ ei)) ea
      (shapeCast S64x64 (extractStridedSlice S1x64x64 ![lo, 0, 0] MW h1) shapeCasts_S1x64x64_S64x64)
      (shapeCast S64x64 (extractStridedSlice S1x64x64 ![lo, 64, 0] MW h2) shapeCasts_S1x64x64_S64x64)
      (shapeCast S16x64 (extractStridedSlice S1x16x64 ![lo, 128, 0] MW h3) shapeCasts_S1x16x64_S16x64)
      (shapeCast S1x64 (shapeCast S64 (extractStridedSlice S1x64 ![lo, 0] MB h4) shapeCasts_S1x64_S64) shapeCasts_S64_S1x64)
    = msgArr l X ei ea MW MB := by
  refine ext_ix2 fun e q => ?_
  rw [Cert.Spec.msgA_apply, msgArr_apply, takeRows_eq X _ (dstJ_range ei hR), takeRows_eq X _ (srcJ_range ei hR)]
  exact Cert.Spec.msgK_eq_msgVal l _ _ _ _ _ _ _ MW MB
    (fun k c => mw64_apply lo 0 h1 MW k c l (Cert.Spec.band0 (by decide) k) hl (by show k.val = 0 + k.val; omega))
    (fun k c => mw64_apply lo 64 h2 MW k c l (Cert.Spec.band1 (by decide) k) hl rfl)
    (fun k c => mw16_apply lo 128 h3 MW k c l (Cert.Spec.band2 k) hl rfl)
    (fun c => bias_apply lo h4 MB c l hl) e q

/-- An update launch's array at a node and channel is the layer's update, when its weight matrices are the two bands
    of layer `l`'s update weights and its bias row layer `l`'s bias. -/
theorem upd_step (l : Fin 3) (lo : Nat) (hl : l.val = lo)
    (h1 : S3x128x64.Slices ![lo, 0, 0] S1x64x64) (h2 : S3x128x64.Slices ![lo, 64, 0] S1x64x64) (h4 : S3x64.Slices ![lo, 0] S1x64)
    (X agg : FVec Ideal S50000x64 .f32) (UW : FVec Ideal S3x128x64 .f32) (UB : FVec Ideal S3x64 .f32) (n : Fin 50000) (q : Fin 64) :
    Cert.Spec.updA X agg
      (shapeCast S64x64 (extractStridedSlice S1x64x64 ![lo, 0, 0] UW h1) shapeCasts_S1x64x64_S64x64)
      (shapeCast S64x64 (extractStridedSlice S1x64x64 ![lo, 64, 0] UW h2) shapeCasts_S1x64x64_S64x64)
      (shapeCast S1x64 (shapeCast S64 (extractStridedSlice S1x64 ![lo, 0] UB h4) shapeCasts_S1x64_S64) shapeCasts_S64_S1x64) (ix2 n q)
    = Cert.Spec.updVal l X agg UW UB n q := by
  rw [Cert.Spec.updA_apply]
  exact Cert.Spec.updK_eq_updVal l _ _ _ _ _ UW UB
    (fun k c => uw64_apply lo 0 h1 UW k c l (Cert.Spec.band0 (by decide) k) hl (by show k.val = 0 + k.val; omega))
    (fun k c => uw64_apply lo 64 h2 UW k c l (Cert.Spec.band1 (by decide) k) hl rfl)
    (fun c => bias_apply lo h4 UB c l hl) n q

/-! ## The argument arrays as launched -/

variable (m : (ℓ : Loc nD τ sig) → Buf (Elt Ideal) ℓ) (ρ : Dev nD → PrngReg) (c : Dev nD)

/-- The argument arrays as launched: node features, edge list, edge attributes, the two stacks of weights and biases. -/
abbrev argX : FVec Ideal S50000x64 .f32 := m ((c : Thread nD τ).loc main_arg0)
abbrev argE : IVec S2x800000 32 := m ((c : Thread nD τ).loc main_arg1)
abbrev argA : FVec Ideal S800000x16 .f32 := m ((c : Thread nD τ).loc main_arg2)
abbrev argMW : FVec Ideal S3x144x64 .f32 := m ((c : Thread nD τ).loc main_arg3)
abbrev argMB : FVec Ideal S3x64 .f32 := m ((c : Thread nD τ).loc main_arg4)
abbrev argUW : FVec Ideal S3x128x64 .f32 := m ((c : Thread nD τ).loc main_arg5)
abbrev argUB : FVec Ideal S3x64 .f32 := m ((c : Thread nD τ).loc main_arg6)

end Cert.KernelIdeal.KV

end
-- ==== Proof.KLaunches.lean ====
/-
  The kernel's program followed from its launch to its result, at the extended reals. Each message launch leaves, in
  its output array, all edges' messages of its layer computed from the features the previous update launch left (the
  input features for the first); each update launch leaves the next features. What a launch reads is what the host
  stretch before it wrote or what was carried to it; what it computes of that is the launch's own array function with
  the weights' bands read out of the stacked weights.
-/
import proofs.«422810_j33131377721479_3_alg».proof.Proof.KStep

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The first message launch leaves all edges' messages of layer 0, from the input features. -/
theorem kM0 (hR : ∀ i : S2x800000.Idx, (argE m c i).toNat < 50000) :
    W2 m ρ c (Proc.devRef .tc main_call0_v15) = msgArr 0 (argX m c) (argE m c) (argA m c) (argMW m c) (argMB m c) := by
  refine (W2_arr m ρ c 7).trans ((arr0 (V1 m ρ) c).trans ?_)
  have ed : V1 m ρ c main_call0_v4 = takeRows (argX m c) (dstJ (argE m c)) := h0_v4 (W0 m ρ c)
  have es : V1 m ρ c main_call0_v5 = takeRows (argX m c) (srcJ (argE m c)) := h0_v5 (W0 m ρ c)
  have ea : V1 m ρ c main_arg2 = argA m c := c1_arg2 m ρ c
  have ewi : V1 m ρ c main_call0_v7 = shapeCast S64x64 (extractStridedSlice S1x64x64 ![0, 0, 0] (argMW m c) slices_S3x144x64_S1x64x64_0_0_0) shapeCasts_S1x64x64_S64x64 :=
    h0_v7 (W0 m ρ c)
  have ewj : V1 m ρ c main_call0_v9 = shapeCast S64x64 (extractStridedSlice S1x64x64 ![0, 64, 0] (argMW m c) slices_S3x144x64_S1x64x64_0_64_0) shapeCasts_S1x64x64_S64x64 :=
    h0_v9 (W0 m ρ c)
  have ewe : V1 m ρ c main_call0_v11 = shapeCast S16x64 (extractStridedSlice S1x16x64 ![0, 128, 0] (argMW m c) slices_S3x144x64_S1x16x64_0_128_0) shapeCasts_S1x16x64_S16x64 :=
    h0_v11 (W0 m ρ c)
  have eb : V1 m ρ c main_call0_v14 = shapeCast S1x64 (shapeCast S64 (extractStridedSlice S1x64 ![0, 0] (argMB m c) slices_S3x64_S1x64_0_0) shapeCasts_S1x64_S64) shapeCasts_S64_S1x64 :=
    h0_v14 (W0 m ρ c)
  rw [ed, es, ea, ewi, ewj, ewe, eb]
  exact msg_step 0 0 rfl _ _ _ _ _ _ _ _ _ hR

/-- The first update launch leaves the features after layer 0, from the input features and those messages. -/
theorem kX1 (hR : ∀ i : S2x800000.Idx, (argE m c i).toNat < 50000) :
    W4 m ρ c (Proc.devRef .tc main_call0_v26) = layer 0 (argX m c) (argE m c) (argA m c) (argMW m c) (argMB m c) (argUW m c) (argUB m c) := by
  refine (W4_arr m ρ c 5).trans ((arr1 (V3 m ρ) c).trans ?_)
  have ex : V3 m ρ c main_arg0 = (argX m c) := c3_arg0 m ρ c
  have eg : V3 m ρ c main_call0_v18 = aggRows (dstJ (argE m c)) (msgArr 0 (argX m c) (argE m c) (argA m c) (argMW m c) (argMB m c)) :=
    (h1_v18 (W2 m ρ c)).trans (by rw [c2_v3 m ρ c, kM0 m ρ c hR])
  have ewx : V3 m ρ c main_call0_v20 = shapeCast S64x64 (extractStridedSlice S1x64x64 ![0, 0, 0] (argUW m c) slices_S3x128x64_S1x64x64_0_0_0) shapeCasts_S1x64x64_S64x64 :=
    (h1_v20 (W2 m ρ c)).trans (by rw [c2_arg5 m ρ c])
  have ewa : V3 m ρ c main_call0_v22 = shapeCast S64x64 (extractStridedSlice S1x64x64 ![0, 64, 0] (argUW m c) slices_S3x128x64_S1x64x64_0_64_0) shapeCasts_S1x64x64_S64x64 :=
    (h1_v22 (W2 m ρ c)).trans (by rw [c2_arg5 m ρ c])
  have eb : V3 m ρ c main_call0_v25 = shapeCast S1x64 (shapeCast S64 (extractStridedSlice S1x64 ![0, 0] (argUB m c) slices_S3x64_S1x64_0_0) shapeCasts_S1x64_S64) shapeCasts_S64_S1x64 :=
    (h1_v25 (W2 m ρ c)).trans (by rw [c2_arg6 m ρ c])
  rw [ex, eg, ewx, ewa, eb]
  exact ext_ix2 fun n q => upd_step 0 0 rfl _ _ _ _ _ _ _ n q

/-- The second message launch leaves all edges' messages of layer 1, from the features after layer 0. -/
theorem kM1 (hR : ∀ i : S2x800000.Idx, (argE m c i).toNat < 50000) :
    W6 m ρ c (Proc.devRef .tc main_call0_v38) = msgArr 1 (layer 0 (argX m c) (argE m c) (argA m c) (argMW m c) (argMB m c) (argUW m c) (argUB m c)) (argE m c) (argA m c) (argMW m c) (argMB m c) := by
  refine (W6_arr m ρ c 7).trans ((arr2 (V5 m ρ) c).trans ?_)
  have ed : V5 m ρ c main_call0_v27 = takeRows (layer 0 (argX m c) (argE m c) (argA m c) (argMW m c) (argMB m c) (argUW m c) (argUB m c)) (dstJ (argE m c)) := (h2_v27 (W4 m ρ c)).trans (by rw [kX1 m ρ c hR, c4_v3 m ρ c])
  have es : V5 m ρ c main_call0_v28 = takeRows (layer 0 (argX m c) (argE m c) (argA m c) (argMW m c) (argMB m c) (argUW m c) (argUB m c)) (srcJ (argE m c)) := (h2_v28 (W4 m ρ c)).trans (by rw [kX1 m ρ c hR, c4_v1 m ρ c])
  have ea : V5 m ρ c main_arg2 = argA m c := c5_arg2 m ρ c
  have ewi : V5 m ρ c main_call0_v30 = shapeCast S64x64 (extractStridedSlice S1x64x64 ![1, 0, 0] (argMW m c) slices_S3x144x64_S1x64x64_1_0_0) shapeCasts_S1x64x64_S64x64 :=
    (h2_v30 (W4 m ρ c)).trans (by rw [c4_arg3 m ρ c])
  have ewj : V5 m ρ c main_call0_v32 = shapeCast S64x64 (extractStridedSlice S1x64x64 ![1, 64, 0] (argMW m c) slices_S3x144x64_S1x64x64_1_64_0) shapeCasts_S1x64x64_S64x64 :=
    (h2_v32 (W4 m ρ c)).trans (by rw [c4_arg3 m ρ c])
  have ewe : V5 m ρ c main_call0_v34 = shapeCast S16x64 (extractStridedSlice S1x16x64 ![1, 128, 0] (argMW m c) slices_S3x144x64_S1x16x64_1_128_0) shapeCasts_S1x16x64_S16x64 :=
    (h2_v34 (W4 m ρ c)).trans (by rw [c4_arg3 m ρ c])
  have eb : V5 m ρ c main_call0_v37 = shapeCast S1x64 (shapeCast S64 (extractStridedSlice S1x64 ![1, 0] (argMB m c) slices_S3x64_S1x64_1_0) shapeCasts_S1x64_S64) shapeCasts_S64_S1x64 :=
    (h2_v37 (W4 m ρ c)).trans (by rw [c4_arg4 m ρ c])
  rw [ed, es, ea, ewi, ewj, ewe, eb]
  exact msg_step 1 1 rfl _ _ _ _ _ _ _ _ _ hR

/-- The second update launch leaves the features after layer 1, from the features after layer 0 and those messages. -/
theorem kX2 (hR : ∀ i : S2x800000.Idx, (argE m c i).toNat < 50000) :
    W8 m ρ c (Proc.devRef .tc main_call0_v49) = layer 1 (layer 0 (argX m c) (argE m c) (argA m c) (argMW m c) (argMB m c) (argUW m c) (argUB m c)) (argE m c) (argA m c) (argMW m c) (argMB m c) (argUW m c) (argUB m c) := by
  refine (W8_arr m ρ c 5).trans ((arr3 (V7 m ρ) c).trans ?_)
  have ex : V7 m ρ c main_call0_v26 = (layer 0 (argX m c) (argE m c) (argA m c) (argMW m c) (argMB m c) (argUW m c) (argUB m c)) := (c7_v26 m ρ c).trans (kX1 m ρ c hR)
  have eg : V7 m ρ c main_call0_v41 = aggRows (dstJ (argE m c)) (msgArr 1 (layer 0 (argX m c) (argE m c) (argA m c) (argMW m c) (argMB m c) (argUW m c) (argUB m c)) (argE m c) (argA m c) (argMW m c) (argMB m c)) :=
    (h3_v41 (W6 m ρ c)).trans (by rw [c6_v3 m ρ c, kM1 m ρ c hR])
  have ewx : V7 m ρ c main_call0_v43 = shapeCast S64x64 (extractStridedSlice S1x64x64 ![1, 0, 0] (argUW m c) slices_S3x128x64_S1x64x64_1_0_0) shapeCasts_S1x64x64_S64x64 :=
    (h3_v43 (W6 m ρ c)).trans (by rw [c6_arg5 m ρ c])
  have ewa : V7 m ρ c main_call0_v45 = shapeCast S64x64 (extractStridedSlice S1x64x64 ![1, 64, 0] (argUW m c) slices_S3x128x64_S1x64x64_1_64_0) shapeCasts_S1x64x64_S64x64 :=
    (h3_v45 (W6 m ρ c)).trans (by rw [c6_arg5 m ρ c])
  have eb : V7 m ρ c main_call0_v48 = shapeCast S1x64 (shapeCast S64 (extractStridedSlice S1x64 ![1, 0] (argUB m c) slices_S3x64_S1x64_1_0) shapeCasts_S1x64_S64) shapeCasts_S64_S1x64 :=
    (h3_v48 (W6 m ρ c)).trans (by rw [c6_arg6 m ρ c])
  rw [ex, eg, ewx, ewa, eb]
  exact ext_ix2 fun n q => upd_step 1 1 rfl _ _ _ _ _ _ _ n q

/-- The third message launch leaves all edges' messages of layer 2, from the features after layer 1. -/
theorem kM2 (hR : ∀ i : S2x800000.Idx, (argE m c i).toNat < 50000) :
    W10 m ρ c (Proc.devRef .tc main_call0_v61) = msgArr 2 (layer 1 (layer 0 (argX m c) (argE m c) (argA m c) (argMW m c) (argMB m c) (argUW m c) (argUB m c)) (argE m c) (argA m c) (argMW m c) (argMB m c) (argUW m c) (argUB m c)) (argE m c) (argA m c) (argMW m c) (argMB m c) := by
  refine (W10_arr m ρ c 7).trans ((arr4 (V9 m ρ) c).trans ?_)
  have ed : V9 m ρ c main_call0_v50 = takeRows (layer 1 (layer 0 (argX m c) (argE m c) (argA m c) (argMW m c) (argMB m c) (argUW m c) (argUB m c)) (argE m c) (argA m c) (argMW m c) (argMB m c) (argUW m c) (argUB m c)) (dstJ (argE m c)) := (h4_v50 (W8 m ρ c)).trans (by rw [kX2 m ρ c hR, c8_v3 m ρ c])
  have es : V9 m ρ c main_call0_v51 = takeRows (layer 1 (layer 0 (argX m c) (argE m c) (argA m c) (argMW m c) (argMB m c) (argUW m c) (argUB m c)) (argE m c) (argA m c) (argMW m c) (argMB m c) (argUW m c) (argUB m c)) (srcJ (argE m c)) := (h4_v51 (W8 m ρ c)).trans (by rw [kX2 m ρ c hR, c8_v1 m ρ c])
  have ea : V9 m ρ c main_arg2 = argA m c := c9_arg2 m ρ c
  have ewi : V9 m ρ c main_call0_v53 = shapeCast S64x64 (extractStridedSlice S1x64x64 ![2, 0, 0] (argMW m c) slices_S3x144x64_S1x64x64_2_0_0) shapeCasts_S1x64x64_S64x64 :=
    (h4_v53 (W8 m ρ c)).trans (by rw [c8_arg3 m ρ c])
  have ewj : V9 m ρ c main_call0_v55 = shapeCast S64x64 (extractStridedSlice S1x64x64 ![2, 64, 0] (argMW m c) slices_S3x144x64_S1x64x64_2_64_0) shapeCasts_S1x64x64_S64x64 :=
    (h4_v55 (W8 m ρ c)).trans (by rw [c8_arg3 m ρ c])
  have ewe : V9 m ρ c main_call0_v57 = shapeCast S16x64 (extractStridedSlice S1x16x64 ![2, 128, 0] (argMW m c) slices_S3x144x64_S1x16x64_2_128_0) shapeCasts_S1x16x64_S16x64 :=
    (h4_v57 (W8 m ρ c)).trans (by rw [c8_arg3 m ρ c])
  have eb : V9 m ρ c main_call0_v60 = shapeCast S1x64 (shapeCast S64 (extractStridedSlice S1x64 ![2, 0] (argMB m c) slices_S3x64_S1x64_2_0) shapeCasts_S1x64_S64) shapeCasts_S64_S1x64 :=
    (h4_v60 (W8 m ρ c)).trans (by rw [c8_arg4 m ρ c])
  rw [ed, es, ea, ewi, ewj, ewe, eb]
  exact msg_step 2 2 rfl _ _ _ _ _ _ _ _ _ hR

/-- The third update launch leaves the features after layer 2, from the features after layer 1 and those messages. -/
theorem kX3 (hR : ∀ i : S2x800000.Idx, (argE m c i).toNat < 50000) :
    W12 m ρ c (Proc.devRef .tc main_v0) = layer 2 (layer 1 (layer 0 (argX m c) (argE m c) (argA m c) (argMW m c) (argMB m c) (argUW m c) (argUB m c)) (argE m c) (argA m c) (argMW m c) (argMB m c) (argUW m c) (argUB m c)) (argE m c) (argA m c) (argMW m c) (argMB m c) (argUW m c) (argUB m c) := by
  refine (W12_arr m ρ c 5).trans ((arr5 (V11 m ρ) c).trans ?_)
  have ex : V11 m ρ c main_call0_v49 = (layer 1 (layer 0 (argX m c) (argE m c) (argA m c) (argMW m c) (argMB m c) (argUW m c) (argUB m c)) (argE m c) (argA m c) (argMW m c) (argMB m c) (argUW m c) (argUB m c)) := (c11_v49 m ρ c).trans (kX2 m ρ c hR)
  have eg : V11 m ρ c main_call0_v64 = aggRows (dstJ (argE m c)) (msgArr 2 (layer 1 (layer 0 (argX m c) (argE m c) (argA m c) (argMW m c) (argMB m c) (argUW m c) (argUB m c)) (argE m c) (argA m c) (argMW m c) (argMB m c) (argUW m c) (argUB m c)) (argE m c) (argA m c) (argMW m c) (argMB m c)) :=
    (h5_v64 (W10 m ρ c)).trans (by rw [c10_v3 m ρ c, kM2 m ρ c hR])
  have ewx : V11 m ρ c main_call0_v66 = shapeCast S64x64 (extractStridedSlice S1x64x64 ![2, 0, 0] (argUW m c) slices_S3x128x64_S1x64x64_2_0_0) shapeCasts_S1x64x64_S64x64 :=
    (h5_v66 (W10 m ρ c)).trans (by rw [c10_arg5 m ρ c])
  have ewa : V11 m ρ c main_call0_v68 = shapeCast S64x64 (extractStridedSlice S1x64x64 ![2, 64, 0] (argUW m c) slices_S3x128x64_S1x64x64_2_64_0) shapeCasts_S1x64x64_S64x64 :=
    (h5_v68 (W10 m ρ c)).trans (by rw [c10_arg5 m ρ c])
  have eb : V11 m ρ c main_call0_v71 = shapeCast S1x64 (shapeCast S64 (extractStridedSlice S1x64 ![2, 0] (argUB m c) slices_S3x64_S1x64_2_0) shapeCasts_S1x64_S64) shapeCasts_S64_S1x64 :=
    (h5_v71 (W10 m ρ c)).trans (by rw [c10_arg6 m ρ c])
  rw [ex, eg, ewx, ewa, eb]
  exact ext_ix2 fun n q => upd_step 2 2 rfl _ _ _ _ _ _ _ n q

end Cert.KernelIdeal.KV

end
-- ==== Proof.RefLayer.lean ====
/-
  The reference's three layers, read element by element.

  Each layer of the reference forms, for every edge, the row [x_dst | x_src | attributes] (144 entries), multiplies it
  by the layer's 144 × 64 message weights, adds the layer's bias and rectifies; it sums the messages into their
  destination rows; and for every node it forms [x | aggregate] (128 entries), multiplies by the layer's 128 × 64
  update weights, adds the bias and rectifies. Read at one entry, the product is a sum over the 144 (or 128) columns
  of the concatenated row; split at the joints of the concatenation it is the sum of the bands' sums, each band
  reading one piece of the concatenation at its own column, against the matching band of rows of the weights. That
  is the specification's message and update. The gathered rows and the aggregate are left as they are: the
  statements are in terms of them.
-/
import proofs.«422810_j33131377721479_3_alg».proof.Proof.RefRead
import proofs.«422810_j33131377721479_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## A row of a concatenation, read in its bands -/

section Pieces
variable {α : Type}

theorem cat3_band0 (xi xj : S800000x64.Idx → α) (ea : S800000x16.Idx → α) (j : S800000x144.Idx) (e : Fin 800000) (k : Fin 64)
    (h0 : (j 0).val = e.val) (h1 : (j 1).val = k.val) :
    concatenate S800000x144 1 [⟨S800000x64, xi⟩, ⟨S800000x64, xj⟩, ⟨S800000x16, ea⟩]
      concatenates_S800000x64_S800000x64_S800000x16_S800000x144_d1 j = xi (ix2 e k) :=
  concatenate_apply_piece (t := S800000x144) 1 _ _ j 0 (by show (0 : Nat) < 3; decide) S800000x64 xi rfl rfl 0 rfl (ix2 e k)
    (fun b hb => by
      match b with
      | ⟨0, _⟩ => exact h0.symm
      | ⟨1, _⟩ => exact absurd rfl hb)
    (by show 0 + k.val = (j 1).val; omega)

theorem cat3_band1 (xi xj : S800000x64.Idx → α) (ea : S800000x16.Idx → α) (j : S800000x144.Idx) (e : Fin 800000) (k : Fin 64)
    (h0 : (j 0).val = e.val) (h1 : (j 1).val = 64 + k.val) :
    concatenate S800000x144 1 [⟨S800000x64, xi⟩, ⟨S800000x64, xj⟩, ⟨S800000x16, ea⟩]
      concatenates_S800000x64_S800000x64_S800000x16_S800000x144_d1 j = xj (ix2 e k) :=
  concatenate_apply_piece (t := S800000x144) 1 _ _ j 1 (by show (1 : Nat) < 3; decide) S800000x64 xj rfl rfl 64 rfl (ix2 e k)
    (fun b hb => by
      match b with
      | ⟨0, _⟩ => exact h0.symm
      | ⟨1, _⟩ => exact absurd rfl hb)
    (by show 64 + k.val = (j 1).val; omega)

theorem cat3_band2 (xi xj : S800000x64.Idx → α) (ea : S800000x16.Idx → α) (j : S800000x144.Idx) (e : Fin 800000) (k : Fin 16)
    (h0 : (j 0).val = e.val) (h1 : (j 1).val = 128 + k.val) :
    concatenate S800000x144 1 [⟨S800000x64, xi⟩, ⟨S800000x64, xj⟩, ⟨S800000x16, ea⟩]
      concatenates_S800000x64_S800000x64_S800000x16_S800000x144_d1 j = ea (ix2 e k) :=
  concatenate_apply_piece (t := S800000x144) 1 _ _ j 2 (by show (2 : Nat) < 3; decide) S800000x16 ea rfl rfl 128 rfl (ix2 e k)
    (fun b hb => by
      match b with
      | ⟨0, _⟩ => exact h0.symm
      | ⟨1, _⟩ => exact absurd rfl hb)
    (by show 128 + k.val = (j 1).val; omega)

theorem cat2_band0 (X agg : S50000x64.Idx → α) (j : S50000x128.Idx) (n : Fin 50000) (k : Fin 64)
    (h0 : (j 0).val = n.val) (h1 : (j 1).val = k.val) :
    concatenate S50000x128 1 [⟨S50000x64, X⟩, ⟨S50000x64, agg⟩] concatenates_S50000x64_S50000x64_S50000x128_d1 j = X (ix2 n k) :=
  concatenate_apply_piece (t := S50000x128) 1 _ _ j 0 (by show (0 : Nat) < 2; decide) S50000x64 X rfl rfl 0 rfl (ix2 n k)
    (fun b hb => by
      match b with
      | ⟨0, _⟩ => exact h0.symm
      | ⟨1, _⟩ => exact absurd rfl hb)
    (by show 0 + k.val = (j 1).val; omega)

theorem cat2_band1 (X agg : S50000x64.Idx → α) (j : S50000x128.Idx) (n : Fin 50000) (k : Fin 64)
    (h0 : (j 0).val = n.val) (h1 : (j 1).val = 64 + k.val) :
    concatenate S50000x128 1 [⟨S50000x64, X⟩, ⟨S50000x64, agg⟩] concatenates_S50000x64_S50000x64_S50000x128_d1 j = agg (ix2 n k) :=
  concatenate_apply_piece (t := S50000x128) 1 _ _ j 1 (by show (1 : Nat) < 2; decide) S50000x64 agg rfl rfl 64 rfl (ix2 n k)
    (fun b hb => by
      match b with
      | ⟨0, _⟩ => exact h0.symm
      | ⟨1, _⟩ => exact absurd rfl hb)
    (by show 64 + k.val = (j 1).val; omega)

end Pieces

/-! ## The rectified affine map, assembled from its reads -/

theorem msg_assemble (l : Fin 3) (xi xj : Cert.Spec.E64.Idx → EReal) (ea : Cert.Spec.E16.Idx → EReal)
    (W : Cert.Spec.MW.Idx → EReal) (B : Cert.Spec.LB.Idx → EReal) (e : Fin 800000) (c : Fin 64)
    (cat w : Fin 144 → EReal) (b z : EReal)
    (hc0 : ∀ k : Fin 64, cat (Cert.Spec.band0 (by decide) k) = xi (ix2 e k))
    (hc1 : ∀ k : Fin 64, cat (Cert.Spec.band1 (by decide) k) = xj (ix2 e k))
    (hc2 : ∀ k : Fin 16, cat (Cert.Spec.band2 k) = ea (ix2 e k))
    (hw : ∀ k : Fin 144, w k = W (ix3 l k c))
    (hb : b = B (ix2 l c)) (hz : z = Cert.Spec.Z) :
    FloatOps.maximumf (F := Ideal) (φ := .f32) (FloatOps.addf (F := Ideal) (φ := .f32) (∑ k : Fin 144, cat k * w k) b) z
      = Cert.Spec.msgVal l xi xj ea W B e c := by
  subst hb hz
  unfold Cert.Spec.msgVal
  rw [Cert.Spec.sum144]
  simp only [hc0, hc1, hc2, hw]
  rfl

theorem upd_assemble (l : Fin 3) (X agg : Cert.Spec.N64.Idx → EReal)
    (U : Cert.Spec.UW.Idx → EReal) (D : Cert.Spec.LB.Idx → EReal) (n : Fin 50000) (c : Fin 64)
    (cat w : Fin 128 → EReal) (b z : EReal)
    (hc0 : ∀ k : Fin 64, cat (Cert.Spec.band0 (by decide) k) = X (ix2 n k))
    (hc1 : ∀ k : Fin 64, cat (Cert.Spec.band1 (by decide) k) = agg (ix2 n k))
    (hw : ∀ k : Fin 128, w k = U (ix3 l k c))
    (hb : b = D (ix2 l c)) (hz : z = Cert.Spec.Z) :
    FloatOps.maximumf (F := Ideal) (φ := .f32) (FloatOps.addf (F := Ideal) (φ := .f32) (∑ k : Fin 128, cat k * w k) b) z
      = Cert.Spec.updVal l X agg U D n c := by
  subst hb hz
  unfold Cert.Spec.updVal
  rw [Cert.Spec.sum128]
  simp only [hc0, hc1, hw]
  rfl

/-! ## The layers -/

/-! ### Layer 0: the messages -/

/-- Layer 0's message weights, as the product reads them: row `k`, column `c` of the layer's 144 × 64 matrix. -/
theorem w_msg0 (x3 : (⟨S3x144x64, .f32⟩ : BufTy).Contents (Elt Ideal)) (e : Fin 800000) (c : Fin 64) (k : Fin 144) :
    val_main_v20 (F := Ideal) x3 (ridx_main_v21 (ix2 e c) k) = x3 (ix3 0 k c) := by
  rw [val_main_v20_apply, val_main_v19_apply]
  exact congrArg x3 (funext fun a => Fin.ext (by
    match a with
    | ⟨0, _⟩ => rfl
    | ⟨1, _⟩ => show (k.val * 64 + c.val) / 64 % 144 = k.val; omega
    | ⟨2, _⟩ => show (k.val * 64 + c.val) % 64 = c.val; omega))

/-- Layer 0's message bias, broadcast down the edges: entry `c` of the layer's row. -/
theorem b_msg0 (x4 : (⟨S3x64, .f32⟩ : BufTy).Contents (Elt Ideal)) (e : Fin 800000) (c : Fin 64) :
    val_main_v25 (F := Ideal) x4 (ix2 e c) = x4 (ix2 0 c) := by
  rw [val_main_v25_apply, val_main_v24_apply, val_main_v23_apply, val_main_v22_apply]
  exact congrArg x4 (funext fun a => Fin.ext (by
    match a with
    | ⟨0, _⟩ => rfl
    | ⟨1, _⟩ => show (c.val) % 64 = c.val; omega))

/-- The rectifier's threshold in layer 0's messages is the zero word. -/
theorem z_msg0 (i : S800000x64.Idx) : val_main_call0_v0 (F := Ideal) i = Cert.Spec.Z :=
  (val_main_call0_v0_apply i).trans (val_main_call0_cst_apply _)

/-- Row `e` of layer 0's concatenated message input, in its first band: the destination's row. -/
theorem cat_msg0_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (e : Fin 800000) (c : Fin 64) (k : Fin 64) :
    val_main_v18 (F := Ideal) x0 x1 x2 (lidx_main_v21 (ix2 e c) (Cert.Spec.band0 (by decide) k))
      = val_main_v10 (F := Ideal) x0 x1 (ix2 e k) := by
  unfold val_main_v18
  exact cat3_band0 _ _ _ _ e k rfl rfl

/-- … in its second band: the source's row. -/
theorem cat_msg0_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (e : Fin 800000) (c : Fin 64) (k : Fin 64) :
    val_main_v18 (F := Ideal) x0 x1 x2 (lidx_main_v21 (ix2 e c) (Cert.Spec.band1 (by decide) k))
      = val_main_v17 (F := Ideal) x0 x1 (ix2 e k) := by
  unfold val_main_v18
  exact cat3_band1 _ _ _ _ e k rfl rfl

/-- … in its third band: the edge's attributes. -/
theorem cat_msg0_2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (e : Fin 800000) (c : Fin 64) (k : Fin 16) :
    val_main_v18 (F := Ideal) x0 x1 x2 (lidx_main_v21 (ix2 e c) (Cert.Spec.band2 k)) = x2 (ix2 e k) := by
  unfold val_main_v18
  exact cat3_band2 _ _ _ _ e k rfl rfl

/-- Layer 0's messages, element by element. -/
theorem ref_msg0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (e : Fin 800000) (c : Fin 64) :
    val_main_v27 (F := Ideal) x0 x1 x2 x3 x4 (ix2 e c)
      = Cert.Spec.msgVal 0 (val_main_v10 (F := Ideal) x0 x1) (val_main_v17 (F := Ideal) x0 x1) x2 x3 x4 e c := by
  rw [val_main_v27_apply, val_main_v26_apply, val_main_v21_apply]
  exact msg_assemble 0 _ _ x2 x3 x4 e c
    (fun k => val_main_v18 (F := Ideal) x0 x1 x2 (lidx_main_v21 (ix2 e c) k))
    (fun k => val_main_v20 (F := Ideal) x3 (ridx_main_v21 (ix2 e c) k)) _ _
    (cat_msg0_0 x0 x1 x2 e c) (cat_msg0_1 x0 x1 x2 e c) (cat_msg0_2 x0 x1 x2 e c)
    (w_msg0 x3 e c) (b_msg0 x4 e c) (z_msg0 _)

/-! ### Layer 0: the node update -/

/-- Layer 0's update weights, as the product reads them: row `k`, column `c` of the layer's 128 × 64 matrix. -/
theorem w_upd0 (x5 : (⟨S3x128x64, .f32⟩ : BufTy).Contents (Elt Ideal)) (n : Fin 50000) (c : Fin 64) (k : Fin 128) :
    val_main_v33 (F := Ideal) x5 (ridx_main_v34 (ix2 n c) k) = x5 (ix3 0 k c) := by
  rw [val_main_v33_apply, val_main_v32_apply]
  exact congrArg x5 (funext fun a => Fin.ext (by
    match a with
    | ⟨0, _⟩ => rfl
    | ⟨1, _⟩ => show (k.val * 64 + c.val) / 64 % 128 = k.val; omega
    | ⟨2, _⟩ => show (k.val * 64 + c.val) % 64 = c.val; omega))

/-- Layer 0's update bias, broadcast down the nodes: entry `c` of the layer's row. -/
theorem b_upd0 (x6 : (⟨S3x64, .f32⟩ : BufTy).Contents (Elt Ideal)) (n : Fin 50000) (c : Fin 64) :
    val_main_v38 (F := Ideal) x6 (ix2 n c) = x6 (ix2 0 c) := by
  rw [val_main_v38_apply, val_main_v37_apply, val_main_v36_apply, val_main_v35_apply]
  exact congrArg x6 (funext fun a => Fin.ext (by
    match a with
    | ⟨0, _⟩ => rfl
    | ⟨1, _⟩ => show (c.val) % 64 = c.val; omega))

/-- The rectifier's threshold in layer 0's update is the zero word. -/
theorem z_upd0 (i : S50000x64.Idx) : val_main_call1_v0 (F := Ideal) i = Cert.Spec.Z :=
  (val_main_call1_v0_apply i).trans (val_main_call1_cst_apply _)

/-- Row `n` of layer 0's concatenated update input, in its first band: the node's own row. -/
theorem cat_upd0_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (n : Fin 50000) (c : Fin 64) (k : Fin 64) :
    val_main_v31 (F := Ideal) x0 x1 x2 x3 x4 (lidx_main_v34 (ix2 n c) (Cert.Spec.band0 (by decide) k))
      = x0 (ix2 n k) := by
  unfold val_main_v31
  exact cat2_band0 _ _ _ n k rfl rfl

/-- … in its second band: the node's aggregated messages. -/
theorem cat_upd0_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (n : Fin 50000) (c : Fin 64) (k : Fin 64) :
    val_main_v31 (F := Ideal) x0 x1 x2 x3 x4 (lidx_main_v34 (ix2 n c) (Cert.Spec.band1 (by decide) k))
      = val_main_v30 (F := Ideal) x0 x1 x2 x3 x4 (ix2 n k) := by
  unfold val_main_v31
  exact cat2_band1 _ _ _ n k rfl rfl

/-- Layer 0's updated node features, element by element. -/
theorem ref_upd0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) :
    val_main_v40 (F := Ideal) x0 x1 x2 x3 x4 x5 x6 (ix2 n c)
      = Cert.Spec.updVal 0 x0 (val_main_v30 (F := Ideal) x0 x1 x2 x3 x4) x5 x6 n c := by
  rw [val_main_v40_apply, val_main_v39_apply, val_main_v34_apply]
  exact upd_assemble 0 _ _ x5 x6 n c
    (fun k => val_main_v31 (F := Ideal) x0 x1 x2 x3 x4 (lidx_main_v34 (ix2 n c) k))
    (fun k => val_main_v33 (F := Ideal) x5 (ridx_main_v34 (ix2 n c) k)) _ _
    (cat_upd0_0 x0 x1 x2 x3 x4 n c) (cat_upd0_1 x0 x1 x2 x3 x4 n c)
    (w_upd0 x5 n c) (b_upd0 x6 n c) (z_upd0 _)

/-! ### Layer 1: the messages -/

/-- Layer 1's message weights, as the product reads them: row `k`, column `c` of the layer's 144 × 64 matrix. -/
theorem w_msg1 (x3 : (⟨S3x144x64, .f32⟩ : BufTy).Contents (Elt Ideal)) (e : Fin 800000) (c : Fin 64) (k : Fin 144) :
    val_main_v57 (F := Ideal) x3 (ridx_main_v58 (ix2 e c) k) = x3 (ix3 1 k c) := by
  rw [val_main_v57_apply, val_main_v56_apply]
  exact congrArg x3 (funext fun a => Fin.ext (by
    match a with
    | ⟨0, _⟩ => rfl
    | ⟨1, _⟩ => show (k.val * 64 + c.val) / 64 % 144 = k.val; omega
    | ⟨2, _⟩ => show (k.val * 64 + c.val) % 64 = c.val; omega))

/-- Layer 1's message bias, broadcast down the edges: entry `c` of the layer's row. -/
theorem b_msg1 (x4 : (⟨S3x64, .f32⟩ : BufTy).Contents (Elt Ideal)) (e : Fin 800000) (c : Fin 64) :
    val_main_v62 (F := Ideal) x4 (ix2 e c) = x4 (ix2 1 c) := by
  rw [val_main_v62_apply, val_main_v61_apply, val_main_v60_apply, val_main_v59_apply]
  exact congrArg x4 (funext fun a => Fin.ext (by
    match a with
    | ⟨0, _⟩ => rfl
    | ⟨1, _⟩ => show (c.val) % 64 = c.val; omega))

/-- The rectifier's threshold in layer 1's messages is the zero word. -/
theorem z_msg1 (i : S800000x64.Idx) : val_main_call2_v0 (F := Ideal) i = Cert.Spec.Z :=
  (val_main_call2_v0_apply i).trans (val_main_call2_cst_apply _)

/-- Row `e` of layer 1's concatenated message input, in its first band: the destination's row. -/
theorem cat_msg1_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 64) :
    val_main_v55 (F := Ideal) x0 x1 x2 x3 x4 x5 x6 (lidx_main_v58 (ix2 e c) (Cert.Spec.band0 (by decide) k))
      = val_main_v47 (F := Ideal) x0 x1 x2 x3 x4 x5 x6 (ix2 e k) := by
  unfold val_main_v55
  exact cat3_band0 _ _ _ _ e k rfl rfl

/-- … in its second band: the source's row. -/
theorem cat_msg1_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 64) :
    val_main_v55 (F := Ideal) x0 x1 x2 x3 x4 x5 x6 (lidx_main_v58 (ix2 e c) (Cert.Spec.band1 (by decide) k))
      = val_main_v54 (F := Ideal) x0 x1 x2 x3 x4 x5 x6 (ix2 e k) := by
  unfold val_main_v55
  exact cat3_band1 _ _ _ _ e k rfl rfl

/-- … in its third band: the edge's attributes. -/
theorem cat_msg1_2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 16) :
    val_main_v55 (F := Ideal) x0 x1 x2 x3 x4 x5 x6 (lidx_main_v58 (ix2 e c) (Cert.Spec.band2 k)) = x2 (ix2 e k) := by
  unfold val_main_v55
  exact cat3_band2 _ _ _ _ e k rfl rfl

/-- Layer 1's messages, element by element. -/
theorem ref_msg1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) :
    val_main_v64 (F := Ideal) x0 x1 x2 x3 x4 x5 x6 (ix2 e c)
      = Cert.Spec.msgVal 1 (val_main_v47 (F := Ideal) x0 x1 x2 x3 x4 x5 x6) (val_main_v54 (F := Ideal) x0 x1 x2 x3 x4 x5 x6) x2 x3 x4 e c := by
  rw [val_main_v64_apply, val_main_v63_apply, val_main_v58_apply]
  exact msg_assemble 1 _ _ x2 x3 x4 e c
    (fun k => val_main_v55 (F := Ideal) x0 x1 x2 x3 x4 x5 x6 (lidx_main_v58 (ix2 e c) k))
    (fun k => val_main_v57 (F := Ideal) x3 (ridx_main_v58 (ix2 e c) k)) _ _
    (cat_msg1_0 x0 x1 x2 x3 x4 x5 x6 e c) (cat_msg1_1 x0 x1 x2 x3 x4 x5 x6 e c) (cat_msg1_2 x0 x1 x2 x3 x4 x5 x6 e c)
    (w_msg1 x3 e c) (b_msg1 x4 e c) (z_msg1 _)

/-! ### Layer 1: the node update -/

/-- Layer 1's update weights, as the product reads them: row `k`, column `c` of the layer's 128 × 64 matrix. -/
theorem w_upd1 (x5 : (⟨S3x128x64, .f32⟩ : BufTy).Contents (Elt Ideal)) (n : Fin 50000) (c : Fin 64) (k : Fin 128) :
    val_main_v70 (F := Ideal) x5 (ridx_main_v71 (ix2 n c) k) = x5 (ix3 1 k c) := by
  rw [val_main_v70_apply, val_main_v69_apply]
  exact congrArg x5 (funext fun a => Fin.ext (by
    match a with
    | ⟨0, _⟩ => rfl
    | ⟨1, _⟩ => show (k.val * 64 + c.val) / 64 % 128 = k.val; omega
    | ⟨2, _⟩ => show (k.val * 64 + c.val) % 64 = c.val; omega))

/-- Layer 1's update bias, broadcast down the nodes: entry `c` of the layer's row. -/
theorem b_upd1 (x6 : (⟨S3x64, .f32⟩ : BufTy).Contents (Elt Ideal)) (n : Fin 50000) (c : Fin 64) :
    val_main_v75 (F := Ideal) x6 (ix2 n c) = x6 (ix2 1 c) := by
  rw [val_main_v75_apply, val_main_v74_apply, val_main_v73_apply, val_main_v72_apply]
  exact congrArg x6 (funext fun a => Fin.ext (by
    match a with
    | ⟨0, _⟩ => rfl
    | ⟨1, _⟩ => show (c.val) % 64 = c.val; omega))

/-- The rectifier's threshold in layer 1's update is the zero word. -/
theorem z_upd1 (i : S50000x64.Idx) : val_main_call3_v0 (F := Ideal) i = Cert.Spec.Z :=
  (val_main_call3_v0_apply i).trans (val_main_call3_cst_apply _)

/-- Row `n` of layer 1's concatenated update input, in its first band: the node's own row. -/
theorem cat_upd1_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) (k : Fin 64) :
    val_main_v68 (F := Ideal) x0 x1 x2 x3 x4 x5 x6 (lidx_main_v71 (ix2 n c) (Cert.Spec.band0 (by decide) k))
      = (val_main_v40 (F := Ideal) x0 x1 x2 x3 x4 x5 x6) (ix2 n k) := by
  unfold val_main_v68
  exact cat2_band0 _ _ _ n k rfl rfl

/-- … in its second band: the node's aggregated messages. -/
theorem cat_upd1_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) (k : Fin 64) :
    val_main_v68 (F := Ideal) x0 x1 x2 x3 x4 x5 x6 (lidx_main_v71 (ix2 n c) (Cert.Spec.band1 (by decide) k))
      = val_main_v67 (F := Ideal) x0 x1 x2 x3 x4 x5 x6 (ix2 n k) := by
  unfold val_main_v68
  exact cat2_band1 _ _ _ n k rfl rfl

/-- Layer 1's updated node features, element by element. -/
theorem ref_upd1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) :
    val_main_v77 (F := Ideal) x0 x1 x2 x3 x4 x5 x6 (ix2 n c)
      = Cert.Spec.updVal 1 (val_main_v40 (F := Ideal) x0 x1 x2 x3 x4 x5 x6) (val_main_v67 (F := Ideal) x0 x1 x2 x3 x4 x5 x6) x5 x6 n c := by
  rw [val_main_v77_apply, val_main_v76_apply, val_main_v71_apply]
  exact upd_assemble 1 _ _ x5 x6 n c
    (fun k => val_main_v68 (F := Ideal) x0 x1 x2 x3 x4 x5 x6 (lidx_main_v71 (ix2 n c) k))
    (fun k => val_main_v70 (F := Ideal) x5 (ridx_main_v71 (ix2 n c) k)) _ _
    (cat_upd1_0 x0 x1 x2 x3 x4 x5 x6 n c) (cat_upd1_1 x0 x1 x2 x3 x4 x5 x6 n c)
    (w_upd1 x5 n c) (b_upd1 x6 n c) (z_upd1 _)

/-! ### Layer 2: the messages -/

/-- Layer 2's message weights, as the product reads them: row `k`, column `c` of the layer's 144 × 64 matrix. -/
theorem w_msg2 (x3 : (⟨S3x144x64, .f32⟩ : BufTy).Contents (Elt Ideal)) (e : Fin 800000) (c : Fin 64) (k : Fin 144) :
    val_main_v94 (F := Ideal) x3 (ridx_main_v95 (ix2 e c) k) = x3 (ix3 2 k c) := by
  rw [val_main_v94_apply, val_main_v93_apply]
  exact congrArg x3 (funext fun a => Fin.ext (by
    match a with
    | ⟨0, _⟩ => rfl
    | ⟨1, _⟩ => show (k.val * 64 + c.val) / 64 % 144 = k.val; omega
    | ⟨2, _⟩ => show (k.val * 64 + c.val) % 64 = c.val; omega))

/-- Layer 2's message bias, broadcast down the edges: entry `c` of the layer's row. -/
theorem b_msg2 (x4 : (⟨S3x64, .f32⟩ : BufTy).Contents (Elt Ideal)) (e : Fin 800000) (c : Fin 64) :
    val_main_v99 (F := Ideal) x4 (ix2 e c) = x4 (ix2 2 c) := by
  rw [val_main_v99_apply, val_main_v98_apply, val_main_v97_apply, val_main_v96_apply]
  exact congrArg x4 (funext fun a => Fin.ext (by
    match a with
    | ⟨0, _⟩ => rfl
    | ⟨1, _⟩ => show (c.val) % 64 = c.val; omega))

/-- The rectifier's threshold in layer 2's messages is the zero word. -/
theorem z_msg2 (i : S800000x64.Idx) : val_main_call4_v0 (F := Ideal) i = Cert.Spec.Z :=
  (val_main_call4_v0_apply i).trans (val_main_call4_cst_apply _)

/-- Row `e` of layer 2's concatenated message input, in its first band: the destination's row. -/
theorem cat_msg2_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 64) :
    val_main_v92 (F := Ideal) x0 x1 x2 x3 x4 x5 x6 (lidx_main_v95 (ix2 e c) (Cert.Spec.band0 (by decide) k))
      = val_main_v84 (F := Ideal) x0 x1 x2 x3 x4 x5 x6 (ix2 e k) := by
  unfold val_main_v92
  exact cat3_band0 _ _ _ _ e k rfl rfl

/-- … in its second band: the source's row. -/
theorem cat_msg2_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 64) :
    val_main_v92 (F := Ideal) x0 x1 x2 x3 x4 x5 x6 (lidx_main_v95 (ix2 e c) (Cert.Spec.band1 (by decide) k))
      = val_main_v91 (F := Ideal) x0 x1 x2 x3 x4 x5 x6 (ix2 e k) := by
  unfold val_main_v92
  exact cat3_band1 _ _ _ _ e k rfl rfl

/-- … in its third band: the edge's attributes. -/
theorem cat_msg2_2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) (k : Fin 16) :
    val_main_v92 (F := Ideal) x0 x1 x2 x3 x4 x5 x6 (lidx_main_v95 (ix2 e c) (Cert.Spec.band2 k)) = x2 (ix2 e k) := by
  unfold val_main_v92
  exact cat3_band2 _ _ _ _ e k rfl rfl

/-- Layer 2's messages, element by element. -/
theorem ref_msg2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (e : Fin 800000) (c : Fin 64) :
    val_main_v101 (F := Ideal) x0 x1 x2 x3 x4 x5 x6 (ix2 e c)
      = Cert.Spec.msgVal 2 (val_main_v84 (F := Ideal) x0 x1 x2 x3 x4 x5 x6) (val_main_v91 (F := Ideal) x0 x1 x2 x3 x4 x5 x6) x2 x3 x4 e c := by
  rw [val_main_v101_apply, val_main_v100_apply, val_main_v95_apply]
  exact msg_assemble 2 _ _ x2 x3 x4 e c
    (fun k => val_main_v92 (F := Ideal) x0 x1 x2 x3 x4 x5 x6 (lidx_main_v95 (ix2 e c) k))
    (fun k => val_main_v94 (F := Ideal) x3 (ridx_main_v95 (ix2 e c) k)) _ _
    (cat_msg2_0 x0 x1 x2 x3 x4 x5 x6 e c) (cat_msg2_1 x0 x1 x2 x3 x4 x5 x6 e c) (cat_msg2_2 x0 x1 x2 x3 x4 x5 x6 e c)
    (w_msg2 x3 e c) (b_msg2 x4 e c) (z_msg2 _)

/-! ### Layer 2: the node update -/

/-- Layer 2's update weights, as the product reads them: row `k`, column `c` of the layer's 128 × 64 matrix. -/
theorem w_upd2 (x5 : (⟨S3x128x64, .f32⟩ : BufTy).Contents (Elt Ideal)) (n : Fin 50000) (c : Fin 64) (k : Fin 128) :
    val_main_v107 (F := Ideal) x5 (ridx_main_v108 (ix2 n c) k) = x5 (ix3 2 k c) := by
  rw [val_main_v107_apply, val_main_v106_apply]
  exact congrArg x5 (funext fun a => Fin.ext (by
    match a with
    | ⟨0, _⟩ => rfl
    | ⟨1, _⟩ => show (k.val * 64 + c.val) / 64 % 128 = k.val; omega
    | ⟨2, _⟩ => show (k.val * 64 + c.val) % 64 = c.val; omega))

/-- Layer 2's update bias, broadcast down the nodes: entry `c` of the layer's row. -/
theorem b_upd2 (x6 : (⟨S3x64, .f32⟩ : BufTy).Contents (Elt Ideal)) (n : Fin 50000) (c : Fin 64) :
    val_main_v112 (F := Ideal) x6 (ix2 n c) = x6 (ix2 2 c) := by
  rw [val_main_v112_apply, val_main_v111_apply, val_main_v110_apply, val_main_v109_apply]
  exact congrArg x6 (funext fun a => Fin.ext (by
    match a with
    | ⟨0, _⟩ => rfl
    | ⟨1, _⟩ => show (c.val) % 64 = c.val; omega))

/-- The rectifier's threshold in layer 2's update is the zero word. -/
theorem z_upd2 (i : S50000x64.Idx) : val_main_call5_v0 (F := Ideal) i = Cert.Spec.Z :=
  (val_main_call5_v0_apply i).trans (val_main_call5_cst_apply _)

/-- Row `n` of layer 2's concatenated update input, in its first band: the node's own row. -/
theorem cat_upd2_0 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) (k : Fin 64) :
    val_main_v105 (F := Ideal) x0 x1 x2 x3 x4 x5 x6 (lidx_main_v108 (ix2 n c) (Cert.Spec.band0 (by decide) k))
      = (val_main_v77 (F := Ideal) x0 x1 x2 x3 x4 x5 x6) (ix2 n k) := by
  unfold val_main_v105
  exact cat2_band0 _ _ _ n k rfl rfl

/-- … in its second band: the node's aggregated messages. -/
theorem cat_upd2_1 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) (k : Fin 64) :
    val_main_v105 (F := Ideal) x0 x1 x2 x3 x4 x5 x6 (lidx_main_v108 (ix2 n c) (Cert.Spec.band1 (by decide) k))
      = val_main_v104 (F := Ideal) x0 x1 x2 x3 x4 x5 x6 (ix2 n k) := by
  unfold val_main_v105
  exact cat2_band1 _ _ _ n k rfl rfl

/-- Layer 2's updated node features, element by element. -/
theorem ref_upd2 (x0 : (⟨S50000x64, .f32⟩ : BufTy).Contents (Elt Ideal)) (x1 : (⟨S2x800000, .i32⟩ : BufTy).Contents (Elt Ideal)) (x2 : (⟨S800000x16, .f32⟩ : BufTy).Contents (Elt Ideal)) (x3 : (⟨S3x144x64, .f32⟩ : BufTy).Contents (Elt Ideal)) (x4 : (⟨S3x64, .f32⟩ : BufTy).Contents (Elt Ideal)) (x5 : (⟨S3x128x64, .f32⟩ : BufTy).Contents (Elt Ideal)) (x6 : (⟨S3x64, .f32⟩ : BufTy).Contents (Elt Ideal)) (n : Fin 50000) (c : Fin 64) :
    val_main_v114 (F := Ideal) x0 x1 x2 x3 x4 x5 x6 (ix2 n c)
      = Cert.Spec.updVal 2 (val_main_v77 (F := Ideal) x0 x1 x2 x3 x4 x5 x6) (val_main_v104 (F := Ideal) x0 x1 x2 x3 x4 x5 x6) x5 x6 n c := by
  rw [val_main_v114_apply, val_main_v113_apply, val_main_v108_apply]
  exact upd_assemble 2 _ _ x5 x6 n c
    (fun k => val_main_v105 (F := Ideal) x0 x1 x2 x3 x4 x5 x6 (lidx_main_v108 (ix2 n c) k))
    (fun k => val_main_v107 (F := Ideal) x5 (ridx_main_v108 (ix2 n c) k)) _ _
    (cat_upd2_0 x0 x1 x2 x3 x4 x5 x6 n c) (cat_upd2_1 x0 x1 x2 x3 x4 x5 x6 n c)
    (w_upd2 x5 n c) (b_upd2 x6 n c) (z_upd2 _)

end Cert.ReferenceIdeal.RefValue

end
-- ==== Proof.RefShared.lean ====
/-
  The reference's gathers and scatter-adds are the very functions the kernel's host side uses.

  Both programs take the two rows of the edge list the same way (a slice of the 2 × 800000 array, reshaped to a
  vector), wrap a negative node index the same way (compare with zero, add 50000, select), hand the wrapped indices
  as a one-column array to the same row gather, and sum the messages into their destination rows with the same
  scatter-add into a zero array. The two programs name the shapes and the operations' dimension records apart, but
  the names abbreviate the same literals, so each equation holds by unfolding the definitions.
-/
import proofs.«422810_j33131377721479_3_alg».proof.Proof.RefRead
import proofs.«422810_j33131377721479_3_alg».proof.Proof.KDefs

noncomputable section

namespace Cert.ReferenceIdeal.RefValue

open Cert.ReferenceIdeal Cert.ReferenceIdeal.Gen Cert.ReferenceIdeal.ReadP Idealize.ShloMosaic

variable {F : FTy → Type} [FloatOps F]

/-! ## The wrapped destination and source indices, layer by layer -/

theorem ref_wrapDst0 (x1 : (⟨S2x800000, .i32⟩ : BufTy).Contents (Elt F)) :
    val_main_v9 (F := F) x1 = Cert.KernelIdeal.KV.wrapJ (Cert.KernelIdeal.KV.dstJ x1) := by
  unfold val_main_v9 val_main_v8 val_main_v5 val_main_v4 val_main_c val_main_v7 val_main_v6 val_main_c_0 val_main_v3 val_main_v2
  rfl

theorem ref_wrapSrc0 (x1 : (⟨S2x800000, .i32⟩ : BufTy).Contents (Elt F)) :
    val_main_v16 (F := F) x1 = Cert.KernelIdeal.KV.wrapJ (Cert.KernelIdeal.KV.srcJ x1) := by
  unfold val_main_v16 val_main_v15 val_main_v12 val_main_v11 val_main_c_1 val_main_v14 val_main_v13 val_main_c_2 val_main_v1 val_main_v0
  rfl

theorem ref_wrapDst1 (x1 : (⟨S2x800000, .i32⟩ : BufTy).Contents (Elt F)) :
    val_main_v46 (F := F) x1 = Cert.KernelIdeal.KV.wrapJ (Cert.KernelIdeal.KV.dstJ x1) := by
  unfold val_main_v46 val_main_v45 val_main_v42 val_main_v41 val_main_c_3 val_main_v44 val_main_v43 val_main_c_4 val_main_v3 val_main_v2
  rfl

theorem ref_wrapSrc1 (x1 : (⟨S2x800000, .i32⟩ : BufTy).Contents (Elt F)) :
    val_main_v53 (F := F) x1 = Cert.KernelIdeal.KV.wrapJ (Cert.KernelIdeal.KV.srcJ x1) := by
  unfold val_main_v53 val_main_v52 val_main_v49 val_main_v48 val_main_c_5 val_main_v51 val_main_v50 val_main_c_6 val_main_v1 val_main_v0
  rfl

theorem ref_wrapDst2 (x1 : (⟨S2x800000, .i32⟩ : BufTy).Contents (Elt F)) :
    val_main_v83 (F := F) x1 = Cert.KernelIdeal.KV.wrapJ (Cert.KernelIdeal.KV.dstJ x1) := by
  unfold val_main_v83 val_main_v82 val_main_v79 val_main_v78 val_main_c_8 val_main_v81 val_main_v80 val_main_c_9 val_main_v3 val_main_v2
  rfl

theorem ref_wrapSrc2 (x1 : (⟨S2x800000, .i32⟩ : BufTy).Contents (Elt F)) :
    val_main_v90 (F := F) x1 = Cert.KernelIdeal.KV.wrapJ (Cert.KernelIdeal.KV.srcJ x1) := by
  unfold val_main_v90 val_main_v89 val_main_v86 val_main_v85 val_main_c_10 val_main_v88 val_main_v87 val_main_c_11 val_main_v1 val_main_v0
  rfl

/-! ## The row gather -/

theorem ref_gather (X : FVec F S50000x64 .f32) (I : IVec S800000x1 32) :
    Host.gather gather_S50000x64_S800000x1_S800000x64_1_0_n_n_0_1_164 X I = Cert.KernelIdeal.KV.gatherRows X I := rfl

/-! ## The scatter-add of the messages into their destination rows, layer by layer -/

theorem ref_agg0 (x1 : (⟨S2x800000, .i32⟩ : BufTy).Contents (Elt F)) (M : FVec F S800000x64 .f32) :
    Host.scatterAdd scatter_S50000x64_S800000x1_S800000x64_1_0_0_1 (val_main_v28 (F := F)) (val_main_v29 (F := F) x1) M
      = Cert.KernelIdeal.KV.aggRows (Cert.KernelIdeal.KV.dstJ x1) M := by
  unfold val_main_v28 val_main_cst val_main_v29 val_main_v3 val_main_v2
  rfl

theorem ref_agg1 (x1 : (⟨S2x800000, .i32⟩ : BufTy).Contents (Elt F)) (M : FVec F S800000x64 .f32) :
    Host.scatterAdd scatter_S50000x64_S800000x1_S800000x64_1_0_0_1 (val_main_v65 (F := F)) (val_main_v66 (F := F) x1) M
      = Cert.KernelIdeal.KV.aggRows (Cert.KernelIdeal.KV.dstJ x1) M := by
  unfold val_main_v65 val_main_cst_7 val_main_v66 val_main_v3 val_main_v2
  rfl

theorem ref_agg2 (x1 : (⟨S2x800000, .i32⟩ : BufTy).Contents (Elt F)) (M : FVec F S800000x64 .f32) :
    Host.scatterAdd scatter_S50000x64_S800000x1_S800000x64_1_0_0_1 (val_main_v102 (F := F)) (val_main_v103 (F := F) x1) M
      = Cert.KernelIdeal.KV.aggRows (Cert.KernelIdeal.KV.dstJ x1) M := by
  unfold val_main_v102 val_main_cst_12 val_main_v103 val_main_v3 val_main_v2
  rfl

end Cert.ReferenceIdeal.RefValue

end
-- ==== Proof.RefChain.lean ====
/-
  The reference's three layers in the form the kernel's are brought to. Each of its stages is the layer function of
  the stage before: its gathers are the plain row gathers at the wrapped edge endpoints, its scatter-add the sum of the
  messages by destination, and element by element its two matrix products over the concatenated rows split, at the
  joints of the concatenation, into the bands the layer function sums.
-/
import proofs.«422810_j33131377721479_3_alg».proof.Proof.RefLayer
import proofs.«422810_j33131377721479_3_alg».proof.Proof.RefShared
import proofs.«422810_j33131377721479_3_alg».proof.Proof.Layer

noncomputable section

namespace Cert.ReferenceIdeal.RefValue

open Cert.ReferenceIdeal Cert.ReferenceIdeal.Gen Cert.ReferenceIdeal.ReadP Idealize.ShloMosaic Idealize.ShloMosaic.ValueIdx
open Cert.KernelIdeal.KV (msgArr layer msgArr_apply layer_apply ext_ix2 gatherRows aggRows wrapJ dstJ srcJ)

variable (x0 : (⟨S50000x64, .f32⟩ : BufTy).Contents (Elt Ideal)) (x1 : (⟨S2x800000, .i32⟩ : BufTy).Contents (Elt Ideal))
  (x2 : (⟨S800000x16, .f32⟩ : BufTy).Contents (Elt Ideal)) (x3 : (⟨S3x144x64, .f32⟩ : BufTy).Contents (Elt Ideal))
  (x4 : (⟨S3x64, .f32⟩ : BufTy).Contents (Elt Ideal)) (x5 : (⟨S3x128x64, .f32⟩ : BufTy).Contents (Elt Ideal))
  (x6 : (⟨S3x64, .f32⟩ : BufTy).Contents (Elt Ideal))

/-- Layer 0's messages. -/
theorem rM0 : val_main_v27 (F := Ideal) x0 x1 x2 x3 x4 = msgArr 0 x0 x1 x2 x3 x4 := by
  refine ext_ix2 fun e c => ?_
  have hd : val_main_v10 (F := Ideal) x0 x1 = gatherRows (F := Ideal) x0 (wrapJ (dstJ x1)) := by
    unfold val_main_v10; exact (ref_gather (F := Ideal) _ _).trans (congrArg (gatherRows (F := Ideal) _) (ref_wrapDst0 (F := Ideal) x1))
  have hs : val_main_v17 (F := Ideal) x0 x1 = gatherRows (F := Ideal) x0 (wrapJ (srcJ x1)) := by
    unfold val_main_v17; exact (ref_gather (F := Ideal) _ _).trans (congrArg (gatherRows (F := Ideal) _) (ref_wrapSrc0 (F := Ideal) x1))
  rw [ref_msg0, msgArr_apply, hd, hs]

/-- The features after layer 0. -/
theorem rX1 : val_main_v40 (F := Ideal) x0 x1 x2 x3 x4 x5 x6 = layer 0 x0 x1 x2 x3 x4 x5 x6 := by
  refine ext_ix2 fun n c => ?_
  have hg : val_main_v30 (F := Ideal) x0 x1 x2 x3 x4 = aggRows (F := Ideal) (dstJ x1) (msgArr 0 x0 x1 x2 x3 x4) := by
    unfold val_main_v30; exact (ref_agg0 (F := Ideal) x1 _).trans (congrArg (aggRows (F := Ideal) (dstJ x1)) (rM0 x0 x1 x2 x3 x4))
  rw [ref_upd0, layer_apply, hg]

/-- Layer 1's messages. -/
theorem rM1 : val_main_v64 (F := Ideal) x0 x1 x2 x3 x4 x5 x6 = msgArr 1 (val_main_v40 (F := Ideal) x0 x1 x2 x3 x4 x5 x6) x1 x2 x3 x4 := by
  refine ext_ix2 fun e c => ?_
  have hd : val_main_v47 (F := Ideal) x0 x1 x2 x3 x4 x5 x6 = gatherRows (F := Ideal) (val_main_v40 (F := Ideal) x0 x1 x2 x3 x4 x5 x6) (wrapJ (dstJ x1)) := by
    unfold val_main_v47; exact (ref_gather (F := Ideal) _ _).trans (congrArg (gatherRows (F := Ideal) _) (ref_wrapDst1 (F := Ideal) x1))
  have hs : val_main_v54 (F := Ideal) x0 x1 x2 x3 x4 x5 x6 = gatherRows (F := Ideal) (val_main_v40 (F := Ideal) x0 x1 x2 x3 x4 x5 x6) (wrapJ (srcJ x1)) := by
    unfold val_main_v54; exact (ref_gather (F := Ideal) _ _).trans (congrArg (gatherRows (F := Ideal) _) (ref_wrapSrc1 (F := Ideal) x1))
  rw [ref_msg1, msgArr_apply, hd, hs]

/-- The features after layer 1. -/
theorem rX2 : val_main_v77 (F := Ideal) x0 x1 x2 x3 x4 x5 x6 = layer 1 (val_main_v40 (F := Ideal) x0 x1 x2 x3 x4 x5 x6) x1 x2 x3 x4 x5 x6 := by
  refine ext_ix2 fun n c => ?_
  have hg : val_main_v67 (F := Ideal) x0 x1 x2 x3 x4 x5 x6 = aggRows (F := Ideal) (dstJ x1) (msgArr 1 (val_main_v40 (F := Ideal) x0 x1 x2 x3 x4 x5 x6) x1 x2 x3 x4) := by
    unfold val_main_v67; exact (ref_agg1 (F := Ideal) x1 _).trans (congrArg (aggRows (F := Ideal) (dstJ x1)) (rM1 x0 x1 x2 x3 x4 x5 x6))
  rw [ref_upd1, layer_apply, hg]

/-- Layer 2's messages. -/
theorem rM2 : val_main_v101 (F := Ideal) x0 x1 x2 x3 x4 x5 x6 = msgArr 2 (val_main_v77 (F := Ideal) x0 x1 x2 x3 x4 x5 x6) x1 x2 x3 x4 := by
  refine ext_ix2 fun e c => ?_
  have hd : val_main_v84 (F := Ideal) x0 x1 x2 x3 x4 x5 x6 = gatherRows (F := Ideal) (val_main_v77 (F := Ideal) x0 x1 x2 x3 x4 x5 x6) (wrapJ (dstJ x1)) := by
    unfold val_main_v84; exact (ref_gather (F := Ideal) _ _).trans (congrArg (gatherRows (F := Ideal) _) (ref_wrapDst2 (F := Ideal) x1))
  have hs : val_main_v91 (F := Ideal) x0 x1 x2 x3 x4 x5 x6 = gatherRows (F := Ideal) (val_main_v77 (F := Ideal) x0 x1 x2 x3 x4 x5 x6) (wrapJ (srcJ x1)) := by
    unfold val_main_v91; exact (ref_gather (F := Ideal) _ _).trans (congrArg (gatherRows (F := Ideal) _) (ref_wrapSrc2 (F := Ideal) x1))
  rw [ref_msg2, msgArr_apply, hd, hs]

/-- The features after layer 2: the reference's result. -/
theorem rX3 : val_main_v114 (F := Ideal) x0 x1 x2 x3 x4 x5 x6 = layer 2 (val_main_v77 (F := Ideal) x0 x1 x2 x3 x4 x5 x6) x1 x2 x3 x4 x5 x6 := by
  refine ext_ix2 fun n c => ?_
  have hg : val_main_v104 (F := Ideal) x0 x1 x2 x3 x4 x5 x6 = aggRows (F := Ideal) (dstJ x1) (msgArr 2 (val_main_v77 (F := Ideal) x0 x1 x2 x3 x4 x5 x6) x1 x2 x3 x4) := by
    unfold val_main_v104; exact (ref_agg2 (F := Ideal) x1 _).trans (congrArg (aggRows (F := Ideal) (dstJ x1)) (rM2 x0 x1 x2 x3 x4 x5 x6))
  rw [ref_upd2, layer_apply, hg]

/-- The reference's result as the three layers applied in turn to the input features. -/
theorem result_eq : val_main_v114 (F := Ideal) x0 x1 x2 x3 x4 x5 x6
    = layer 2 (layer 1 (layer 0 x0 x1 x2 x3 x4 x5 x6) x1 x2 x3 x4 x5 x6) x1 x2 x3 x4 x5 x6 := by
  rw [rX3, rX2, rX1]

end Cert.ReferenceIdeal.RefValue

end
-- ==== Proof.PreRange.lean ====
/-
  What the precondition says of the edge list: every entry, read as an unsigned word, is below 50000 (the number of
  node rows), because every entry is at least 0 and below 50000 as a signed word.
-/
import proofs.«422810_j33131377721479_3_alg».proof.Pre_finite_inputs
import proofs.«422810_j33131377721479_3_alg».proof.Proof.Gen.Pre_finite_inputs
import Idealize.ShloMosaic.Lib.StableHlo.Predicate
import Idealize.ShloMosaic.Lib.ReduceAll
import Idealize.ShloMosaic.Lib.ValueIdx

namespace Cert.Pre_finite_inputs.Range

open Idealize.ShloMosaic
open Cert.Pre_finite_inputs Cert.Pre_finite_inputs.Gen

/-- A 32-bit word that is at least 0 and below 50000 as a signed word is below 50000 as an unsigned word. -/
theorem word_range (x : BitVec 32) (h0 : IntOp.cmpi .sge x 0#32 = 1#1) (h1 : IntOp.cmpi .slt x 50000#32 = 1#1) :
    x.toNat < 50000 := by
  unfold IntOp.cmpi at h0 h1
  rw [StableHlo.Predicate.ofBool_eq_one_iff] at h0 h1
  simp only [BitVec.sle, BitVec.slt, decide_eq_true_eq] at h0 h1
  have e0 : (0#32).toInt = 0 := by decide
  have e1 : (50000#32).toInt = 50000 := by decide
  rw [e0] at h0
  rw [e1] at h1
  rw [BitVec.toInt_eq_toNat_cond] at h0 h1
  have hx := x.isLt
  split at h0 <;> omega

/-- Under the precondition every entry of the edge list is a row number: below 50000 as an unsigned word. -/
theorem edge_range {F : FTy → Type} [FloatOps F] (a0 : FVec F S50000x64 .f32) (a1 : IVec S2x800000 32)
    (a2 : FVec F S800000x16 .f32) (a3 : FVec F S3x144x64 .f32) (a4 : FVec F S3x64 .f32) (a5 : FVec F S3x128x64 .f32)
    (a6 : FVec F S3x64 .f32)
    (h : Cert.Pre_finite_inputs.fn (F := F) a0 a1 a2 a3 a4 a5 a6 = fun _ => 1#1) :
    ∀ i : S2x800000.Idx, (a1 i).toNat < 50000 := by
  intro i
  haveI : Subsingleton S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 i
  have h3 := IntOp.andi_eq_one.1 h2
  exact word_range (a1 i) h3.1 h3.2
-- ==== Proof.lean ====
/-
  The certificate of the three-layer message-passing network: the Pallas program (two kinds of launches — the
  edges' messages and the nodes' update — between host gathers and scatter-adds) against the plain jnp reference.

  Over the extended reals both programs apply, three times, the same layer function to the node features: per edge the
  rectified affine map of the two endpoint rows and the edge's attributes — the kernel as three matrix products summed,
  the reference as one product of the concatenated row; a sum over the 144 columns split at the two joints —, the sum
  of the messages by destination, and per node the rectified affine map of the node's row and its aggregate, again one
  product split at its joint. Splitting a finite sum uses only commutativity and associativity of addition, so no
  finiteness of the entries is used. What is used of the precondition is its conjunct on the edge list: every endpoint
  is a node (an index in [0, 50000)). There the kernel's row gather, which writes a fill word where an index is not a
  row, is the reference's plain gather; outside it the reference indexes out of range.

  The frames of the two kernel programs are the generated frame certificates; the reference's frame is its
  run (RefRun); the kernel's result array is read off the same launch over the segments with the result named (KRun), followed
  launch by launch (KLaunches); the reference's off its run, stage by stage (RefRead, RefChain).
-/
import proofs.«422810_j33131377721479_3_alg».proof.Defs
import proofs.«422810_j33131377721479_3_alg».proof.Proof.Gen.Kernel
import proofs.«422810_j33131377721479_3_alg».proof.Proof.Gen.Kernel.Frame
import proofs.«422810_j33131377721479_3_alg».proof.Proof.Gen.KernelIdeal
import proofs.«422810_j33131377721479_3_alg».proof.Proof.Gen.KernelIdeal.Frame
import proofs.«422810_j33131377721479_3_alg».proof.Proof.Gen.ReferenceIdeal
import proofs.«422810_j33131377721479_3_alg».proof.Proof.RefRun
import proofs.«422810_j33131377721479_3_alg».proof.Proof.RefRead
import proofs.«422810_j33131377721479_3_alg».proof.Proof.Gen.Pre_finite_inputs
import proofs.«422810_j33131377721479_3_alg».proof.Proof.KRun
import proofs.«422810_j33131377721479_3_alg».proof.Proof.KLaunches
import proofs.«422810_j33131377721479_3_alg».proof.Proof.RefChain
import proofs.«422810_j33131377721479_3_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the three layers applied in turn to the input features: the kernel's result array by the
    launches' chain under the edge list's range, the reference's by its stages; the arguments agree. -/
theorem algebraic : Cert.algebraic_KernelIdeal_ReferenceIdeal := by
  intro m ρ m' ρ' hpre hagree
  have hR : ∀ c : Dev Cert.KernelIdeal.nD, ∀ i : Cert.KernelIdeal.S2x800000.Idx,
      (Cert.KernelIdeal.KV.argE m c i).toNat < 50000 := fun c =>
    Cert.Pre_finite_inputs.Range.edge_range (F := Ideal) _ _ _ _ _ _ _ (hpre c)
  refine ⟨fun c => Cert.KernelIdeal.KV.layer 2 (Cert.KernelIdeal.KV.layer 1 (Cert.KernelIdeal.KV.layer 0
      (Cert.KernelIdeal.KV.argX m c) (Cert.KernelIdeal.KV.argE m c) (Cert.KernelIdeal.KV.argA m c) (Cert.KernelIdeal.KV.argMW m c)
      (Cert.KernelIdeal.KV.argMB m c) (Cert.KernelIdeal.KV.argUW m c) (Cert.KernelIdeal.KV.argUB m c))
      (Cert.KernelIdeal.KV.argE m c) (Cert.KernelIdeal.KV.argA m c) (Cert.KernelIdeal.KV.argMW m c)
      (Cert.KernelIdeal.KV.argMB m c) (Cert.KernelIdeal.KV.argUW m c) (Cert.KernelIdeal.KV.argUB m c))
      (Cert.KernelIdeal.KV.argE m c) (Cert.KernelIdeal.KV.argA m c) (Cert.KernelIdeal.KV.argMW m c)
      (Cert.KernelIdeal.KV.argMB m c) (Cert.KernelIdeal.KV.argUW m c) (Cert.KernelIdeal.KV.argUB m c), ?_, ?_⟩
  · exact (θ_run Cert.KernelIdeal.defs _ _).mono
      (fun r h c => ⟨(h c).1.trans (Cert.KernelIdeal.KV.kX3 m ρ c (hR c)), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6⟩ := hagree c
    rw [Cert.ReferenceIdeal.ReadP.val_main_v114_eq, Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
